-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S2048 : Shape := ⟨1, ![2048]⟩
abbrev S32000 : Shape := ⟨1, ![32000]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg4 : IVec S2048 32) (main_v28 : IVec S_ 1) (main_v30 : IVec S2048 1) (main_v32 : IVec S2048 1) (main_c_12 : IVec S_ 32) : IVec S_ 1 :=
  let main_v33 : IVec S2048 32 := broadcastInDim S2048 ![] bcast_S_S2048 main_c_12
  let main_v34 : IVec S2048 1 := cmpi .slt main_arg4 main_v33
  let main_v35 : IVec S2048 1 := andi main_v32 main_v34
  let main_v36 : IVec S2048 1 := ori main_v30 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v28 main_v37
  main_v38

def fn_part1 {F : FTy → Type} [FloatOps F] (main_arg4 : IVec S2048 32) (main_arg5 : FVec F S32000 .f32) (main_arg6 : FVec F S32000 .f32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_v19 : FVec F S32000 .f32 := Host.absf main_arg5
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 4294967196#32
  let main_v29 : IVec S2048 32 := broadcastInDim S2048 ![] bcast_S_S2048 main_c_10
  let main_v30 : IVec S2048 1 := cmpi .eq main_arg4 main_v29
  let main_c_11 : IVec S_ 32 := constantI S_ 32 0#32
  let main_v31 : IVec S2048 32 := broadcastInDim S2048 ![] bcast_S_S2048 main_c_11
  let main_v32 : IVec S2048 1 := cmpi .sge main_arg4 main_v31
  let main_c_12 : IVec S_ 32 := constantI S_ 32 32000#32
  fn_part2 (F := F) main_arg4 main_v28 main_v30 main_v32 main_c_12

def fn {F : FTy → Type} [FloatOps F] (main_arg0 : FVec F S2048x2048 .f32) (main_arg1 : FVec F S32000x2048 .f32) (main_arg2 : FVec F S2048x2048 .f32) (main_arg3 : FVec F S32000x2048 .f32) (main_arg4 : IVec S2048 32) (main_arg5 : FVec F S32000 .f32) (main_arg6 : FVec F S32000 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S32000x2048 .f32 := Host.absf main_arg3
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg4 main_arg5 main_arg6 main_v13 main_v16
-- ==== Kernel.lean ====
abbrev S2048x2048 : Shape := ⟨2, ![2048, 2048]⟩
abbrev S32000x2048 : Shape := ⟨2, ![32000, 2048]⟩
abbrev S2048 : Shape := ⟨1, ![2048]⟩
abbrev S32000 : Shape := ⟨1, ![32000]⟩
abbrev S2048x1 : Shape := ⟨2, ![2048, 1]⟩
abbrev S1x32000 : Shape := ⟨2, ![1, 32000]⟩
abbrev S1024x2048 : Shape := ⟨2, ![1024, 2048]⟩
abbrev S256x2048 : Shape := ⟨2, ![256, 2048]⟩
abbrev S1x256 : Shape := ⟨2, ![1, 256]⟩
abbrev S1024x1 : Shape := ⟨2, ![1024, 1]⟩
abbrev S1024x256 : Shape := ⟨2, ![1024, 256]⟩
abbrev S1024 : Shape := ⟨1, ![1024]⟩
abbrev S_ : Shape := ⟨0, ![]⟩

abbrev nBuf : Space → Nat
  | .hbm => 45
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x2048, .f32⟩
  | .hbm, ⟨3, _⟩ => ⟨S32000x2048, .f32⟩
  | .hbm, ⟨4, _⟩ => ⟨S2048, .i32⟩
  | .hbm, ⟨5, _⟩ => ⟨S32000, .f32⟩
  | .hbm, ⟨6, _⟩ => ⟨S32000, .f32⟩
  | .hbm, ⟨7, _⟩ => ⟨S2048x1, .i32⟩
  | .hbm, ⟨8, _⟩ => ⟨S1x32000, .f32⟩
  | .hbm, ⟨9, _⟩ => ⟨S1x32000, .f32⟩
  | .hbm, ⟨10, _⟩ => ⟨S2048x2048, .bf16⟩
  | .hbm, ⟨11, _⟩ => ⟨S2048x2048, .bf16⟩
  | .hbm, ⟨12, _⟩ => ⟨S32000x2048, .bf16⟩
  | .hbm, ⟨13, _⟩ => ⟨S32000x2048, .bf16⟩
  | .hbm, ⟨14, _⟩ => ⟨S2048x1, .f32⟩
  | .hbm, ⟨15, _⟩ => ⟨S2048x1, .f32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1024x1, .i32⟩
  | .local _ .vmem, ⟨13, _⟩ => ⟨S1024x1, .i32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v87 : BitVec 1 := Scalar.cmpi .eq arg1 c124_i32
  let v88 : BitVec 32 := Scalar.extui v87
  let c0_i32_50 : BitVec 32 := 0#32
  let v89 : BitVec 1 := Scalar.cmpi .ne v88 c0_i32_50
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2048_S2048x1 : S2048.ShapeCasts S2048x1
  shapeCasts_S32000_S1x32000 : S32000.ShapeCasts S1x32000
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  iota_S1024x256_d1_w32 : S1024x256.Iotas .tc 32 [1]
  broadcasts_S1024x1_S1024x256 : S1024x1.Broadcasts S1024x256
  reduces_S1024x256_S1024 : S1024x256.Reduces [1] S1024
  shapeCasts_S1024_S1024x1 : S1024.ShapeCasts S1024x1
  bcast_S_S2048 : S_.BroadcastsInDim S2048 (![] : Fin 0 → Fin S2048.rank)
  reducesTo_S2048_S_d0 : S2048.ReducesTo [0] S_
  h_S_ : 0 < S_.numel
  shapeCasts_S2048x1_S2048 : S2048x1.ShapeCasts S2048
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .bf16 = 32 ∨ (Rect.block (s := S2048x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S32000x2048.size a
  hwx0_2 : ∀ i : grid0.Coords, EltTy.bits .bf16 = 32 ∨ (Rect.block (s := S32000x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S32000x2048.size a
  hwx0_3 : ∀ i : grid0.Coords, EltTy.bits .bf16 = 32 ∨ (Rect.block (s := S32000x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x32000.size a
  hwx0_4 : ∀ i : grid0.Coords, EltTy.bits .f32 = 32 ∨ (Rect.block (s := S1x32000) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x32000.size a
  hwx0_5 : ∀ i : grid0.Coords, EltTy.bits .f32 = 32 ∨ (Rect.block (s := S1x32000) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S2048x1.size a
  hwx0_6 : ∀ i : grid0.Coords, EltTy.bits .i32 = 32 ∨ (Rect.block (s := S2048x1) S1024x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S2048x1.size a
  hwx0_7 : ∀ i : grid0.Coords, EltTy.bits .f32 = 32 ∨ (Rect.block (s := S2048x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S2048x1.size a
  hwx0_8 : ∀ i : grid0.Coords, EltTy.bits .f32 = 32 ∨ (Rect.block (s := S2048x1) S1024x1.size (cc0_transform_8 i) (hinb0_8 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2048x2048 : Shape := ⟨2, ![2048, 2048]⟩
abbrev S32000x2048 : Shape := ⟨2, ![32000, 2048]⟩
abbrev S2048 : Shape := ⟨1, ![2048]⟩
abbrev S32000 : Shape := ⟨1, ![32000]⟩
abbrev S2048x32000 : Shape := ⟨2, ![2048, 32000]⟩
abbrev S1x32000 : Shape := ⟨2, ![1, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x2048, .f32⟩
  | .hbm, ⟨3, _⟩ => ⟨S32000x2048, .f32⟩
  | .hbm, ⟨4, _⟩ => ⟨S2048, .i32⟩
  | .hbm, ⟨5, _⟩ => ⟨S32000, .f32⟩
  | .hbm, ⟨6, _⟩ => ⟨S32000, .f32⟩
  | .hbm, ⟨7, _⟩ => ⟨S2048x32000, .f32⟩
  | .hbm, ⟨8, _⟩ => ⟨S2048x32000, .f32⟩
  | .hbm, ⟨9, _⟩ => ⟨S1x32000, .f32⟩
  | .hbm, ⟨10, _⟩ => ⟨S2048x32000, .f32⟩
  | .hbm, ⟨11, _⟩ => ⟨S2048x32000, .f32⟩
  | .hbm, ⟨12, _⟩ => ⟨S2048x32000, .f32⟩
  | .hbm, ⟨13, _⟩ => ⟨S2048x32000, .f32⟩
  | .hbm, ⟨14, _⟩ => ⟨S1x32000, .f32⟩
  | .hbm, ⟨15, _⟩ => ⟨S2048x32000, .f32⟩
  | .hbm, ⟨16, _⟩ => ⟨S2048x32000, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048x1, .f32⟩
  | .hbm, ⟨23, _⟩ => ⟨S2048x32000, .f32⟩
  | .hbm, ⟨24, _⟩ => ⟨S2048x32000, .f32⟩
  | .hbm, ⟨25, _⟩ => ⟨S2048x32000, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x1, .f32⟩
  | .hbm, ⟨30, _⟩ => ⟨S2048x32000, .f32⟩
  | .hbm, ⟨31, _⟩ => ⟨S2048x32000, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S_, .i32⟩
  | .hbm, ⟨44, _⟩ => ⟨S2048x1, .i32⟩
  | .hbm, ⟨45, _⟩ => ⟨S2048x1, .i32⟩
  | .hbm, ⟨46, _⟩ => ⟨S2048x1, .i32⟩
  | .hbm, ⟨47, _⟩ => ⟨S2048x1x1, .i32⟩
  | .hbm, ⟨48, _⟩ => ⟨S1, .i32⟩
  | .hbm, ⟨49, _⟩ => ⟨S_, .i32⟩
  | .hbm, ⟨50, _⟩ => ⟨S2048x1x1, .i32⟩
  | .hbm, ⟨51, _⟩ => ⟨S2048x1x1, .i1⟩
  | .hbm, ⟨52, _⟩ => ⟨S1x1x1, .i32⟩
  | .hbm, ⟨53, _⟩ => ⟨S2048x1x1, .i32⟩
  | .hbm, ⟨54, _⟩ => ⟨S2048x1x1, .i1⟩
  | .hbm, ⟨55, _⟩ => ⟨S2048x1x1, .i1⟩
  | .hbm, ⟨56, _⟩ => ⟨S_, .i1⟩
  | .hbm, ⟨57, _⟩ => ⟨S2048x1, .i1⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048, .f32⟩
  | .hbm, ⟨63, _⟩ => ⟨S2048, .f32⟩
  | .hbm, ⟨64, _⟩ => ⟨S2048, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2048, .f32⟩
  | .hbm, ⟨73, _⟩ => ⟨S2048, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x32000, .f32⟩
  | .hbm, ⟨79, _⟩ => ⟨S2048x32000, .f32⟩
  | .hbm, ⟨80, _⟩ => ⟨S_, .f32⟩
  | .hbm, ⟨81, _⟩ => ⟨S2048x32000, .f32⟩
  | .hbm, ⟨82, _⟩ => ⟨S2048x32000, .f32⟩
  | .hbm, ⟨83, _⟩ => ⟨S2048x32000, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S2048x32000, .f32⟩
  | .hbm, ⟨92, _⟩ => ⟨S2048x32000, .f32⟩
  | .hbm, ⟨93, _⟩ => ⟨S2048x32000, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x32000, .f32⟩
  | .hbm, ⟨102, _⟩ => ⟨S2048x32000, .f32⟩
  | .hbm, ⟨103, _⟩ => ⟨S2048x32000, .f32⟩
  | .hbm, ⟨104, _⟩ => ⟨S_, .f32⟩
  | .hbm, ⟨105, _⟩ => ⟨S2048, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S_, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_v13 : Ref sig .tc := ⟨.hbm, 38, rfl⟩
abbrev main_v14 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_c_1 : Ref sig .tc := ⟨.hbm, 65, rfl⟩
abbrev main_v19 : Ref sig .tc := ⟨.hbm, 66, rfl⟩
abbrev main_c_2 : Ref sig .tc := ⟨.hbm, 67, rfl⟩
abbrev main_v20 : Ref sig .tc := ⟨.hbm, 68, rfl⟩
abbrev main_v21 : Ref sig .tc := ⟨.hbm, 69, rfl⟩
abbrev main_cst : Ref sig .tc := ⟨.hbm, 70, rfl⟩
abbrev main_call3_v0 : Ref sig .tc := ⟨.hbm, 71, rfl⟩
abbrev main_call3_v1 : Ref sig .tc := ⟨.hbm, 72, rfl⟩
abbrev main_v22 : Ref sig .tc := ⟨.hbm, 73, rfl⟩
abbrev main_cst_3 : Ref sig .tc := ⟨.hbm, 74, rfl⟩
abbrev main_v23 : Ref sig .tc := ⟨.hbm, 75, rfl⟩
abbrev main_v24 : Ref sig .tc := ⟨.hbm, 76, rfl⟩
abbrev main_cst_4 : Ref sig .tc := ⟨.hbm, 77, rfl⟩
abbrev main_v25 : Ref sig .tc := ⟨.hbm, 78, rfl⟩
abbrev main_v26 : Ref sig .tc := ⟨.hbm, 79, rfl⟩
abbrev main_cst_5 : Ref sig .tc := ⟨.hbm, 80, rfl⟩
abbrev main_v27 : Ref sig .tc := ⟨.hbm, 81, rfl⟩
abbrev main_v28 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_call4_v2 : Ref sig .tc := ⟨.hbm, 86, rfl⟩
abbrev main_v29 : Ref sig .tc := ⟨.hbm, 87, rfl⟩
abbrev main_cst_6 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_call5_v0 : Ref sig .tc := ⟨.hbm, 93, rfl⟩
abbrev main_call5_cst : Ref sig .tc := ⟨.hbm, 94, rfl⟩
abbrev main_call5_v1 : Ref sig .tc := ⟨.hbm, 95, rfl⟩
abbrev main_call5_v2 : Ref sig .tc := ⟨.hbm, 96, rfl⟩
abbrev main_v34 : Ref sig .tc := ⟨.hbm, 97, rfl⟩
abbrev main_cst_7 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst_8 : Ref sig .tc := ⟨.hbm, 104, rfl⟩
abbrev main_v40 : Ref sig .tc := ⟨.hbm, 105, rfl⟩
abbrev main_cst_9 : Ref sig .tc := ⟨.hbm, 106, rfl⟩
abbrev main_v41 : Ref sig .tc := ⟨.hbm, 107, rfl⟩
abbrev main_v42 : Ref sig .tc := ⟨.hbm, 108, rfl⟩
abbrev main_cst_10 : Ref sig .tc := ⟨.hbm, 109, rfl⟩
abbrev main_v43 : Ref sig .tc := ⟨.hbm, 110, rfl⟩
abbrev main_v44 : Ref sig .tc := ⟨.hbm, 111, rfl⟩
abbrev main_cst_11 : Ref sig .tc := ⟨.hbm, 112, rfl⟩
abbrev main_v45 : Ref sig .tc := ⟨.hbm, 113, rfl⟩
abbrev main_cst_12 : Ref sig .tc := ⟨.hbm, 114, rfl⟩
abbrev main_v46 : Ref sig .tc := ⟨.hbm, 115, rfl⟩
abbrev main_cst_13 : Ref sig .tc := ⟨.hbm, 116, rfl⟩
abbrev main_v47 : Ref sig .tc := ⟨.hbm, 117, rfl⟩
abbrev main_cst_14 : Ref sig .tc := ⟨.hbm, 118, rfl⟩
abbrev main_v48 : Ref sig .tc := ⟨.hbm, 119, rfl⟩
abbrev main_v49 : Ref sig .tc := ⟨.hbm, 120, rfl⟩

abbrev nD : Nat := 1
abbrev τ : Topo := Topo.v7x

variable {F : FTy → Type} [FloatOps F]

class Facts₀ : Prop where
  transposes_S32000x2048_S2048x32000_1_0 : S32000x2048.Transposes [1, 0] S2048x32000
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  natLt_1_32 : 1 < 32
  reducesTo_S2048_S_d0 : S2048.ReducesTo [0] S_
  bcast_S_S2048x32000 : S_.BroadcastsInDim S2048x32000 (![] : Fin 0 → Fin S2048x32000.rank)
  dot_S2048x2048_S2048x32000_S2048x32000_1_0_0_1_n_n_wf : DotDims.WF S2048x2048 S2048x32000 S2048x32000 [1] [0] [0] [1] [] []
  gather_S2048x32000_S2048x1x1_S2048x1_n_1_0_0_1_2_11_wf : GatherDims.WF S2048x32000 S2048x1x1 S2048x1 [] [1] [0] [1] [0] 2 ![1, 1]

variable [Facts₀]

def dot_S2048x2048_S2048x32000_S2048x32000_1_0_0_1_n_n : DotDims S2048x2048 S2048x32000 S2048x32000 where
  lhsContracting := [1]
  rhsContracting := [0]
  lhsNonContracting := [0]
  rhsNonContracting := [1]
  lhsBatch := []
  rhsBatch := []
  wf := dot_S2048x2048_S2048x32000_S2048x32000_1_0_0_1_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.RefRun.lean ====
/-
  The reference's run, stretch by stretch.

  @main of the reference is 114 host operations: the two logit products with their biases (0 … 9); the log-softmax of the student
  logits (10 … 24); the validity mask and the safe labels (25 … 32); the gather of each row's log-probability at its label (33 … 54);
  the masked mean of the negated log-probabilities (55 … 69); the student logits normalised, and the teacher logits (70 … 85); the
  teacher logits normalised and the rows' inner products (86 … 98); the batch mean and the weighted sum (99 … 113). The contents after
  a list of operations are the contents after its second part run from the contents after its first part; so each stretch is run
  once from arbitrary contents, knowing only what it reads, and the stretches are chained: every buffer is written once, so a value
  a later stretch reads is carried unchanged through the stretches in between. What each stretch writes is the corresponding stage
  of the arguments (the stages are the read-at-an-index module's `val_…` functions).
-/
import proofs.«426442_j89240830476401_2_alg».proof.Proof.PatchedReference.Read
import proofs.«426442_j89240830476401_2_alg».proof.Proof.LibHostStretch

set_option maxRecDepth 8192
set_option maxHeartbeats 4000000

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.GraphConv

variable {F : FTy → Type} [FloatOps F]

/-- Stretch A: operations 0 … 9. -/
abbrev sA : List (HloOp τ sig (Elt F)) := List.take 10 (ops (F := F))
abbrev rA : List (HloOp τ sig (Elt F)) := List.drop 10 (ops (F := F))
/-- Stretch B: operations 10 … 24. -/
abbrev sB : List (HloOp τ sig (Elt F)) := List.take 15 (rA (F := F))
abbrev rB : List (HloOp τ sig (Elt F)) := List.drop 15 (rA (F := F))
/-- Stretch C: operations 25 … 32. -/
abbrev sC : List (HloOp τ sig (Elt F)) := List.take 8 (rB (F := F))
abbrev rC : List (HloOp τ sig (Elt F)) := List.drop 8 (rB (F := F))
/-- Stretch D: operations 33 … 54. -/
abbrev sD : List (HloOp τ sig (Elt F)) := List.take 22 (rC (F := F))
abbrev rD : List (HloOp τ sig (Elt F)) := List.drop 22 (rC (F := F))
/-- Stretch E: operations 55 … 69. -/
abbrev sE : List (HloOp τ sig (Elt F)) := List.take 15 (rD (F := F))
abbrev rE : List (HloOp τ sig (Elt F)) := List.drop 15 (rD (F := F))
/-- Stretch F: operations 70 … 85. -/
abbrev sF : List (HloOp τ sig (Elt F)) := List.take 16 (rE (F := F))
abbrev rF : List (HloOp τ sig (Elt F)) := List.drop 16 (rE (F := F))
/-- Stretch G: operations 86 … 98. -/
abbrev sG : List (HloOp τ sig (Elt F)) := List.take 13 (rF (F := F))
abbrev rG : List (HloOp τ sig (Elt F)) := List.drop 13 (rF (F := F))
/-- Stretch H: operations 99 … 113. -/
abbrev sH : List (HloOp τ sig (Elt F)) := rG (F := F)

/-- Stretch A writes `main_v4`: the stage `val_main_v4` of the arguments, given what it reads. -/
theorem stA_v4 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_arg0) = x0) (h1 : V (Proc.devRef .tc main_arg1) = x1) (h2 : V (Proc.devRef .tc main_arg5) = x5) :
    after (sA (F := F)) V (Proc.devRef .tc main_v4) = val_main_v4 (F := F) x0 x1 x5 := by
  simp only [sA, ops, List.take_succ_cons, List.take_zero, List.drop_succ_cons, List.drop_zero]
  after_results_simp
  try simp only [ofBuf_toBuf]
  rw [h0, h1, h2]
  rfl

/-- Stretch A writes `main_v9`: the stage `val_main_v9` of the arguments, given what it reads. -/
theorem stA_v9 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_arg2) = x2) (h1 : V (Proc.devRef .tc main_arg3) = x3) (h2 : V (Proc.devRef .tc main_arg6) = x6) :
    after (sA (F := F)) V (Proc.devRef .tc main_v9) = val_main_v9 (F := F) x2 x3 x6 := by
  simp only [sA, ops, List.take_succ_cons, List.take_zero, List.drop_succ_cons, List.drop_zero]
  after_results_simp
  try simp only [ofBuf_toBuf]
  rw [h0, h1, h2]
  rfl

/-- Stretch A does not write `main_arg4`. -/
theorem stA_keeps_main_arg4 (V : Valuation τ sig (Elt F)) : after (sA (F := F)) V (Proc.devRef .tc main_arg4) = V (Proc.devRef .tc main_arg4) := by
  simp only [sA, ops, List.take_succ_cons, List.take_zero, List.drop_succ_cons, List.drop_zero]
  after_results_simp

/-- Stretch B writes `main_v10`: the stage `val_main_v10` of the arguments, given what it reads. -/
theorem stB_v10 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v4) = val_main_v4 (F := F) x0 x1 x5) :
    after (sB (F := F)) V (Proc.devRef .tc main_v10) = val_main_v10 (F := F) x0 x1 x5 := by
  simp only [sB, rA, ops, List.take_succ_cons, List.take_zero, List.drop_succ_cons, List.drop_zero]
  after_results_simp
  try simp only [ofBuf_toBuf]
  rw [h0]
  rfl

/-- Stretch B does not write `main_v4`. -/
theorem stB_keeps_main_v4 (V : Valuation τ sig (Elt F)) : after (sB (F := F)) V (Proc.devRef .tc main_v4) = V (Proc.devRef .tc main_v4) := by
  simp only [sB, rA, ops, List.take_succ_cons, List.take_zero, List.drop_succ_cons, List.drop_zero]
  after_results_simp

/-- Stretch B does not write `main_v9`. -/
theorem stB_keeps_main_v9 (V : Valuation τ sig (Elt F)) : after (sB (F := F)) V (Proc.devRef .tc main_v9) = V (Proc.devRef .tc main_v9) := by
  simp only [sB, rA, ops, List.take_succ_cons, List.take_zero, List.drop_succ_cons, List.drop_zero]
  after_results_simp

/-- Stretch B does not write `main_arg4`. -/
theorem stB_keeps_main_arg4 (V : Valuation τ sig (Elt F)) : after (sB (F := F)) V (Proc.devRef .tc main_arg4) = V (Proc.devRef .tc main_arg4) := by
  simp only [sB, rA, ops, List.take_succ_cons, List.take_zero, List.drop_succ_cons, List.drop_zero]
  after_results_simp

/-- Stretch C writes `main_v12`: the stage `val_main_v12` of the arguments, given what it reads. -/
theorem stC_v12 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_arg4) = x4) :
    after (sC (F := F)) V (Proc.devRef .tc main_v12) = val_main_v12 (F := F) x4 := by
  simp only [sC, rB, rA, ops, List.take_succ_cons, List.take_zero, List.drop_succ_cons, List.drop_zero]
  after_results_simp
  try simp only [ofBuf_toBuf]
  rw [h0]
  rfl

/-- Stretch C writes `main_v14`: the stage `val_main_v14` of the arguments, given what it reads. -/
theorem stC_v14 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_arg4) = x4) :
    after (sC (F := F)) V (Proc.devRef .tc main_v14) = val_main_v14 (F := F) x4 := by
  simp only [sC, rB, rA, ops, List.take_succ_cons, List.take_zero, List.drop_succ_cons, List.drop_zero]
  after_results_simp
  try simp only [ofBuf_toBuf]
  rw [h0]
  rfl

/-- Stretch C does not write `main_v10`. -/
theorem stC_keeps_main_v10 (V : Valuation τ sig (Elt F)) : after (sC (F := F)) V (Proc.devRef .tc main_v10) = V (Proc.devRef .tc main_v10) := by
  simp only [sC, rB, rA, ops, List.take_succ_cons, List.take_zero, List.drop_succ_cons, List.drop_zero]
  after_results_simp

/-- Stretch C does not write `main_v4`. -/
theorem stC_keeps_main_v4 (V : Valuation τ sig (Elt F)) : after (sC (F := F)) V (Proc.devRef .tc main_v4) = V (Proc.devRef .tc main_v4) := by
  simp only [sC, rB, rA, ops, List.take_succ_cons, List.take_zero, List.drop_succ_cons, List.drop_zero]
  after_results_simp

/-- Stretch C does not write `main_v9`. -/
theorem stC_keeps_main_v9 (V : Valuation τ sig (Elt F)) : after (sC (F := F)) V (Proc.devRef .tc main_v9) = V (Proc.devRef .tc main_v9) := by
  simp only [sC, rB, rA, ops, List.take_succ_cons, List.take_zero, List.drop_succ_cons, List.drop_zero]
  after_results_simp

/-- Stretch D writes `main_v15`: the stage `val_main_v15` of the arguments, given what it reads. -/
theorem stD_v15 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v10) = val_main_v10 (F := F) x0 x1 x5) (h1 : V (Proc.devRef .tc main_v14) = val_main_v14 (F := F) x4) :
    after (sD (F := F)) V (Proc.devRef .tc main_v15) = val_main_v15 (F := F) x0 x1 x4 x5 := by
  simp only [sD, rC, rB, rA, ops, List.take_succ_cons, List.take_zero, List.drop_succ_cons, List.drop_zero]
  after_results_simp
  try simp only [ofBuf_toBuf]
  rw [h0, h1]
  rfl

/-- Stretch D does not write `main_v12`. -/
theorem stD_keeps_main_v12 (V : Valuation τ sig (Elt F)) : after (sD (F := F)) V (Proc.devRef .tc main_v12) = V (Proc.devRef .tc main_v12) := by
  simp only [sD, rC, rB, rA, ops, List.take_succ_cons, List.take_zero, List.drop_succ_cons, List.drop_zero]
  after_results_simp

/-- Stretch D does not write `main_v4`. -/
theorem stD_keeps_main_v4 (V : Valuation τ sig (Elt F)) : after (sD (F := F)) V (Proc.devRef .tc main_v4) = V (Proc.devRef .tc main_v4) := by
  simp only [sD, rC, rB, rA, ops, List.take_succ_cons, List.take_zero, List.drop_succ_cons, List.drop_zero]
  after_results_simp

/-- Stretch D does not write `main_v9`. -/
theorem stD_keeps_main_v9 (V : Valuation τ sig (Elt F)) : after (sD (F := F)) V (Proc.devRef .tc main_v9) = V (Proc.devRef .tc main_v9) := by
  simp only [sD, rC, rB, rA, ops, List.take_succ_cons, List.take_zero, List.drop_succ_cons, List.drop_zero]
  after_results_simp

/-- Stretch E writes `main_v24`: the stage `val_main_v24` of the arguments, given what it reads. -/
theorem stE_v24 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v15) = val_main_v15 (F := F) x0 x1 x4 x5) (h1 : V (Proc.devRef .tc main_v12) = val_main_v12 (F := F) x4) :
    after (sE (F := F)) V (Proc.devRef .tc main_v24) = val_main_v24 (F := F) x0 x1 x4 x5 := by
  simp only [sE, rD, rC, rB, rA, ops, List.take_succ_cons, List.take_zero, List.drop_succ_cons, List.drop_zero]
  after_results_simp
  try simp only [ofBuf_toBuf]
  rw [h0, h1]
  rfl

/-- Stretch E does not write `main_v4`. -/
theorem stE_keeps_main_v4 (V : Valuation τ sig (Elt F)) : after (sE (F := F)) V (Proc.devRef .tc main_v4) = V (Proc.devRef .tc main_v4) := by
  simp only [sE, rD, rC, rB, rA, ops, List.take_succ_cons, List.take_zero, List.drop_succ_cons, List.drop_zero]
  after_results_simp

/-- Stretch E does not write `main_v9`. -/
theorem stE_keeps_main_v9 (V : Valuation τ sig (Elt F)) : after (sE (F := F)) V (Proc.devRef .tc main_v9) = V (Proc.devRef .tc main_v9) := by
  simp only [sE, rD, rC, rB, rA, ops, List.take_succ_cons, List.take_zero, List.drop_succ_cons, List.drop_zero]
  after_results_simp

/-- Stretch F writes `main_v28`: the stage `val_main_v28` of the arguments, given what it reads. -/
theorem stF_v28 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v9) = val_main_v9 (F := F) x2 x3 x6) :
    after (sF (F := F)) V (Proc.devRef .tc main_v28) = val_main_v28 (F := F) x2 x3 x6 := by
  simp only [sF, rE, rD, rC, rB, rA, ops, List.take_succ_cons, List.take_zero, List.drop_succ_cons, List.drop_zero]
  after_results_simp
  try simp only [ofBuf_toBuf]
  rw [h0]
  rfl

/-- Stretch F writes `main_v33`: the stage `val_main_v33` of the arguments, given what it reads. -/
theorem stF_v33 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v4) = val_main_v4 (F := F) x0 x1 x5) :
    after (sF (F := F)) V (Proc.devRef .tc main_v33) = val_main_v33 (F := F) x0 x1 x5 := by
  simp only [sF, rE, rD, rC, rB, rA, ops, List.take_succ_cons, List.take_zero, List.drop_succ_cons, List.drop_zero]
  after_results_simp
  try simp only [ofBuf_toBuf]
  rw [h0]
  rfl

/-- Stretch F does not write `main_v24`. -/
theorem stF_keeps_main_v24 (V : Valuation τ sig (Elt F)) : after (sF (F := F)) V (Proc.devRef .tc main_v24) = V (Proc.devRef .tc main_v24) := by
  simp only [sF, rE, rD, rC, rB, rA, ops, List.take_succ_cons, List.take_zero, List.drop_succ_cons, List.drop_zero]
  after_results_simp

/-- Stretch G writes `main_v40`: the stage `val_main_v40` of the arguments, given what it reads. -/
theorem stG_v40 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v28) = val_main_v28 (F := F) x2 x3 x6) (h1 : V (Proc.devRef .tc main_v33) = val_main_v33 (F := F) x0 x1 x5) :
    after (sG (F := F)) V (Proc.devRef .tc main_v40) = val_main_v40 (F := F) x0 x1 x2 x3 x5 x6 := by
  simp only [sG, rF, rE, rD, rC, rB, rA, ops, List.take_succ_cons, List.take_zero, List.drop_succ_cons, List.drop_zero]
  after_results_simp
  try simp only [ofBuf_toBuf]
  rw [h0, h1]
  rfl

/-- Stretch G does not write `main_v24`. -/
theorem stG_keeps_main_v24 (V : Valuation τ sig (Elt F)) : after (sG (F := F)) V (Proc.devRef .tc main_v24) = V (Proc.devRef .tc main_v24) := by
  simp only [sG, rF, rE, rD, rC, rB, rA, ops, List.take_succ_cons, List.take_zero, List.drop_succ_cons, List.drop_zero]
  after_results_simp

/-- Stretch H writes `main_v49`: the stage `val_main_v49` of the arguments, given what it reads. -/
theorem stH_v49 (V : Valuation τ sig (Elt F)) (x0 : (⟨S2048x2048, .f32⟩ : BufTy).Contents (Elt F)) (x1 : (⟨S32000x2048, .f32⟩ : BufTy).Contents (Elt F)) (x2 : (⟨S2048x2048, .f32⟩ : BufTy).Contents (Elt F)) (x3 : (⟨S32000x2048, .f32⟩ : BufTy).Contents (Elt F)) (x4 : (⟨S2048, .i32⟩ : BufTy).Contents (Elt F)) (x5 : (⟨S32000, .f32⟩ : BufTy).Contents (Elt F)) (x6 : (⟨S32000, .f32⟩ : BufTy).Contents (Elt F)) (h0 : V (Proc.devRef .tc main_v24) = val_main_v24 (F := F) x0 x1 x4 x5) (h1 : V (Proc.devRef .tc main_v40) = val_main_v40 (F := F) x0 x1 x2 x3 x5 x6) :
    after (sH (F := F)) V (Proc.devRef .tc main_v49) = val_main_v49 (F := F) x0 x1 x2 x3 x4 x5 x6 := by
  simp only [sH, rG, rF, rE, rD, rC, rB, rA, ops, List.take_succ_cons, List.take_zero, List.drop_succ_cons, List.drop_zero]
  after_results_simp
  try simp only [ofBuf_toBuf]
  rw [h0, h1]
  rfl

/-- The contents of `main_v49` after all 114 operations: the last stage of the arguments. Each stretch is run from the contents
    the stretches before it leave; a stage a later stretch reads is carried through the stretches between, which do not write it. -/
theorem result (V₀ : Valuation τ sig (Elt F)) :
    after (ops (F := F)) V₀ (Proc.devRef .tc main_v49)
      = val_main_v49 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  have split : after (ops (F := F)) V₀
      = after (sH (F := F)) (after (sG (F := F)) (after (sF (F := F)) (after (sE (F := F)) (after (sD (F := F))
          (after (sC (F := F)) (after (sB (F := F)) (after (sA (F := F)) V₀))))))) := by
    rw [after_take_drop (ops (F := F)) 10 V₀, after_take_drop (rA (F := F)) 15 _, after_take_drop (rB (F := F)) 8 _,
      after_take_drop (rC (F := F)) 22 _, after_take_drop (rD (F := F)) 15 _, after_take_drop (rE (F := F)) 16 _,
      after_take_drop (rF (F := F)) 13 _]
  rw [split]
  generalize hA : after (sA (F := F)) V₀ = WA
  generalize hB : after (sB (F := F)) WA = WB
  generalize hC : after (sC (F := F)) WB = WC
  generalize hD : after (sD (F := F)) WC = WD
  generalize hE : after (sE (F := F)) WD = WE
  generalize hF : after (sF (F := F)) WE = WF
  generalize hG : after (sG (F := F)) WF = WG
  have a4A : WA (Proc.devRef .tc main_arg4) = (V₀ (Proc.devRef .tc main_arg4)) := hA ▸ stA_keeps_main_arg4 V₀
  have v4A : WA (Proc.devRef .tc main_v4) = val_main_v4 (F := F) (V₀ (Proc.devRef .tc main_arg0)) (V₀ (Proc.devRef .tc main_arg1)) (V₀ (Proc.devRef .tc main_arg5)) := hA ▸ stA_v4 V₀ (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) rfl rfl rfl
  have v9A : WA (Proc.devRef .tc main_v9) = val_main_v9 (F := F) (V₀ (Proc.devRef .tc main_arg2)) (V₀ (Proc.devRef .tc main_arg3)) (V₀ (Proc.devRef .tc main_arg6)) := hA ▸ stA_v9 V₀ (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) rfl rfl rfl
  have a4B : WB (Proc.devRef .tc main_arg4) = (V₀ (Proc.devRef .tc main_arg4)) := (hB ▸ stB_keeps_main_arg4 WA).trans a4A
  have v4B : WB (Proc.devRef .tc main_v4) = _ := (hB ▸ stB_keeps_main_v4 WA).trans v4A
  have v9B : WB (Proc.devRef .tc main_v9) = _ := (hB ▸ stB_keeps_main_v9 WA).trans v9A
  have v10B : WB (Proc.devRef .tc main_v10) = _ := hB ▸ stB_v10 WA (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v4A
  have v12C : WC (Proc.devRef .tc main_v12) = _ := hC ▸ stC_v12 WB (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) a4B
  have v14C : WC (Proc.devRef .tc main_v14) = _ := hC ▸ stC_v14 WB (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) a4B
  have v10C : WC (Proc.devRef .tc main_v10) = _ := (hC ▸ stC_keeps_main_v10 WB).trans v10B
  have v4C : WC (Proc.devRef .tc main_v4) = _ := (hC ▸ stC_keeps_main_v4 WB).trans v4B
  have v9C : WC (Proc.devRef .tc main_v9) = _ := (hC ▸ stC_keeps_main_v9 WB).trans v9B
  have v15D : WD (Proc.devRef .tc main_v15) = _ := hD ▸ stD_v15 WC (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v10C v14C
  have v12D : WD (Proc.devRef .tc main_v12) = _ := (hD ▸ stD_keeps_main_v12 WC).trans v12C
  have v4D : WD (Proc.devRef .tc main_v4) = _ := (hD ▸ stD_keeps_main_v4 WC).trans v4C
  have v9D : WD (Proc.devRef .tc main_v9) = _ := (hD ▸ stD_keeps_main_v9 WC).trans v9C
  have v24E : WE (Proc.devRef .tc main_v24) = _ := hE ▸ stE_v24 WD (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v15D v12D
  have v4E : WE (Proc.devRef .tc main_v4) = _ := (hE ▸ stE_keeps_main_v4 WD).trans v4D
  have v9E : WE (Proc.devRef .tc main_v9) = _ := (hE ▸ stE_keeps_main_v9 WD).trans v9D
  have v28F : WF (Proc.devRef .tc main_v28) = _ := hF ▸ stF_v28 WE (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v9E
  have v33F : WF (Proc.devRef .tc main_v33) = _ := hF ▸ stF_v33 WE (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v4E
  have v24F : WF (Proc.devRef .tc main_v24) = _ := (hF ▸ stF_keeps_main_v24 WE).trans v24E
  have v40G : WG (Proc.devRef .tc main_v40) = _ := hG ▸ stG_v40 WF (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v28F v33F
  have v24G : WG (Proc.devRef .tc main_v24) = _ := (hG ▸ stG_keeps_main_v24 WF).trans v24F
  exact stH_v49 WG (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) v24G v40G

/-- No operation writes `main_arg0`. -/
theorem ops_keep_arg0 (V : Valuation τ sig (Elt F)) : after (ops (F := F)) V (Proc.devRef .tc main_arg0) = V (Proc.devRef .tc main_arg0) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- No operation writes `main_arg1`. -/
theorem ops_keep_arg1 (V : Valuation τ sig (Elt F)) : after (ops (F := F)) V (Proc.devRef .tc main_arg1) = V (Proc.devRef .tc main_arg1) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- No operation writes `main_arg2`. -/
theorem ops_keep_arg2 (V : Valuation τ sig (Elt F)) : after (ops (F := F)) V (Proc.devRef .tc main_arg2) = V (Proc.devRef .tc main_arg2) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- No operation writes `main_arg3`. -/
theorem ops_keep_arg3 (V : Valuation τ sig (Elt F)) : after (ops (F := F)) V (Proc.devRef .tc main_arg3) = V (Proc.devRef .tc main_arg3) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- No operation writes `main_arg4`. -/
theorem ops_keep_arg4 (V : Valuation τ sig (Elt F)) : after (ops (F := F)) V (Proc.devRef .tc main_arg4) = V (Proc.devRef .tc main_arg4) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- No operation writes `main_arg5`. -/
theorem ops_keep_arg5 (V : Valuation τ sig (Elt F)) : after (ops (F := F)) V (Proc.devRef .tc main_arg5) = V (Proc.devRef .tc main_arg5) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- No operation writes `main_arg6`. -/
theorem ops_keep_arg6 (V : Valuation τ sig (Elt F)) : after (ops (F := F)) V (Proc.devRef .tc main_arg6) = V (Proc.devRef .tc main_arg6) :=
  after_of_forall_not_mem _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

/-- THE RUN: every weakly fair execution of the reference's @main terminates with `main_v49` at the last stage of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v49).trans (result (launchContents m c)),
      (h c main_arg0).trans (ops_keep_arg0 (launchContents m c)),
      (h c main_arg1).trans (ops_keep_arg1 (launchContents m c)),
      (h c main_arg2).trans (ops_keep_arg2 (launchContents m c)),
      (h c main_arg3).trans (ops_keep_arg3 (launchContents m c)),
      (h c main_arg4).trans (ops_keep_arg4 (launchContents m c)),
      (h c main_arg5).trans (ops_keep_arg5 (launchContents m c)),
      (h c main_arg6).trans (ops_keep_arg6 (launchContents m c))⟩)
    (run_seq scopedRefs_eq scopedSems_eq defs main (fun _ => ops) main_eq (fun _ => ops_sub) m ρ)

end Cert.ReferenceIdeal.RefRun

end
-- ==== Proof.KStep.lean ====
/-
  One grid point's update of the six running per-row quantities, as terms over the body's arithmetic.

  At a grid point the body reads the student and teacher input blocks `a`, `a'` (1024 rows × 2048), the weight blocks `w`, `w'`
  (256 vocabulary columns × 2048), the bias rows `b`, `b'` (1 × 256) and the label column `lbl` (1024 × 1), and the six
  scratch columns as the previous point left them. The chunk's logits are the block product plus the bias; from them the body
  forms the new running maximum, the rescaled running sum of exponentials, the label's logit, and the three running inner
  products. At the last chunk it also emits the two per-row losses from the six new columns.
-/
import proofs.«426442_j89240830476401_2_alg».proof.Proof.Gen.KernelIdeal.Skeleton

noncomputable section

namespace Cert.KernelIdeal.Val

open Idealize.ShloMosaic Cert.KernelIdeal Cert.KernelIdeal.Gen

variable {F : FTy → Type} [FloatOps F]

/-- The chunk's student logits: rows of `a` against rows of `w`, plus the bias row. -/
abbrev sLogits (a : Vec F S1024x2048 .bf16) (w : Vec F S256x2048 .bf16) (b : Vec F S1x256 .f32) : FVec F S1024x256 .f32 :=
  k0_pay12 a w b

/-- The chunk's teacher logits. -/
abbrev tLogits (a' : Vec F S1024x2048 .bf16) (w' : Vec F S256x2048 .bf16) (b' : Vec F S1x256 .f32) : FVec F S1024x256 .f32 :=
  k0_pay13 a' w' b'

/-- The new running maximum: the old one against the chunk's row maximum. -/
def newM (a : Vec F S1024x2048 .bf16) (w : Vec F S256x2048 .bf16) (b : Vec F S1x256 .f32) (m0 : Vec F S1024x1 .f32) :
    FVec F S1024x1 .f32 :=
  k0_pay18 (sLogits a w b) m0

/-- The new running sum of exponentials: the old one rescaled to the new maximum, plus the chunk's. -/
def newL (a : Vec F S1024x2048 .bf16) (w : Vec F S256x2048 .bf16) (b : Vec F S1x256 .f32) (m0 l0 : Vec F S1024x1 .f32) :
    FVec F S1024x1 .f32 :=
  k0_pay17 (sLogits a w b) m0 m0 l0

/-- The new label logit: the old one plus the chunk's logits at the columns whose number is the row's label. -/
def newLab (i : grid0.Coords) (a : Vec F S1024x2048 .bf16) (w : Vec F S256x2048 .bf16) (b : Vec F S1x256 .f32)
    (lbl : Vec F S1024x1 .i32) (lab0 : Vec F S1024x1 .f32) : FVec F S1024x1 .f32 :=
  k0_pay15 lab0 (k0_pay14 i a w b lbl)

/-- The new running `∑ x·x`. -/
def newSS (a : Vec F S1024x2048 .bf16) (w : Vec F S256x2048 .bf16) (b : Vec F S1x256 .f32) (ss0 : Vec F S1024x1 .f32) :
    FVec F S1024x1 .f32 :=
  k0_pay1 (k0_pay21 (sLogits a w b) ss0)

/-- The new running `∑ x·y`. -/
def newST (a : Vec F S1024x2048 .bf16) (w : Vec F S256x2048 .bf16) (b : Vec F S1x256 .f32)
    (a' : Vec F S1024x2048 .bf16) (w' : Vec F S256x2048 .bf16) (b' : Vec F S1x256 .f32) (st0 : Vec F S1024x1 .f32) :
    FVec F S1024x1 .f32 :=
  k0_pay3 (k0_pay19 (sLogits a w b)) (k0_pay20 (tLogits a' w' b')) st0

/-- The new running `∑ y·y`. -/
def newTT (a' : Vec F S1024x2048 .bf16) (w' : Vec F S256x2048 .bf16) (b' : Vec F S1x256 .f32) (tt0 : Vec F S1024x1 .f32) :
    FVec F S1024x1 .f32 :=
  k0_pay2 (k0_pay20 (tLogits a' w' b')) tt0

/-- The emitted negative log-likelihood column: `(m + log l) - lab` of the new columns. -/
def emitNll (m1 l1 lab1 : Vec F S1024x1 .f32) : FVec F S1024x1 .f32 := k0_pay4 m1 l1 lab1

/-- The emitted cosine-loss column: `1 - st / (max (√ss) ε · max (√tt) ε)` of the new columns. -/
def emitSoft (ss1 tt1 st1 : Vec F S1024x1 .f32) : FVec F S1024x1 .f32 := k0_pay5 ss1 tt1 st1

/-- The columns the first chunk starts from: `-∞` and zeros, as the body stores them at the first point of a row tile. -/
abbrev resetM : FVec F S1024x1 .f32 := k0_pay6
abbrev resetL : FVec F S1024x1 .f32 := k0_pay7
abbrev resetLab : FVec F S1024x1 .f32 := k0_pay8
abbrev resetSS : FVec F S1024x1 .f32 := k0_pay9
abbrev resetST : FVec F S1024x1 .f32 := k0_pay10
abbrev resetTT : FVec F S1024x1 .f32 := k0_pay11

end Cert.KernelIdeal.Val

end
-- ==== Proof.KPieces.lean ====
/-
  What the body leaves in each scratch column and each output column, case by case, as the update terms of one grid point:
  the pieces the body's stores leave cover each column whole, so reading them back gives the stored value — the update of the
  column the point found (the reset column at the first chunk of a row tile).
-/
import proofs.«426442_j89240830476401_2_alg».proof.Proof.PatchedKernelIdeal.Defs
import proofs.«426442_j89240830476401_2_alg».proof.Proof.KStep
import Idealize.ShloMosaic.Lib.Pipeline.Value

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.KernelIdeal.GenP

variable {F : FTy → Type} [FloatOps F]

/-- The zero offsets of a rank-two block, in the two spellings the stores' rectangles and the covering lemmas use. -/
private theorem zeroOffsets : (![0, 0] : Fin 2 → Nat) = fun _ => 0 := funext fun a => by fin_cases a <;> rfl

/-!
  Each statement below is read off the same way. The pieces a case's stores leave in a column cover it, so reading them
  back over any prior contents gives the canonical value of the piece list. Every store writes the whole column (the
  rectangle at zero offsets of the column's own sizes), so that value is the payload of the LAST store, whatever came
  before it: in cases B and C the update is the only store; in case A it follows the reset store, and the column it
  loads in between is the reset column just stored. Every load reads a whole buffer, so the payload's arguments are the
  buffers' contents: the point's input blocks and the columns the point found. In case C the two emitted columns are
  computed from loads made after the six updates were stored, so their arguments are the new columns.
-/

/-- Case A: what the body leaves in the running maximum column (the first chunk of a row tile: it starts from the reset columns). -/
theorem sout_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = newM x0 x2 x4 resetM := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  rw [View.canon_cons_unit_zero (S := S1024x1) zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case A: what the body leaves in the running sum of exponentials column (the first chunk of a row tile: it starts from the reset columns). -/
theorem sout_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = newL x0 x2 x4 resetM resetL := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  rw [View.canon_cons_unit_zero (S := S1024x1) zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case A: what the body leaves in the label logit column (the first chunk of a row tile: it starts from the reset columns). -/
theorem sout_A_2 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = newLab i x0 x2 x4 x6 resetLab := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  rw [View.canon_cons_unit_zero (S := S1024x1) zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case A: what the body leaves in the running ∑ x·x column (the first chunk of a row tile: it starts from the reset columns). -/
theorem sout_A_3 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = newSS x0 x2 x4 resetSS := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  rw [View.canon_cons_unit_zero (S := S1024x1) zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case A: what the body leaves in the running ∑ x·y column (the first chunk of a row tile: it starts from the reset columns). -/
theorem sout_A_4 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = newST x0 x2 x4 x1 x3 x5 resetST := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  rw [View.canon_cons_unit_zero (S := S1024x1) zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case A: what the body leaves in the running ∑ y·y column (the first chunk of a row tile: it starts from the reset columns). -/
theorem sout_A_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = newTT x1 x3 x5 resetTT := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  rw [View.canon_cons_unit_zero (S := S1024x1) zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case B: what the body leaves in the running maximum column. -/
theorem sout_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newM x0 x2 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_B
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case B: what the body leaves in the running sum of exponentials column. -/
theorem sout_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newL x0 x2 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_B
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case B: what the body leaves in the label logit column. -/
theorem sout_B_2 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newLab i x0 x2 x4 x6 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_B
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case B: what the body leaves in the running ∑ x·x column. -/
theorem sout_B_3 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newSS x0 x2 x4 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_B
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case B: what the body leaves in the running ∑ x·y column. -/
theorem sout_B_4 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newST x0 x2 x4 x1 x3 x5 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_B
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case B: what the body leaves in the running ∑ y·y column. -/
theorem sout_B_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : ¬cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newTT x1 x3 x5 xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_B
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C: what the body leaves in the running maximum column. -/
theorem sout_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newM x0 x2 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C: what the body leaves in the running sum of exponentials column. -/
theorem sout_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newL x0 x2 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C: what the body leaves in the label logit column. -/
theorem sout_C_2 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newLab i x0 x2 x4 x6 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C: what the body leaves in the running ∑ x·x column. -/
theorem sout_C_3 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newSS x0 x2 x4 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C: what the body leaves in the running ∑ x·y column. -/
theorem sout_C_4 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newST x0 x2 x4 x1 x3 x5 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C: what the body leaves in the running ∑ y·y column. -/
theorem sout_C_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = newTT x1 x3 x5 xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets]
  rfl

/-- Case C (the last chunk of a row tile): the emitted negative log-likelihood column, from the new columns. -/
theorem out_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = emitNll (newM x0 x2 x4 xs0) (newL x0 x2 x4 xs0 xs1) (newLab i x0 x2 x4 x6 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

/-- Case C: the emitted cosine-loss column, from the new columns. -/
theorem out_C_8 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1 .f32) (harg16 : arg16.IsWhole) (hc0 : ¬cond0_0 i) (hc1 : cond0_1 i)
    (x0 : Vec F S1024x2048 .bf16) (x1 : Vec F S1024x2048 .bf16) (x2 : Vec F S256x2048 .bf16) (x3 : Vec F S256x2048 .bf16) (x4 : Vec F S1x256 .f32) (x5 : Vec F S1x256 .f32) (x6 : Vec F S1024x1 .i32) (xs0 xs1 xs2 xs3 xs4 xs5 : Vec F S1024x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5 = emitSoft (newSS x0 x2 x4 xs3) (newTT x1 x3 x5 xs5) (newST x0 x2 x4 x1 x3 x5 xs4) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 xs3 xs4 xs5)]
  unfold kernelRun0_C
  dsimp only
  sl_unfold_words
  rw [View.canon_unit_zero zeroOffsets]
  simp only [View.readAt_eq_ld, harg2.read_unread, harg3.read_unread, harg4.read_unread, harg5.read_unread,
    harg6.read_unread, harg7.read_unread, harg8.read_unread, harg11.read_unread, harg12.read_unread, harg13.read_unread,
    harg14.read_unread, harg15.read_unread, harg16.read_unread,
    View.ld_unit_zero (S := S1024x2048) zeroOffsets, View.ld_unit_zero (S := S256x2048) zeroOffsets, View.ld_unit_zero (S := S1x256) zeroOffsets,
    View.ld_unit_zero (S := S1024x1) zeroOffsets, View.readCov_unit_zero (S := S1024x1) _ zeroOffsets]
  rfl

end Cert.KernelIdeal.Val

end
-- ==== Proof.Spec.lean ====
/-
  The mathematics both programs compute, stated once over plain index types and the extended reals.

  One row of the batch has student logits `x v` and teacher logits `y v` over the vocabulary `v < 32000`, and a label word.
  The kernel walks the vocabulary in 125 chunks of 256 columns and keeps, per row, a running state: the running maximum
  `m`, the running sum `l` of `exp (x - m)` rescaled whenever `m` grows (the online log-sum-exp), the label's logit
  `lab` (the sum of the logits whose column number equals the label word), and the three running inner products
  `ss = ∑ x·x`, `st = ∑ x·y`, `tt = ∑ y·y`. After the last chunk it emits `(m + log l) - lab` and
  `1 - st / (max (√ss) ε · max (√tt) ε)`.

  The reference computes, per row, `-( (x_L - M) - log ∑ exp (x - M) )` with `M` the row's maximum and `L` the label, and
  `1 - ∑ (x/1/a)·(y/1/b)` with `a = max (√∑ (x/1)·(x/1)) ε`, `b` likewise for `y`.
-/
import Idealize.ShloMosaic.PureOps.Ideal
import Idealize.ShloMosaic.PureOps.Ideal.Laws

noncomputable section

namespace Cert.Distill

open Idealize.ShloMosaic

/-- Column `q` of chunk `j` of the vocabulary (total in `j`: reduced modulo the vocabulary, which changes nothing for `j < 125`). -/
def col (j : ℕ) (q : Fin 256) : Fin 32000 := ⟨(256 * j + q.val) % 32000, Nat.mod_lt _ (by norm_num)⟩

theorem col_val {j : ℕ} (hj : j < 125) (q : Fin 256) : (col j q).val = 256 * j + q.val := by
  have := q.isLt
  show (256 * j + q.val) % 32000 = _
  exact Nat.mod_eq_of_lt (by omega)

/-- The per-row running state of the kernel. -/
structure RowSt where
  m : EReal
  l : EReal
  lab : EReal
  ss : EReal
  st : EReal
  tt : EReal

/-- The state the first chunk starts from: the maximum at `-∞`, every sum at zero. -/
def RowSt.init : RowSt := ⟨⊥, 0, 0, 0, 0, 0⟩

/-- One chunk's update: `xs`, `ys` the chunk's 256 student and teacher logits of the row, `hit q` whether column `q` of the chunk
    is the row's label. -/
def RowSt.step (s : RowSt) (xs ys : Fin 256 → EReal) (hit : Fin 256 → Bool) : RowSt :=
  let m' := max s.m ((Finset.univ : Finset (Fin 256)).fold max ⊥ xs)
  { m := m'
    l := Ideal.exp (s.m - m') * s.l + ∑ q : Fin 256, Ideal.exp (xs q - m')
    lab := s.lab + ∑ q : Fin 256, (if hit q then xs q else 0)
    ss := s.ss + ∑ q : Fin 256, xs q * xs q
    st := s.st + ∑ q : Fin 256, xs q * ys q
    tt := s.tt + ∑ q : Fin 256, ys q * ys q }

/-- Whether column `q` of chunk `j` carries the label word `lbl`: the kernel compares 32-bit words. -/
def hitAt (lbl : BitVec 32) (j : ℕ) (q : Fin 256) : Bool := decide (BitVec.ofNat 32 (256 * j + q.val) = lbl)

/-- The row's state after chunks `0 … j`. -/
def rowState (x y : Fin 32000 → EReal) (lbl : BitVec 32) : ℕ → RowSt
  | 0 => RowSt.init.step (fun q => x (col 0 q)) (fun q => y (col 0 q)) (hitAt lbl 0)
  | j + 1 => (rowState x y lbl j).step (fun q => x (col (j + 1) q)) (fun q => y (col (j + 1) q)) (hitAt lbl (j + 1))

/-- The shared `ε = f32 (1e-12)` of both programs, as the word it is printed with. -/
abbrev eps : EReal := Ideal.ofBits .f32 0x2B8CBCCC#32

/-- What the kernel emits for the row's negative log-likelihood after the last chunk. -/
def nllOf (s : RowSt) : EReal := (s.m + Ideal.log s.l) - s.lab

/-- What the kernel emits for the row's cosine loss after the last chunk. -/
def softOf (s : RowSt) : EReal :=
  1 - Ideal.div s.st (max (Ideal.sqrt s.ss) eps * max (Ideal.sqrt s.tt) eps)

/-- The reference's row maximum (the host folds `max` from `-∞`, then takes `max` with `-∞` once more). -/
def refMax (x : Fin 32000 → EReal) : EReal := max ⊥ ((Finset.univ : Finset (Fin 32000)).fold max ⊥ x)

/-- The reference's log-softmax of the row at column `v`. -/
def refLogp (x : Fin 32000 → EReal) (v : Fin 32000) : EReal :=
  (x v - refMax x) - Ideal.log (0 + ∑ u : Fin 32000, Ideal.exp (x u - refMax x))

/-- The reference's row norm, clamped below by `ε`. -/
def refNorm (x : Fin 32000 → EReal) : EReal :=
  max (Ideal.sqrt (0 + ∑ v : Fin 32000, Ideal.div (x v) 1 * Ideal.div (x v) 1)) eps

/-- The reference's cosine loss of the row. -/
def refSoft (x y : Fin 32000 → EReal) : EReal :=
  1 - (0 + ∑ v : Fin 32000, Ideal.div (Ideal.div (x v) 1) (refNorm x) * Ideal.div (Ideal.div (y v) 1) (refNorm y))

/-- Every entry is a real number. -/
def Finite {ι : Type} (x : ι → EReal) : Prop := ∀ i, ∃ r : ℝ, x i = (r : EReal)

/-! ## The scalar both programs return -/

/-- The ignored label `-100` as a 32-bit word. -/
abbrev ignoreWord : BitVec 32 := 4294967196#32

/-- A row counts towards the hard loss when its label is not the ignored one. -/
def isValid (w : BitVec 32) : Bool := decide (w ≠ ignoreWord)

/-- The number of counted rows, at least one, as a real. -/
def nValid (lbl : Fin 2048 → BitVec 32) : EReal :=
  (((max (Finset.univ.filter fun r : Fin 2048 => isValid (lbl r) = true).card 1 : ℕ) : ℝ) : EReal)

/-- The two weights and `β` (all `0.5`) and the batch size `2048`, as the words they are printed with. -/
abbrev half : EReal := Ideal.ofBits .f32 0x3F000000#32
abbrev batchF : EReal := Ideal.ofBits .f32 0x45000000#32

/-- The returned loss from the per-row negative log-likelihoods and cosine losses: half the mean of the counted rows'
    negative log-likelihoods plus half the batch mean of `β ·` the cosine losses. -/
def loss (lbl : Fin 2048 → BitVec 32) (nll soft : Fin 2048 → EReal) : EReal :=
  half * Ideal.div (0 + ∑ r : Fin 2048, (if isValid (lbl r) = true then nll r else 0)) (nValid lbl)
    + half * Ideal.div (0 + ∑ r : Fin 2048, half * soft r) batchF

/-- Two families of per-row losses that agree on the counted rows (first component) and everywhere (second) give one loss. -/
theorem loss_congr (lbl : Fin 2048 → BitVec 32) (nll nll' soft soft' : Fin 2048 → EReal)
    (h1 : ∀ r, isValid (lbl r) = true → nll r = nll' r) (h2 : ∀ r, soft r = soft' r) :
    loss lbl nll soft = loss lbl nll' soft' := by
  unfold loss
  have e1 : (∑ r : Fin 2048, (if isValid (lbl r) = true then nll r else 0))
      = ∑ r : Fin 2048, (if isValid (lbl r) = true then nll' r else 0) :=
    Finset.sum_congr rfl fun r _ => by
      by_cases hv : isValid (lbl r) = true
      · rw [if_pos hv, if_pos hv, h1 r hv]
      · rw [if_neg hv, if_neg hv]
  have e2 : (∑ r : Fin 2048, half * soft r) = ∑ r : Fin 2048, half * soft' r :=
    Finset.sum_congr rfl fun r _ => by rw [h2 r]
  rw [e1, e2]

end Cert.Distill

end
-- ==== Proof.KRow.lean ====
/-
  One row of a grid point's blocks, as the mathematics reads it.

  Row `p` of the input block against row `q` of the weight block, plus the bias at `q`, is the chunk's logit at `(p, q)`; the
  six scratch columns at row `p` are the row's running state; column `q` of the chunk at grid column `i 1` carries the
  vocabulary number `256 · (i 1) + q`, which the body compares with the row's label word.
-/
import proofs.«426442_j89240830476401_2_alg».proof.Proof.KStep
import proofs.«426442_j89240830476401_2_alg».proof.Proof.Spec
import Idealize.ShloMosaic.Lib.ValueIdx

noncomputable section

namespace Cert.KernelIdeal.Val

open Idealize.ShloMosaic Cert.KernelIdeal Cert.KernelIdeal.Gen Cert.Distill
open Idealize.ShloMosaic.ValueIdx (ix2)

/-- The chunk's logit at row `p`, column `q`: the rows' inner product over the 2048 hidden coordinates, plus the bias. -/
def chunkLogit (a : S1024x2048.Idx → EReal) (w : S256x2048.Idx → EReal) (b : S1x256.Idx → EReal) (p : Fin 1024) (q : Fin 256) : EReal :=
  (∑ h : Fin 2048, a (ix2 p h) * w (ix2 q h)) + b (ix2 (0 : Fin 1) q)

/-- Row `p` of the six scratch columns, as a running state. -/
def stOf (m0 l0 lab0 ss0 st0 tt0 : S1024x1.Idx → EReal) (p : Fin 1024) : RowSt :=
  ⟨m0 (ix2 p (0 : Fin 1)), l0 (ix2 p (0 : Fin 1)), lab0 (ix2 p (0 : Fin 1)), ss0 (ix2 p (0 : Fin 1)), st0 (ix2 p (0 : Fin 1)),
    tt0 (ix2 p (0 : Fin 1))⟩

/-- Whether column `q` of the chunk at grid point `i` is row `p`'s label. -/
def hitCol (i : grid0.Coords) (lblBlk : S1024x1.Idx → BitVec 32) (p : Fin 1024) (q : Fin 256) : Bool :=
  decide (BitVec.ofNat 32 (256 * (i 1).val + q.val) = lblBlk (ix2 p (0 : Fin 1)))

end Cert.KernelIdeal.Val

end
-- ==== Proof.KPayload.lean ====
/-
  The body's arithmetic read row by row at the extended reals: one grid point's update of the six scratch columns is, at each
  row, one step of the row's running state over the chunk's logits; the reset columns are the initial state; the two emitted
  columns are the row's two losses.

  The road: each vector operation of a payload is read at an index. The pointwise operations are the extended reals' at the
  element; a column formed from a length-1024 vector reads the vector at the row; a column or a row broadcast over the
  1024 × 256 block reads the column at the row, the row at the lane; a lane sum at a row is the sum over the row's 256 lanes,
  a lane maximum the fold of `max` from `-∞` over them; the block product into the zero accumulator at `(p, q)` is the
  inner product of row `p` of the left block with row `q` of the right over the 2048 hidden coordinates. The label test
  compares, at lane `q` of chunk `c`, the word `q + c · 256` with the row's label word; that word is `256 · c + q`.
-/
import proofs.«426442_j89240830476401_2_alg».proof.Proof.KRow
import Idealize.ShloMosaic.PureOps.Ideal.Laws
import Idealize.ShloMosaic.Lib.Pipeline.Value
import Idealize.ShloMosaic.Lib.ValueLayout
import Idealize.ShloMosaic.Lib.StableHlo.Predicate

noncomputable section

namespace Cert.KernelIdeal.Val

open Idealize.ShloMosaic Cert.KernelIdeal Cert.KernelIdeal.Gen Cert.Distill
open Idealize.ShloMosaic.ValueIdx (ix1 ix2)

namespace Payload

section Layout
variable {α : Type}

/-- A length-1024 vector viewed as a 1024 × 1 column reads, at row `p`, the vector at `p`. -/
theorem colCast_apply (v : S1024.Idx → α) (p : Fin 1024) :
    shapeCast S1024x1 v shapeCasts_S1024_S1024x1 (ix2 p (0 : Fin 1)) = v (ix1 p) :=
  shapeCast_apply v shapeCasts_S1024_S1024x1 _ _ (by
    rw [Shape.rowMajor_val_one, Shape.rowMajor_val_two]
    show p.val = p.val * 1 + 0
    omega)

/-- A 1024 × 1 column broadcast along 256 lanes reads, at `(p, q)`, the column at row `p`. -/
theorem bcastCol_apply (v : S1024x1.Idx → α) (p : Fin 1024) (q : Fin 256) :
    broadcastTo S1024x256 v broadcasts_S1024x1_S1024x256 (ix2 p q) = v (ix2 p (0 : Fin 1)) := by
  refine broadcastTo_apply v broadcasts_S1024x1_S1024x256 (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

end Layout

/-- The index a lane reduction reads at row `p`, lane `q`, is `(p, q)`. -/
theorem lift_row (p : Fin 1024) (q : Fin 256) :
    reduces_S1024x256_S1024.lift (ix1 p) q = ix2 p q := by
  funext c
  match c with
  | ⟨0, _⟩ => rfl
  | ⟨1, _⟩ => rfl

/-- A lane sum at row `p` is the sum over the 256 lanes of the row. -/
theorem rowSum_apply (v : FVec Ideal S1024x256 .f32) (p : Fin 1024) :
    multiReduction (F := Ideal) .add [1] S1024 v 0x00000000#32 reduces_S1024x256_S1024 (.inl rfl) rfl (ix1 p)
      = ∑ q : Fin 256, v (ix2 p q) := by
  refine (Ideal.multiReduction_add_single v _ reduces_S1024x256_S1024 (.inl rfl) rfl (ix1 p)).trans ?_
  exact Finset.sum_congr rfl fun q _ => congrArg v (lift_row p q)

/-- The word `0xFF800000` is `-∞`. -/
theorem ofBits_negInf_f32 : Ideal.ofBits .f32 0xFF800000#32 = ⊥ := by simp [Ideal.ofBits, Ideal.ieee]

/-- The word `0x3F800000` is `1`. -/
theorem ofBits_one_f32 : Ideal.ofBits .f32 0x3F800000#32 = 1 := IdealRules.sign_bit.ideal_onePat .f32

/-- A lane maximum at row `p` is the fold of `max` from `-∞` over the 256 lanes of the row. -/
theorem rowMax_apply (v : FVec Ideal S1024x256 .f32) (p : Fin 1024) :
    multiReduction (F := Ideal) .maximumf [1] S1024 v 0xFF800000#32 reduces_S1024x256_S1024 (.inl rfl) rfl (ix1 p)
      = (Finset.univ : Finset (Fin 256)).fold max ⊥ (fun q => v (ix2 p q)) := by
  refine (Ideal.multiReduction_maximumf_single v _ reduces_S1024x256_S1024 (.inl rfl) rfl (ix1 p)).trans ?_
  have e : (v ∘ reduces_S1024x256_S1024.lift (ix1 p)) = fun q : Fin 256 => v (ix2 p q) :=
    funext fun q => congrArg v (lift_row p q)
  rw [e]
  show Finset.fold max (Ideal.ofBits .f32 0xFF800000#32) _ _ = _
  rw [ofBits_negInf_f32]
  rfl

/-! ## The block product read at an index -/

/-- The left operand's index at output `i`, contraction `q`: its row is `i`'s row. -/
theorem dot_lhsIdx_row (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
/-- … and its column is the contraction coordinate. -/
theorem dot_lhsIdx_hidden (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
/-- The right operand's index at output `i`, contraction `q`: its row is `i`'s column. -/
theorem dot_rhsIdx_row (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
/-- … and its column is the contraction coordinate. -/
theorem dot_rhsIdx_hidden (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- The block product into the zero accumulator, at `(p, q)`: row `p` of the left block against row `q` of the right. -/
theorem blockDot_apply (x : FVec Ideal S1024x2048 .bf16) (y : FVec Ideal S256x2048 .bf16) (p : Fin 1024) (q : Fin 256) :
    matmul (F := Ideal) dot_S1024x2048_S256x2048_S1024x256_1_1_0_0_n_n none x y (constant (F := Ideal) S1024x256 .f32 0x00000000#32) (ix2 p q)
      = ∑ h : Fin 2048, x (ix2 p h) * y (ix2 q h) := by
  simp only [matmul]
  rw [Ideal.matmul_constant_zero_apply, ← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 p q) ((ValueIdx.contrEquiv1 dot_S1024x2048_S256x2048_S1024x256_1_1_0_0_n_n 2048 rfl rfl).symm k) = ix2 p k := funext fun a => Fin.ext (by
    match a with
    | ⟨0, _⟩ => exact dot_lhsIdx_row _ _
    | ⟨1, _⟩ => exact (dot_lhsIdx_hidden _ _).trans hk)
  have er : dot_S1024x2048_S256x2048_S1024x256_1_1_0_0_n_n.rhsIdx (ix2 p q) ((ValueIdx.contrEquiv1 dot_S1024x2048_S256x2048_S1024x256_1_1_0_0_n_n 2048 rfl rfl).symm k) = ix2 q k := funext fun a => Fin.ext (by
    match a with
    | ⟨0, _⟩ => exact dot_rhsIdx_row _ _
    | ⟨1, _⟩ => exact (dot_rhsIdx_hidden _ _).trans hk)
  rw [el, er]

end Payload

open Payload

/-! ## The logits -/

/-- The student logits payload at `(p, q)` is the chunk's logit. -/
theorem sLogits_apply (a : Vec Ideal S1024x2048 .bf16) (w : Vec Ideal S256x2048 .bf16) (b : Vec Ideal S1x256 .f32)
    (p : Fin 1024) (q : Fin 256) : sLogits (F := Ideal) a w b (ix2 p q) = chunkLogit a w b p q := by
  unfold sLogits k0_pay12 chunkLogit
  simp only [shapeCast_self]
  rw [ValueIdx.addf_apply, blockDot_apply, ValueIdx.broadcastTo_1b_ab_apply]

/-- The teacher logits payload at `(p, q)` is the chunk's logit. -/
theorem tLogits_apply (a' : Vec Ideal S1024x2048 .bf16) (w' : Vec Ideal S256x2048 .bf16) (b' : Vec Ideal S1x256 .f32)
    (p : Fin 1024) (q : Fin 256) : tLogits (F := Ideal) a' w' b' (ix2 p q) = chunkLogit a' w' b' p q := by
  unfold tLogits k0_pay13 chunkLogit
  simp only [shapeCast_self]
  rw [ValueIdx.addf_apply, blockDot_apply, ValueIdx.broadcastTo_1b_ab_apply]

namespace Payload

/-! ## The transcendental operations on vectors, read at an index -/

section Pointwise
variable {s : Shape} {φ : FTy}
/-- A vector exponential at an index is the exponential of the element. -/
theorem expv_apply (v : FVec Ideal s φ) (i : s.Idx) : exp v i = Ideal.exp (v i) := rfl
/-- A vector logarithm at an index is the logarithm of the element. -/
theorem logv_apply (v : FVec Ideal s φ) (i : s.Idx) : log v i = Ideal.log (v i) := rfl
/-- A vector square root at an index is the square root of the element. -/
theorem sqrtv_apply (v : FVec Ideal s φ) (i : s.Idx) : sqrt v i = Ideal.sqrt (v i) := rfl
/-- A word read as a scalar is the extended real it encodes. -/
theorem scalarOfBits (b : BitVec φ.bits) : Scalar.ofBits (F := Ideal) φ b = Ideal.ofBits φ b := rfl
end Pointwise

/-! ## The running maximum and the running sum of exponentials -/

/-- The running maximum against a chunk's row maximum, at row `p`. -/
theorem maxStep_apply (x : FVec Ideal S1024x256 .f32) (m0 : Vec Ideal S1024x1 .f32) (p : Fin 1024) :
    k0_pay16 (F := Ideal) x m0 (ix2 p (0 : Fin 1))
      = max (m0 (ix2 p (0 : Fin 1))) ((Finset.univ : Finset (Fin 256)).fold max ⊥ (fun q => x (ix2 p q))) := by
  unfold k0_pay16
  simp only [ValueIdx.maximumf_apply, colCast_apply]
  rw [rowMax_apply]

/-- The rescaled running sum of exponentials plus the chunk's, at row `p`, over the new maximum `M`. -/
theorem sumExpStep_apply (x : FVec Ideal S1024x256 .f32) (m0 mprev l0 : Vec Ideal S1024x1 .f32) (p : Fin 1024) :
    k0_pay17 (F := Ideal) x m0 mprev l0 (ix2 p (0 : Fin 1))
      = Ideal.exp (mprev (ix2 p (0 : Fin 1)) - k0_pay16 (F := Ideal) x m0 (ix2 p (0 : Fin 1))) * l0 (ix2 p (0 : Fin 1))
        + ∑ q : Fin 256, Ideal.exp (x (ix2 p q) - k0_pay16 (F := Ideal) x m0 (ix2 p (0 : Fin 1))) := by
  unfold k0_pay17
  simp only [shapeCast_self, ValueIdx.addf_apply, ValueIdx.mulf_apply, ValueIdx.subf_apply, colCast_apply, expv_apply]
  rw [rowSum_apply]
  simp only [ValueIdx.subf_apply, expv_apply, bcastCol_apply]

/-! ## The label's logit -/

/-- The vocabulary number of lane `q` of chunk `c`, as the body forms it in 32-bit words. -/
theorem colWord (c q : Nat) :
    IntOp.addi (BitVec.ofNat 32 q) (Scalar.muli (BitVec.ofNat 32 c) 256#32) = BitVec.ofNat 32 (256 * c + q) := by
  unfold IntOp.addi Scalar.muli IntOp.muli
  apply BitVec.eq_of_toNat_eq
  simp only [BitVec.toNat_add, BitVec.toNat_mul, BitVec.toNat_ofNat]
  omega

/-- The chunk's logits kept where the lane's vocabulary number is the row's label word and zeroed elsewhere, at `(p, q)`. -/
theorem pick_apply (c : Nat) (x : FVec Ideal S1024x256 .f32) (lbl : IVec S1024x1 32) (p : Fin 1024) (q : Fin 256) :
    select (cmpi .eq (addi (iota .tc S1024x256 32 [1] iota_S1024x256_d1_w32) (broadcast S1024x256 (Scalar.muli (BitVec.ofNat 32 c) 256#32)))
        (broadcastTo S1024x256 (shapeCast S1024x1 lbl shapeCasts_S1024x1_S1024x1) broadcasts_S1024x1_S1024x256)) x
        (broadcast S1024x256 (Scalar.ofBits (F := Ideal) .f32 0x00000000#32)) (ix2 p q)
      = if decide (BitVec.ofNat 32 (256 * c + q.val) = lbl (ix2 p (0 : Fin 1))) then x (ix2 p q) else 0 := by
  rw [ValueIdx.select_apply, ValueIdx.broadcast_apply, scalarOfBits, Ideal.ofBits_zero_f32]
  have hc : cmpi .eq (addi (iota .tc S1024x256 32 [1] iota_S1024x256_d1_w32) (broadcast S1024x256 (Scalar.muli (BitVec.ofNat 32 c) 256#32)))
        (broadcastTo S1024x256 (shapeCast S1024x1 lbl shapeCasts_S1024x1_S1024x1) broadcasts_S1024x1_S1024x256) (ix2 p q)
      = IntOp.cmpi .eq (BitVec.ofNat 32 (256 * c + q.val)) (lbl (ix2 p (0 : Fin 1))) := by
    show IntOp.cmpi .eq (IntOp.addi (iota .tc S1024x256 32 [1] iota_S1024x256_d1_w32 (ix2 p q)) (Scalar.muli (BitVec.ofNat 32 c) 256#32))
        (broadcastTo S1024x256 (shapeCast S1024x1 lbl shapeCasts_S1024x1_S1024x1) broadcasts_S1024x1_S1024x256 (ix2 p q)) = _
    rw [iota_single_apply, bcastCol_apply, shapeCast_self]
    show IntOp.cmpi .eq (IntOp.addi (BitVec.ofNat 32 q.val) (Scalar.muli (BitVec.ofNat 32 c) 256#32)) _ = _
    rw [colWord]
  rw [hc]
  by_cases h : BitVec.ofNat 32 (256 * c + q.val) = lbl (ix2 p (0 : Fin 1))
  · rw [StableHlo.Predicate.cmpi_eq_iff.mpr h, ValueIdx.select_one, if_pos (decide_eq_true h)]
  · rw [ValueIdx.eq_zero_of_ne_one (fun h1 => h (StableHlo.Predicate.cmpi_eq_iff.mp h1)), ValueIdx.select_zero,
      if_neg (by rw [decide_eq_false h]; exact Bool.false_ne_true)]

/-- The chunk's contribution to the label's logit at row `p`: the logits of the lanes whose vocabulary number is the label. -/
theorem labelPick_apply (i : grid0.Coords) (a : Vec Ideal S1024x2048 .bf16) (w : Vec Ideal S256x2048 .bf16) (b : Vec Ideal S1x256 .f32)
    (lbl : Vec Ideal S1024x1 .i32) (p : Fin 1024) :
    k0_pay14 (F := Ideal) i a w b lbl (ix2 p (0 : Fin 1))
      = ∑ q : Fin 256, (if hitCol i lbl p q then chunkLogit a w b p q else 0) := by
  unfold k0_pay14 hitCol
  simp only [colCast_apply]
  rw [rowSum_apply]
  refine Finset.sum_congr rfl fun q _ => ?_
  rw [pick_apply, ← sLogits_apply]

/-! ## The six new columns at a row -/

/-- Row `p` of the student logits payload is the chunk's row of logits. -/
theorem sLogits_row (a : Vec Ideal S1024x2048 .bf16) (w : Vec Ideal S256x2048 .bf16) (b : Vec Ideal S1x256 .f32) (p : Fin 1024) :
    (fun q : Fin 256 => sLogits (F := Ideal) a w b (ix2 p q)) = chunkLogit a w b p :=
  funext fun q => sLogits_apply a w b p q

/-- Multiplying by the splat of `1` changes nothing (student side). -/
theorem unitScaleS (x : FVec Ideal S1024x256 .f32) : k0_pay19 (F := Ideal) x = x := by
  funext j
  unfold k0_pay19
  simp only [ValueIdx.mulf_apply, ValueIdx.broadcast_apply, scalarOfBits, ofBits_one_f32, mul_one]

/-- Multiplying by the splat of `1` changes nothing (teacher side). -/
theorem unitScaleT (x : FVec Ideal S1024x256 .f32) : k0_pay20 (F := Ideal) x = x := by
  funext j
  unfold k0_pay20
  simp only [ValueIdx.mulf_apply, ValueIdx.broadcast_apply, scalarOfBits, ofBits_one_f32, mul_one]

/-- The new running maximum at row `p`. -/
theorem newM_apply (a : Vec Ideal S1024x2048 .bf16) (w : Vec Ideal S256x2048 .bf16) (b : Vec Ideal S1x256 .f32)
    (m0 : Vec Ideal S1024x1 .f32) (p : Fin 1024) :
    newM (F := Ideal) a w b m0 (ix2 p (0 : Fin 1))
      = max (m0 (ix2 p (0 : Fin 1))) ((Finset.univ : Finset (Fin 256)).fold max ⊥ (chunkLogit a w b p)) := by
  unfold newM k0_pay18
  rw [shapeCast_self, maxStep_apply, sLogits_row]

/-- The new running sum of exponentials at row `p`. -/
theorem newL_apply (a : Vec Ideal S1024x2048 .bf16) (w : Vec Ideal S256x2048 .bf16) (b : Vec Ideal S1x256 .f32)
    (m0 l0 : Vec Ideal S1024x1 .f32) (p : Fin 1024) :
    newL (F := Ideal) a w b m0 l0 (ix2 p (0 : Fin 1))
      = Ideal.exp (m0 (ix2 p (0 : Fin 1)) - max (m0 (ix2 p (0 : Fin 1))) ((Finset.univ : Finset (Fin 256)).fold max ⊥ (chunkLogit a w b p)))
            * l0 (ix2 p (0 : Fin 1))
          + ∑ q : Fin 256, Ideal.exp (chunkLogit a w b p q
              - max (m0 (ix2 p (0 : Fin 1))) ((Finset.univ : Finset (Fin 256)).fold max ⊥ (chunkLogit a w b p))) := by
  unfold newL
  rw [sumExpStep_apply, maxStep_apply, sLogits_row]
  simp only [sLogits_apply]

/-- The new label logit at row `p`. -/
theorem newLab_apply (i : grid0.Coords) (a : Vec Ideal S1024x2048 .bf16) (w : Vec Ideal S256x2048 .bf16) (b : Vec Ideal S1x256 .f32)
    (lbl : Vec Ideal S1024x1 .i32) (lab0 : Vec Ideal S1024x1 .f32) (p : Fin 1024) :
    newLab (F := Ideal) i a w b lbl lab0 (ix2 p (0 : Fin 1))
      = lab0 (ix2 p (0 : Fin 1)) + ∑ q : Fin 256, (if hitCol i lbl p q then chunkLogit a w b p q else 0) := by
  unfold newLab k0_pay15
  rw [shapeCast_self, ValueIdx.addf_apply, labelPick_apply]

/-- The new running `∑ x·x` at row `p`. -/
theorem newSS_apply (a : Vec Ideal S1024x2048 .bf16) (w : Vec Ideal S256x2048 .bf16) (b : Vec Ideal S1x256 .f32)
    (ss0 : Vec Ideal S1024x1 .f32) (p : Fin 1024) :
    newSS (F := Ideal) a w b ss0 (ix2 p (0 : Fin 1))
      = ss0 (ix2 p (0 : Fin 1)) + ∑ q : Fin 256, chunkLogit a w b p q * chunkLogit a w b p q := by
  unfold newSS k0_pay1 k0_pay21
  rw [shapeCast_self, ValueIdx.addf_apply, colCast_apply, rowSum_apply, unitScaleS]
  simp only [ValueIdx.mulf_apply, sLogits_apply]

/-- The new running `∑ x·y` at row `p`. -/
theorem newST_apply (a : Vec Ideal S1024x2048 .bf16) (w : Vec Ideal S256x2048 .bf16) (b : Vec Ideal S1x256 .f32)
    (a' : Vec Ideal S1024x2048 .bf16) (w' : Vec Ideal S256x2048 .bf16) (b' : Vec Ideal S1x256 .f32)
    (st0 : Vec Ideal S1024x1 .f32) (p : Fin 1024) :
    newST (F := Ideal) a w b a' w' b' st0 (ix2 p (0 : Fin 1))
      = st0 (ix2 p (0 : Fin 1)) + ∑ q : Fin 256, chunkLogit a w b p q * chunkLogit a' w' b' p q := by
  unfold newST k0_pay3
  rw [shapeCast_self, ValueIdx.addf_apply, colCast_apply, rowSum_apply, unitScaleS, unitScaleT]
  simp only [ValueIdx.mulf_apply, sLogits_apply, tLogits_apply]

/-- The new running `∑ y·y` at row `p`. -/
theorem newTT_apply (a' : Vec Ideal S1024x2048 .bf16) (w' : Vec Ideal S256x2048 .bf16) (b' : Vec Ideal S1x256 .f32)
    (tt0 : Vec Ideal S1024x1 .f32) (p : Fin 1024) :
    newTT (F := Ideal) a' w' b' tt0 (ix2 p (0 : Fin 1))
      = tt0 (ix2 p (0 : Fin 1)) + ∑ q : Fin 256, chunkLogit a' w' b' p q * chunkLogit a' w' b' p q := by
  unfold newTT k0_pay2
  rw [shapeCast_self, ValueIdx.addf_apply, colCast_apply, rowSum_apply, unitScaleT]
  simp only [ValueIdx.mulf_apply, tLogits_apply]

end Payload

open Payload

/-- One grid point's six new columns at row `p` are one step of the row's state. -/
theorem step_apply (i : grid0.Coords) (a a' : Vec Ideal S1024x2048 .bf16) (w w' : Vec Ideal S256x2048 .bf16)
    (b b' : Vec Ideal S1x256 .f32) (lblBlk : Vec Ideal S1024x1 .i32) (m0 l0 lab0 ss0 st0 tt0 : Vec Ideal S1024x1 .f32)
    (p : Fin 1024) :
    stOf (newM a w b m0) (newL a w b m0 l0) (newLab i a w b lblBlk lab0) (newSS a w b ss0) (newST a w b a' w' b' st0)
        (newTT a' w' b' tt0) p
      = (stOf m0 l0 lab0 ss0 st0 tt0 p).step (chunkLogit a w b p) (chunkLogit a' w' b' p) (hitCol i lblBlk p) := by
  unfold stOf RowSt.step
  rw [newM_apply, newL_apply, newLab_apply, newSS_apply, newST_apply, newTT_apply]

/-- The reset columns at row `p` are the initial state. -/
theorem reset_apply (p : Fin 1024) :
    stOf (resetM (F := Ideal)) (resetL (F := Ideal)) (resetLab (F := Ideal)) (resetSS (F := Ideal)) (resetST (F := Ideal))
        (resetTT (F := Ideal)) p = RowSt.init := by
  unfold stOf RowSt.init resetM resetL resetLab resetSS resetST resetTT k0_pay6 k0_pay7 k0_pay8 k0_pay9 k0_pay10 k0_pay11
  simp only [shapeCast_self, ValueIdx.broadcast_apply, scalarOfBits, ofBits_negInf_f32, Ideal.ofBits_zero_f32]

/-- The emitted negative log-likelihood at row `p`. -/
theorem emitNll_apply (m1 l1 lab1 ss1 st1 tt1 : Vec Ideal S1024x1 .f32) (p : Fin 1024) :
    emitNll (F := Ideal) m1 l1 lab1 (ix2 p (0 : Fin 1)) = nllOf (stOf m1 l1 lab1 ss1 st1 tt1 p) := by
  unfold emitNll k0_pay4 nllOf stOf
  simp only [ValueIdx.subf_apply, ValueIdx.addf_apply, logv_apply]

/-- The emitted cosine loss at row `p`. -/
theorem emitSoft_apply (m1 l1 lab1 ss1 st1 tt1 : Vec Ideal S1024x1 .f32) (p : Fin 1024) :
    emitSoft (F := Ideal) ss1 tt1 st1 (ix2 p (0 : Fin 1)) = softOf (stOf m1 l1 lab1 ss1 st1 tt1 p) := by
  unfold emitSoft k0_pay5 softOf stOf
  simp only [ValueIdx.subf_apply, ValueIdx.divf_apply, ValueIdx.mulf_apply, ValueIdx.maximumf_apply, sqrtv_apply,
    ValueIdx.broadcast_apply, scalarOfBits, ofBits_one_f32]

end Cert.KernelIdeal.Val

end
-- ==== Proof.KDefs.lean ====
/-
  The kernel's operands as the region finds them, read as the mathematics' inputs.

  Before the region @main reshapes the labels to a column and the two biases to rows, and narrows the four float matrices to
  bf16 — at the extended reals a change of format is the identity. The student logits of batch row `r` at vocabulary column
  `v` are the inner product of row `r` of the student input with row `v` of the student weight, plus the student bias at `v`;
  the teacher's likewise; the row's label is the label column at `r`.
-/
import proofs.«426442_j89240830476401_2_alg».proof.Proof.Gen.KernelIdeal.Frame.Runs
import proofs.«426442_j89240830476401_2_alg».proof.Proof.Spec
import Idealize.ShloMosaic.Lib.ValueIdx

noncomputable section

namespace Cert.KernelIdeal.Val

open Idealize.ShloMosaic Idealize.ShloMosaic.TcCoe Idealize.SL.Sem
open Cert.KernelIdeal Cert.KernelIdeal.Gen Cert.Distill
open Idealize.ShloMosaic.ValueIdx (ix2)

variable (m : (ℓ : Loc nD τ sig) → Buf (Elt Ideal) ℓ)

/-- The arrays the seven input windows stage, at the extended reals. -/
abbrev sIn (c : Dev nD) : S2048x2048.Idx → EReal := V m c main_v3
abbrev tIn (c : Dev nD) : S2048x2048.Idx → EReal := V m c main_v4
abbrev sW (c : Dev nD) : S32000x2048.Idx → EReal := V m c main_v5
abbrev tW (c : Dev nD) : S32000x2048.Idx → EReal := V m c main_v6
abbrev sB (c : Dev nD) : S1x32000.Idx → EReal := V m c main_v1
abbrev tB (c : Dev nD) : S1x32000.Idx → EReal := V m c main_v2
abbrev lblCol (c : Dev nD) : S2048x1.Idx → BitVec 32 := V m c main_v0

/-- Student logits of batch row `r`. -/
def X (c : Dev nD) (r : Fin 2048) : Fin 32000 → EReal := fun v =>
  (∑ h : Fin 2048, sIn m c (ix2 r h) * sW m c (ix2 v h)) + sB m c (ix2 (0 : Fin 1) v)

/-- Teacher logits of batch row `r`. -/
def Y (c : Dev nD) (r : Fin 2048) : Fin 32000 → EReal := fun v =>
  (∑ h : Fin 2048, tIn m c (ix2 r h) * tW m c (ix2 v h)) + tB m c (ix2 (0 : Fin 1) v)

/-- The label word of batch row `r`. -/
def lbl (c : Dev nD) (r : Fin 2048) : BitVec 32 := lblCol m c (ix2 r (0 : Fin 1))

/-- Batch row `p` of row tile `i` (total in `i`: reduced modulo the batch, which changes nothing for `i < 2`). -/
def rowOf (i : ℕ) (p : Fin 1024) : Fin 2048 := ⟨(1024 * i + p.val) % 2048, Nat.mod_lt _ (by norm_num)⟩

theorem rowOf_val {i : ℕ} (hi : i < 2) (p : Fin 1024) : (rowOf i p).val = 1024 * i + p.val := by
  have := p.isLt
  show (1024 * i + p.val) % 2048 = _
  exact Nat.mod_eq_of_lt (by omega)

/-- The running state of batch row `r` after chunk `j`. -/
abbrev stateOf (c : Dev nD) (r : Fin 2048) (j : ℕ) : RowSt := rowState (X m c r) (Y m c r) (lbl m c r) j

end Cert.KernelIdeal.Val

end
-- ==== Proof.KBlocks.lean ====
/-
  The windows' blocks at a grid point, read off the arrays: at point `t` (row tile `t / 125`, vocabulary chunk `t % 125`) row `p`
  of an input block is batch row `1024 · (t / 125) + p`, row `q` of a weight block and column `q` of a bias block are vocabulary
  column `256 · (t % 125) + q`. So the chunk's logits are the rows' logits at the chunk's columns, and the label block is the
  rows' labels.

  The grid's coordinates and the seven windows' block indices are decided once over the grid's 250 points; an entry of a block
  is then the array's entry at block index times block size plus the coordinate inside the block, on each axis.
-/
import proofs.«426442_j89240830476401_2_alg».proof.Proof.KDefs
import proofs.«426442_j89240830476401_2_alg».proof.Proof.KRow
import Idealize.ShloMosaic.Lib.Pipeline.Value

noncomputable section

namespace Cert.KernelIdeal.Val

open Idealize.ShloMosaic Idealize.ShloMosaic.TcCoe Idealize.SL.Sem
open Cert.KernelIdeal Cert.KernelIdeal.Gen Cert.Distill
open Idealize.ShloMosaic.ValueIdx (ix2)

variable (m : (ℓ : Loc nD τ sig) → Buf (Elt Ideal) ℓ)

/-! ## The grid's coordinates and the windows' block indices, over the grid -/

/-- The grid's two coordinates at every point, decided over its 250 points. -/
theorem coords_facts : ∀ t : Fin cfg0.N, (grid0.coords t 0).val = t.val / 125 ∧ (grid0.coords t 1).val = t.val % 125 :=
  (by decide +kernel : ∀ t : Fin grid0.N, _)

/-- The seven input windows' block indices at every point, decided over the grid: the input and label windows move with the
    row tile, the weight and bias windows with the chunk, and the other block index is 0. -/
theorem idx_facts : ∀ t : Fin cfg0.N,
    (win0_0.index t (0 : Fin 2) = t.val / 125 ∧ win0_0.index t (1 : Fin 2) = 0)
  ∧ (win0_1.index t (0 : Fin 2) = t.val / 125 ∧ win0_1.index t (1 : Fin 2) = 0)
  ∧ (win0_2.index t (0 : Fin 2) = t.val % 125 ∧ win0_2.index t (1 : Fin 2) = 0)
  ∧ (win0_3.index t (0 : Fin 2) = t.val % 125 ∧ win0_3.index t (1 : Fin 2) = 0)
  ∧ (win0_4.index t (0 : Fin 2) = 0 ∧ win0_4.index t (1 : Fin 2) = t.val % 125)
  ∧ (win0_5.index t (0 : Fin 2) = 0 ∧ win0_5.index t (1 : Fin 2) = t.val % 125)
  ∧ (win0_6.index t (0 : Fin 2) = t.val / 125 ∧ win0_6.index t (1 : Fin 2) = 0) :=
  (by decide +kernel : ∀ t : Fin grid0.N, _)

/-- A point's number is below the grid's 250 points. -/
theorem t_lt (t : Fin cfg0.N) : t.val < 250 := by
  have h := t.isLt
  have hN : cfg0.N = 250 := N_0
  omega

/-! ## One entry of each window's block -/

/-- Row `p` of the student input block at point `t` is batch row `1024 · (t / 125) + p`. -/
theorem sIn_blk (c : Dev nD) (t : Fin cfg0.N) (p : Fin 1024) (h : Fin 2048) :
    (iblk m c 0 t : S1024x2048.Idx → EReal) (ix2 p h) = sIn m c (ix2 (rowOf (t.val / 125) p) h) := by
  have ht := t_lt t
  have hp := p.isLt
  obtain ⟨⟨e0, e1⟩, -⟩ := idx_facts t
  unfold iblk
  rw [View.read_apply]
  show V m c main_v3 (((cfg0.win 0).blk t).view.emb (ix2 p h)) = V m c main_v3 (ix2 (rowOf (t.val / 125) p) h)
  congr 1
  funext a
  apply Fin.ext
  match a with
  | ⟨0, _⟩ =>
    show win0_0.index t (0 : Fin 2) * 1024 + 1 * p.val = (rowOf (t.val / 125) p).val
    rw [e0, rowOf_val (by omega)]; omega
  | ⟨1, _⟩ =>
    show win0_0.index t (1 : Fin 2) * 2048 + 1 * h.val = h.val
    rw [e1]; omega

/-- Row `p` of the teacher input block at point `t` is batch row `1024 · (t / 125) + p`. -/
theorem tIn_blk (c : Dev nD) (t : Fin cfg0.N) (p : Fin 1024) (h : Fin 2048) :
    (iblk m c 1 t : S1024x2048.Idx → EReal) (ix2 p h) = tIn m c (ix2 (rowOf (t.val / 125) p) h) := by
  have ht := t_lt t
  have hp := p.isLt
  obtain ⟨-, ⟨e0, e1⟩, -⟩ := idx_facts t
  unfold iblk
  rw [View.read_apply]
  show V m c main_v4 (((cfg0.win 1).blk t).view.emb (ix2 p h)) = V m c main_v4 (ix2 (rowOf (t.val / 125) p) h)
  congr 1
  funext a
  apply Fin.ext
  match a with
  | ⟨0, _⟩ =>
    show win0_1.index t (0 : Fin 2) * 1024 + 1 * p.val = (rowOf (t.val / 125) p).val
    rw [e0, rowOf_val (by omega)]; omega
  | ⟨1, _⟩ =>
    show win0_1.index t (1 : Fin 2) * 2048 + 1 * h.val = h.val
    rw [e1]; omega

/-- Row `q` of the student weight block at point `t` is vocabulary column `256 · (t % 125) + q`. -/
theorem sW_blk (c : Dev nD) (t : Fin cfg0.N) (q : Fin 256) (h : Fin 2048) :
    (iblk m c 2 t : S256x2048.Idx → EReal) (ix2 q h) = sW m c (ix2 (col (t.val % 125) q) h) := by
  have hq := q.isLt
  have hj : t.val % 125 < 125 := Nat.mod_lt _ (by norm_num)
  obtain ⟨-, -, ⟨e0, e1⟩, -⟩ := idx_facts t
  unfold iblk
  rw [View.read_apply]
  show V m c main_v5 (((cfg0.win 2).blk t).view.emb (ix2 q h)) = V m c main_v5 (ix2 (col (t.val % 125) q) h)
  congr 1
  funext a
  apply Fin.ext
  match a with
  | ⟨0, _⟩ =>
    show win0_2.index t (0 : Fin 2) * 256 + 1 * q.val = (col (t.val % 125) q).val
    rw [e0, col_val hj]; omega
  | ⟨1, _⟩ =>
    show win0_2.index t (1 : Fin 2) * 2048 + 1 * h.val = h.val
    rw [e1]; omega

/-- Row `q` of the teacher weight block at point `t` is vocabulary column `256 · (t % 125) + q`. -/
theorem tW_blk (c : Dev nD) (t : Fin cfg0.N) (q : Fin 256) (h : Fin 2048) :
    (iblk m c 3 t : S256x2048.Idx → EReal) (ix2 q h) = tW m c (ix2 (col (t.val % 125) q) h) := by
  have hq := q.isLt
  have hj : t.val % 125 < 125 := Nat.mod_lt _ (by norm_num)
  obtain ⟨-, -, -, ⟨e0, e1⟩, -⟩ := idx_facts t
  unfold iblk
  rw [View.read_apply]
  show V m c main_v6 (((cfg0.win 3).blk t).view.emb (ix2 q h)) = V m c main_v6 (ix2 (col (t.val % 125) q) h)
  congr 1
  funext a
  apply Fin.ext
  match a with
  | ⟨0, _⟩ =>
    show win0_3.index t (0 : Fin 2) * 256 + 1 * q.val = (col (t.val % 125) q).val
    rw [e0, col_val hj]; omega
  | ⟨1, _⟩ =>
    show win0_3.index t (1 : Fin 2) * 2048 + 1 * h.val = h.val
    rw [e1]; omega

/-- Column `q` of the student bias block at point `t` is vocabulary column `256 · (t % 125) + q`. -/
theorem sB_blk (c : Dev nD) (t : Fin cfg0.N) (q : Fin 256) :
    (iblk m c 4 t : S1x256.Idx → EReal) (ix2 (0 : Fin 1) q) = sB m c (ix2 (0 : Fin 1) (col (t.val % 125) q)) := by
  have hq := q.isLt
  have hj : t.val % 125 < 125 := Nat.mod_lt _ (by norm_num)
  obtain ⟨-, -, -, -, ⟨e0, e1⟩, -⟩ := idx_facts t
  unfold iblk
  rw [View.read_apply]
  show V m c main_v1 (((cfg0.win 4).blk t).view.emb (ix2 (0 : Fin 1) q)) = V m c main_v1 (ix2 (0 : Fin 1) (col (t.val % 125) q))
  congr 1
  funext a
  apply Fin.ext
  match a with
  | ⟨0, _⟩ =>
    show win0_4.index t (0 : Fin 2) * 1 + 1 * (0 : Fin 1).val = (0 : Fin 1).val
    rw [e0]; rfl
  | ⟨1, _⟩ =>
    show win0_4.index t (1 : Fin 2) * 256 + 1 * q.val = (col (t.val % 125) q).val
    rw [e1, col_val hj]; omega

/-- Column `q` of the teacher bias block at point `t` is vocabulary column `256 · (t % 125) + q`. -/
theorem tB_blk (c : Dev nD) (t : Fin cfg0.N) (q : Fin 256) :
    (iblk m c 5 t : S1x256.Idx → EReal) (ix2 (0 : Fin 1) q) = tB m c (ix2 (0 : Fin 1) (col (t.val % 125) q)) := by
  have hq := q.isLt
  have hj : t.val % 125 < 125 := Nat.mod_lt _ (by norm_num)
  obtain ⟨-, -, -, -, -, ⟨e0, e1⟩, -⟩ := idx_facts t
  unfold iblk
  rw [View.read_apply]
  show V m c main_v2 (((cfg0.win 5).blk t).view.emb (ix2 (0 : Fin 1) q)) = V m c main_v2 (ix2 (0 : Fin 1) (col (t.val % 125) q))
  congr 1
  funext a
  apply Fin.ext
  match a with
  | ⟨0, _⟩ =>
    show win0_5.index t (0 : Fin 2) * 1 + 1 * (0 : Fin 1).val = (0 : Fin 1).val
    rw [e0]; rfl
  | ⟨1, _⟩ =>
    show win0_5.index t (1 : Fin 2) * 256 + 1 * q.val = (col (t.val % 125) q).val
    rw [e1, col_val hj]; omega

/-! ## The chunk's logits and the label block -/

/-- The grid is 2 row tiles by 125 chunks, chunks fastest. -/
theorem coords_row (t : Fin cfg0.N) : (grid0.coords t 0).val = t.val / 125 := (coords_facts t).1

theorem coords_chunk (t : Fin cfg0.N) : (grid0.coords t 1).val = t.val % 125 := (coords_facts t).2

/-- The student chunk logits at point `t` are the batch rows' logits at the chunk's columns. -/
theorem chunkLogit_student (c : Dev nD) (t : Fin cfg0.N) (p : Fin 1024) (q : Fin 256) :
    chunkLogit (iblk m c 0 t : S1024x2048.Idx → EReal) (iblk m c 2 t : S256x2048.Idx → EReal) (iblk m c 4 t : S1x256.Idx → EReal) p q
      = X m c (rowOf (t.val / 125) p) (col (t.val % 125) q) := by
  unfold chunkLogit X
  rw [sB_blk m c t q]
  congr 1
  refine Finset.sum_congr rfl fun h _ => ?_
  rw [sIn_blk m c t p h, sW_blk m c t q h]

/-- The teacher chunk logits at point `t`. -/
theorem chunkLogit_teacher (c : Dev nD) (t : Fin cfg0.N) (p : Fin 1024) (q : Fin 256) :
    chunkLogit (iblk m c 1 t : S1024x2048.Idx → EReal) (iblk m c 3 t : S256x2048.Idx → EReal) (iblk m c 5 t : S1x256.Idx → EReal) p q
      = Y m c (rowOf (t.val / 125) p) (col (t.val % 125) q) := by
  unfold chunkLogit Y
  rw [tB_blk m c t q]
  congr 1
  refine Finset.sum_congr rfl fun h _ => ?_
  rw [tIn_blk m c t p h, tW_blk m c t q h]

/-- The label block at point `t` is the batch rows' labels. -/
theorem lblBlk_apply (c : Dev nD) (t : Fin cfg0.N) (p : Fin 1024) :
    (iblk m c 6 t : S1024x1.Idx → BitVec 32) (ix2 p (0 : Fin 1)) = lbl m c (rowOf (t.val / 125) p) := by
  have ht := t_lt t
  have hp := p.isLt
  obtain ⟨-, -, -, -, -, -, e0, e1⟩ := idx_facts t
  unfold iblk lbl
  rw [View.read_apply]
  show V m c main_v0 (((cfg0.win 6).blk t).view.emb (ix2 p (0 : Fin 1))) = V m c main_v0 (ix2 (rowOf (t.val / 125) p) (0 : Fin 1))
  congr 1
  funext a
  apply Fin.ext
  match a with
  | ⟨0, _⟩ =>
    show win0_6.index t (0 : Fin 2) * 1024 + 1 * p.val = (rowOf (t.val / 125) p).val
    rw [e0, rowOf_val (by omega)]; omega
  | ⟨1, _⟩ =>
    show win0_6.index t (1 : Fin 2) * 1 + 1 * (0 : Fin 1).val = (0 : Fin 1).val
    rw [e1]; rfl

/-- So the body's label test at point `t` is the mathematics' `hitAt` of the row's label at chunk `t % 125`. -/
theorem hitCol_eq (c : Dev nD) (t : Fin cfg0.N) (p : Fin 1024) :
    hitCol (grid0.coords t) (iblk m c 6 t : S1024x1.Idx → BitVec 32) p = hitAt (lbl m c (rowOf (t.val / 125) p)) (t.val % 125) := by
  funext q
  unfold hitCol hitAt
  rw [lblBlk_apply m c t p, coords_chunk t]

end Cert.KernelIdeal.Val

end
-- ==== Proof.KInvariant.lean ====
/-
  What the scratch columns hold after every grid point, by induction on the point: after point `n` (row tile `n / 125`, chunk
  `n % 125`) row `p` of the six columns is the running state of batch row `1024 · (n / 125) + p` after chunk `n % 125`. At a
  row tile's first chunk the body resets the columns and takes one step from the initial state; at every other chunk it takes one
  step from what the point before left. At the last chunk the two emitted columns are the row's two losses.
-/
import proofs.«426442_j89240830476401_2_alg».proof.Proof.KPieces
import proofs.«426442_j89240830476401_2_alg».proof.Proof.KPayload
import proofs.«426442_j89240830476401_2_alg».proof.Proof.KBlocks

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Distill
open Idealize.ShloMosaic.ValueIdx (ix2)

variable (m : (ℓ : Loc nD τ sig) → Buf (Elt Ideal) ℓ)

/-- The seven input blocks at point `t`, at their literal types. -/
abbrev blk0 (c : Dev nD) (t : Fin cfg0.N) : Vec Ideal S1024x2048 .bf16 := iblk m c 0 t
abbrev blk1 (c : Dev nD) (t : Fin cfg0.N) : Vec Ideal S1024x2048 .bf16 := iblk m c 1 t
abbrev blk2 (c : Dev nD) (t : Fin cfg0.N) : Vec Ideal S256x2048 .bf16 := iblk m c 2 t
abbrev blk3 (c : Dev nD) (t : Fin cfg0.N) : Vec Ideal S256x2048 .bf16 := iblk m c 3 t
abbrev blk4 (c : Dev nD) (t : Fin cfg0.N) : Vec Ideal S1x256 .f32 := iblk m c 4 t
abbrev blk5 (c : Dev nD) (t : Fin cfg0.N) : Vec Ideal S1x256 .f32 := iblk m c 5 t
abbrev blk6 (c : Dev nD) (t : Fin cfg0.N) : Vec Ideal S1024x1 .i32 := iblk m c 6 t

/-- Scratch column `j` (0 … 5: maximum, sum of exponentials, label logit, ∑x·x, ∑x·y, ∑y·y) after point `n`. -/
def colAt (c : Dev nD) (n : ℕ) (hn : n < cfg0.N) : Fin 6 → Vec Ideal S1024x1 .f32
  | ⟨0, _⟩ => (outsAt0 m c n hn).2.2.1
  | ⟨1, _⟩ => (outsAt0 m c n hn).2.2.2.1
  | ⟨2, _⟩ => (outsAt0 m c n hn).2.2.2.2.1
  | ⟨3, _⟩ => (outsAt0 m c n hn).2.2.2.2.2.1
  | ⟨4, _⟩ => (outsAt0 m c n hn).2.2.2.2.2.2.1
  | ⟨5, _⟩ => (outsAt0 m c n hn).2.2.2.2.2.2.2

/-- Case A: the six columns after point `t` are the update of the reset columns. -/
theorem cols_A (c : Dev nD) (t : Fin cfg0.N) (h0 : t.val % 125 = 0) (h1 : ¬t.val % 125 = 124) :
    colAt m c t.val t.isLt 0 = newM (blk0 m c t) (blk2 m c t) (blk4 m c t) (resetM (F := Ideal))
    ∧ colAt m c t.val t.isLt 1 = newL (blk0 m c t) (blk2 m c t) (blk4 m c t) (resetM (F := Ideal)) (resetL (F := Ideal))
    ∧ colAt m c t.val t.isLt 2 = newLab (grid0.coords t) (blk0 m c t) (blk2 m c t) (blk4 m c t) (blk6 m c t) (resetLab (F := Ideal))
    ∧ colAt m c t.val t.isLt 3 = newSS (blk0 m c t) (blk2 m c t) (blk4 m c t) (resetSS (F := Ideal))
    ∧ colAt m c t.val t.isLt 4 = newST (blk0 m c t) (blk2 m c t) (blk4 m c t) (blk1 m c t) (blk3 m c t) (blk5 m c t) (resetST (F := Ideal))
    ∧ colAt m c t.val t.isLt 5 = newTT (blk1 m c t) (blk3 m c t) (blk5 m c t) (resetTT (F := Ideal)) := by
  refine ⟨?_, ?_, ?_, ?_, ?_, ?_⟩
  · show (outsAt0 m c t.val t.isLt).2.2.1 = _
    rw [outsAt0_A m c t h0 h1]
    dsimp only
    exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · show (outsAt0 m c t.val t.isLt).2.2.2.1 = _
    rw [outsAt0_A m c t h0 h1]
    dsimp only
    exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · show (outsAt0 m c t.val t.isLt).2.2.2.2.1 = _
    rw [outsAt0_A m c t h0 h1]
    dsimp only
    exact sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · show (outsAt0 m c t.val t.isLt).2.2.2.2.2.1 = _
    rw [outsAt0_A m c t h0 h1]
    dsimp only
    exact sout_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · show (outsAt0 m c t.val t.isLt).2.2.2.2.2.2.1 = _
    rw [outsAt0_A m c t h0 h1]
    dsimp only
    exact sout_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · show (outsAt0 m c t.val t.isLt).2.2.2.2.2.2.2 = _
    rw [outsAt0_A m c t h0 h1]
    dsimp only
    exact sout_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- Case B: the six columns after point `t` are the update of the columns the point before left. -/
theorem cols_B (c : Dev nD) (t : Fin cfg0.N) (h0 : ¬t.val % 125 = 0) (h1 : ¬t.val % 125 = 124) :
    colAt m c t.val t.isLt 0 = newM (blk0 m c t) (blk2 m c t) (blk4 m c t) (colAt m c (t.val - 1) (Nat.lt_of_le_of_lt (Nat.sub_le _ _) t.isLt) 0)
    ∧ colAt m c t.val t.isLt 1 = newL (blk0 m c t) (blk2 m c t) (blk4 m c t) (colAt m c (t.val - 1) (Nat.lt_of_le_of_lt (Nat.sub_le _ _) t.isLt) 0) (colAt m c (t.val - 1) (Nat.lt_of_le_of_lt (Nat.sub_le _ _) t.isLt) 1)
    ∧ colAt m c t.val t.isLt 2 = newLab (grid0.coords t) (blk0 m c t) (blk2 m c t) (blk4 m c t) (blk6 m c t) (colAt m c (t.val - 1) (Nat.lt_of_le_of_lt (Nat.sub_le _ _) t.isLt) 2)
    ∧ colAt m c t.val t.isLt 3 = newSS (blk0 m c t) (blk2 m c t) (blk4 m c t) (colAt m c (t.val - 1) (Nat.lt_of_le_of_lt (Nat.sub_le _ _) t.isLt) 3)
    ∧ colAt m c t.val t.isLt 4 = newST (blk0 m c t) (blk2 m c t) (blk4 m c t) (blk1 m c t) (blk3 m c t) (blk5 m c t) (colAt m c (t.val - 1) (Nat.lt_of_le_of_lt (Nat.sub_le _ _) t.isLt) 4)
    ∧ colAt m c t.val t.isLt 5 = newTT (blk1 m c t) (blk3 m c t) (blk5 m c t) (colAt m c (t.val - 1) (Nat.lt_of_le_of_lt (Nat.sub_le _ _) t.isLt) 5) := by
  refine ⟨?_, ?_, ?_, ?_, ?_, ?_⟩
  · show (outsAt0 m c t.val t.isLt).2.2.1 = _
    rw [outsAt0_B m c t h0 h1]
    dsimp only
    exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.1 = _
    rw [outsAt0_B m c t h0 h1]
    dsimp only
    exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.1 = _
    rw [outsAt0_B m c t h0 h1]
    dsimp only
    exact sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.2.1 = _
    rw [outsAt0_B m c t h0 h1]
    dsimp only
    exact sout_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.2.2.1 = _
    rw [outsAt0_B m c t h0 h1]
    dsimp only
    exact sout_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.2.2.2 = _
    rw [outsAt0_B m c t h0 h1]
    dsimp only
    exact sout_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Case C: the six columns after point `t` are the update of the columns the point before left. -/
theorem cols_C (c : Dev nD) (t : Fin cfg0.N) (h0 : ¬t.val % 125 = 0) (h1 : t.val % 125 = 124) :
    colAt m c t.val t.isLt 0 = newM (blk0 m c t) (blk2 m c t) (blk4 m c t) (colAt m c (t.val - 1) (Nat.lt_of_le_of_lt (Nat.sub_le _ _) t.isLt) 0)
    ∧ colAt m c t.val t.isLt 1 = newL (blk0 m c t) (blk2 m c t) (blk4 m c t) (colAt m c (t.val - 1) (Nat.lt_of_le_of_lt (Nat.sub_le _ _) t.isLt) 0) (colAt m c (t.val - 1) (Nat.lt_of_le_of_lt (Nat.sub_le _ _) t.isLt) 1)
    ∧ colAt m c t.val t.isLt 2 = newLab (grid0.coords t) (blk0 m c t) (blk2 m c t) (blk4 m c t) (blk6 m c t) (colAt m c (t.val - 1) (Nat.lt_of_le_of_lt (Nat.sub_le _ _) t.isLt) 2)
    ∧ colAt m c t.val t.isLt 3 = newSS (blk0 m c t) (blk2 m c t) (blk4 m c t) (colAt m c (t.val - 1) (Nat.lt_of_le_of_lt (Nat.sub_le _ _) t.isLt) 3)
    ∧ colAt m c t.val t.isLt 4 = newST (blk0 m c t) (blk2 m c t) (blk4 m c t) (blk1 m c t) (blk3 m c t) (blk5 m c t) (colAt m c (t.val - 1) (Nat.lt_of_le_of_lt (Nat.sub_le _ _) t.isLt) 4)
    ∧ colAt m c t.val t.isLt 5 = newTT (blk1 m c t) (blk3 m c t) (blk5 m c t) (colAt m c (t.val - 1) (Nat.lt_of_le_of_lt (Nat.sub_le _ _) t.isLt) 5) := by
  refine ⟨?_, ?_, ?_, ?_, ?_, ?_⟩
  · show (outsAt0 m c t.val t.isLt).2.2.1 = _
    rw [outsAt0_C m c t h0 h1]
    dsimp only
    exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.1 = _
    rw [outsAt0_C m c t h0 h1]
    dsimp only
    exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.1 = _
    rw [outsAt0_C m c t h0 h1]
    dsimp only
    exact sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.2.1 = _
    rw [outsAt0_C m c t h0 h1]
    dsimp only
    exact sout_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.2.2.1 = _
    rw [outsAt0_C m c t h0 h1]
    dsimp only
    exact sout_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · show (outsAt0 m c t.val t.isLt).2.2.2.2.2.2.2 = _
    rw [outsAt0_C m c t h0 h1]
    dsimp only
    exact sout_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Case C: the two emitted columns after point `t`, from the new columns. -/
theorem outs_C (c : Dev nD) (t : Fin cfg0.N) (h0 : ¬t.val % 125 = 0) (h1 : t.val % 125 = 124) :
    (outsAt0 m c t.val t.isLt).1 = emitNll (newM (blk0 m c t) (blk2 m c t) (blk4 m c t) (colAt m c (t.val - 1) (Nat.lt_of_le_of_lt (Nat.sub_le _ _) t.isLt) 0)) (newL (blk0 m c t) (blk2 m c t) (blk4 m c t) (colAt m c (t.val - 1) (Nat.lt_of_le_of_lt (Nat.sub_le _ _) t.isLt) 0) (colAt m c (t.val - 1) (Nat.lt_of_le_of_lt (Nat.sub_le _ _) t.isLt) 1)) (newLab (grid0.coords t) (blk0 m c t) (blk2 m c t) (blk4 m c t) (blk6 m c t) (colAt m c (t.val - 1) (Nat.lt_of_le_of_lt (Nat.sub_le _ _) t.isLt) 2))
    ∧ (outsAt0 m c t.val t.isLt).2.1 = emitSoft (newSS (blk0 m c t) (blk2 m c t) (blk4 m c t) (colAt m c (t.val - 1) (Nat.lt_of_le_of_lt (Nat.sub_le _ _) t.isLt) 3)) (newTT (blk1 m c t) (blk3 m c t) (blk5 m c t) (colAt m c (t.val - 1) (Nat.lt_of_le_of_lt (Nat.sub_le _ _) t.isLt) 5)) (newST (blk0 m c t) (blk2 m c t) (blk4 m c t) (blk1 m c t) (blk3 m c t) (blk5 m c t) (colAt m c (t.val - 1) (Nat.lt_of_le_of_lt (Nat.sub_le _ _) t.isLt) 4)) := by
  refine ⟨?_, ?_⟩
  · rw [outsAt0_C m c t h0 h1]
    dsimp only
    exact out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · rw [outsAt0_C m c t h0 h1]
    dsimp only
    exact out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Row `p` of the six columns after point `n`. -/
abbrev rowAt (c : Dev nD) (n : ℕ) (hn : n < cfg0.N) (p : Fin 1024) : RowSt :=
  stOf (colAt m c n hn 0) (colAt m c n hn 1) (colAt m c n hn 2) (colAt m c n hn 3) (colAt m c n hn 4) (colAt m c n hn 5) p

/-- One step of the row's state over the chunk at point `t` is the step the mathematics takes at chunk `t % 125`. -/
theorem step_at (c : Dev nD) (t : Fin cfg0.N) (p : Fin 1024) (s : RowSt) :
    s.step (chunkLogit (blk0 m c t) (blk2 m c t) (blk4 m c t) p) (chunkLogit (blk1 m c t) (blk3 m c t) (blk5 m c t) p)
        (hitCol (grid0.coords t) (blk6 m c t) p)
      = s.step (fun q => X m c (rowOf (t.val / 125) p) (col (t.val % 125) q)) (fun q => Y m c (rowOf (t.val / 125) p) (col (t.val % 125) q))
          (hitAt (lbl m c (rowOf (t.val / 125) p)) (t.val % 125)) := by
  have e1 : chunkLogit (blk0 m c t) (blk2 m c t) (blk4 m c t) p = fun q => X m c (rowOf (t.val / 125) p) (col (t.val % 125) q) :=
    funext fun q => chunkLogit_student m c t p q
  have e2 : chunkLogit (blk1 m c t) (blk3 m c t) (blk5 m c t) p = fun q => Y m c (rowOf (t.val / 125) p) (col (t.val % 125) q) :=
    funext fun q => chunkLogit_teacher m c t p q
  have e3 : hitCol (grid0.coords t) (blk6 m c t) p = hitAt (lbl m c (rowOf (t.val / 125) p)) (t.val % 125) := hitCol_eq m c t p
  rw [e1, e2, e3]

/-- THE INVARIANT: after point `n`, row `p` of the columns is the running state of its batch row after chunk `n % 125`. -/
theorem rowAt_eq (c : Dev nD) : ∀ (n : ℕ) (hn : n < cfg0.N) (p : Fin 1024),
    rowAt m c n hn p = stateOf m c (rowOf (n / 125) p) (n % 125) := by
  intro n
  induction n using Nat.strong_induction_on with
  | _ n ih =>
    intro hn p
    have hN : cfg0.N = 250 := N_0
    by_cases h0 : n % 125 = 0
    · have h1 : ¬n % 125 = 124 := by omega
      obtain ⟨e0, e1, e2, e3, e4, e5⟩ := cols_A m c ⟨n, hn⟩ h0 h1
      show stOf (colAt m c n hn 0) (colAt m c n hn 1) (colAt m c n hn 2) (colAt m c n hn 3) (colAt m c n hn 4) (colAt m c n hn 5) p = _
      rw [e0, e1, e2, e3, e4, e5, step_apply, reset_apply, step_at m c ⟨n, hn⟩ p, h0]
      rfl
    · obtain ⟨k, hk⟩ : ∃ k, n % 125 = k + 1 := ⟨n % 125 - 1, by omega⟩
      have hpos : 0 < n := Nat.pos_of_ne_zero (by rintro rfl; simp at h0)
      have hprev : (n - 1) / 125 = n / 125 ∧ (n - 1) % 125 = k := by omega
      have hlt : n - 1 < cfg0.N := by omega
      have ihp := ih (n - 1) (by omega) hlt p
      rw [hprev.1, hprev.2] at ihp
      have hstep : stateOf m c (rowOf (n / 125) p) (n % 125)
          = (stateOf m c (rowOf (n / 125) p) k).step (fun q => X m c (rowOf (n / 125) p) (col (n % 125) q))
              (fun q => Y m c (rowOf (n / 125) p) (col (n % 125) q)) (hitAt (lbl m c (rowOf (n / 125) p)) (n % 125)) := by
        rw [hk]; rfl
      by_cases h1 : n % 125 = 124
      · obtain ⟨e0, e1, e2, e3, e4, e5⟩ := cols_C m c ⟨n, hn⟩ h0 h1
        show stOf (colAt m c n hn 0) (colAt m c n hn 1) (colAt m c n hn 2) (colAt m c n hn 3) (colAt m c n hn 4) (colAt m c n hn 5) p = _
        rw [e0, e1, e2, e3, e4, e5, step_apply, step_at m c ⟨n, hn⟩ p, hstep]
        exact congrArg (fun s : RowSt => s.step _ _ _) ihp
      · obtain ⟨e0, e1, e2, e3, e4, e5⟩ := cols_B m c ⟨n, hn⟩ h0 h1
        show stOf (colAt m c n hn 0) (colAt m c n hn 1) (colAt m c n hn 2) (colAt m c n hn 3) (colAt m c n hn 4) (colAt m c n hn 5) p = _
        rw [e0, e1, e2, e3, e4, e5, step_apply, step_at m c ⟨n, hn⟩ p, hstep]
        exact congrArg (fun s : RowSt => s.step _ _ _) ihp

/-- At a row tile's last chunk the emitted columns at row `p` are the batch row's two losses. -/
theorem emitted_eq (c : Dev nD) (t : Fin cfg0.N) (h1 : t.val % 125 = 124) (p : Fin 1024) :
    (outsAt0 m c t.val t.isLt).1 (ix2 p (0 : Fin 1)) = nllOf (stateOf m c (rowOf (t.val / 125) p) 124)
    ∧ (outsAt0 m c t.val t.isLt).2.1 (ix2 p (0 : Fin 1)) = softOf (stateOf m c (rowOf (t.val / 125) p) 124) := by
  have h0 : ¬t.val % 125 = 0 := by omega
  obtain ⟨o7, o8⟩ := outs_C m c t h0 h1
  obtain ⟨e0, e1, e2, e3, e4, e5⟩ := cols_C m c t h0 h1
  have hrow := rowAt_eq m c t.val t.isLt p
  rw [h1] at hrow
  have hrow' : stOf (colAt m c t.val t.isLt 0) (colAt m c t.val t.isLt 1) (colAt m c t.val t.isLt 2) (colAt m c t.val t.isLt 3)
      (colAt m c t.val t.isLt 4) (colAt m c t.val t.isLt 5) p = stateOf m c (rowOf (t.val / 125) p) 124 := hrow
  rw [e0, e1, e2, e3, e4, e5] at hrow'
  refine ⟨?_, ?_⟩
  · rw [o7, emitNll_apply _ _ _ (newSS (blk0 m c t) (blk2 m c t) (blk4 m c t) (colAt m c (t.val - 1) (Nat.lt_of_le_of_lt (Nat.sub_le _ _) t.isLt) 3)) (newST (blk0 m c t) (blk2 m c t) (blk4 m c t) (blk1 m c t) (blk3 m c t) (blk5 m c t) (colAt m c (t.val - 1) (Nat.lt_of_le_of_lt (Nat.sub_le _ _) t.isLt) 4)) (newTT (blk1 m c t) (blk3 m c t) (blk5 m c t) (colAt m c (t.val - 1) (Nat.lt_of_le_of_lt (Nat.sub_le _ _) t.isLt) 5)) p, hrow']
  · rw [o8, emitSoft_apply (newM (blk0 m c t) (blk2 m c t) (blk4 m c t) (colAt m c (t.val - 1) (Nat.lt_of_le_of_lt (Nat.sub_le _ _) t.isLt) 0)) (newL (blk0 m c t) (blk2 m c t) (blk4 m c t) (colAt m c (t.val - 1) (Nat.lt_of_le_of_lt (Nat.sub_le _ _) t.isLt) 0) (colAt m c (t.val - 1) (Nat.lt_of_le_of_lt (Nat.sub_le _ _) t.isLt) 1)) (newLab (grid0.coords t) (blk0 m c t) (blk2 m c t) (blk4 m c t) (blk6 m c t) (colAt m c (t.val - 1) (Nat.lt_of_le_of_lt (Nat.sub_le _ _) t.isLt) 2)) _ _ _ p, hrow']

end Cert.KernelIdeal.Val

end
-- ==== Proof.KFinal.lean ====
/-
  The kernel's two result arrays and the scalar @main returns.

  Output window 7 (8) is written back once per row tile, at the tile's last chunk; its block then holds the tile's rows' negative
  log-likelihoods (cosine losses). The two write-backs cover the 2048 rows, so the arrays after the region are the per-row losses
  of the whole batch. The host lines after the region mask the negative log-likelihoods by label validity, average them over the
  counted rows, average half the cosine losses over the batch, and return half of each: the shared closed form `loss`.
  Before the region the host only reshapes the labels and biases and narrows the float matrices — the identity at the extended
  reals — so the logits are the arguments' inner products and the labels are the argument's.
-/
import proofs.«426442_j89240830476401_2_alg».proof.Proof.KInvariant
import Idealize.ShloMosaic.Lib.StableHlo.Run
import Idealize.ShloMosaic.Lib.Pipeline.Value
import Idealize.ShloMosaic.Lib.StableHlo.Predicate
import Idealize.ShloMosaic.Lib.ValueLayout
import Idealize.ShloMosaic.Lib.IdealHost

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Distill
open Idealize.ShloMosaic.ValueIdx (ix1 ix2 ix0)

variable (m : (ℓ : Loc nD τ sig) → Buf (Elt Ideal) ℓ)

/-- Batch row `r`'s negative log-likelihood and cosine loss as the kernel computes them. -/
def nllK (c : Dev nD) (r : Fin 2048) : EReal := nllOf (stateOf m c r 124)
def softK (c : Dev nD) (r : Fin 2048) : EReal := softOf (stateOf m c r 124)

/-- Batch row `r`'s label word, from the argument array. -/
def lblArg (c : Dev nD) (r : Fin 2048) : BitVec 32 := (m ((c : Thread nD τ).loc main_arg4) : S2048.Idx → BitVec 32) (ix1 r)

/-! ## Before the region -/

/-- The label column the region finds is the label argument, reshaped to a column. -/
theorem V_v0 (c : Dev nD) : (V m c main_v0 : S2048x1.Idx → BitVec 32)
    = shapeCast S2048x1 (m ((c : Thread nD τ).loc main_arg4) : S2048.Idx → BitVec 32) shapeCasts_S2048_S2048x1 := by
  show StableHlo.after (List.flatten [hostOps0]) (fun b => m (c, b)) (Proc.devRef .tc main_v0) = _
  simp only [hostOps0, List.flatten_cons, List.flatten_nil, List.append_nil]
  after_results
  rfl

/-- The label column the region stages is the argument's labels (a reshape). -/
theorem lbl_eq_arg (c : Dev nD) (r : Fin 2048) : lbl m c r = lblArg m c r := by
  unfold lbl lblArg lblCol
  rw [V_v0]
  exact shapeCast_apply _ _ _ (ix1 r) (by
    rw [Shape.rowMajor_val_two, Shape.rowMajor_val_one]
    show r.val = r.val * 1 + 0
    omega)

/-- The student bias row the region finds is the bias argument, reshaped to a row. -/
theorem V_v1 (c : Dev nD) : (V m c main_v1 : S1x32000.Idx → EReal)
    = shapeCast S1x32000 (m ((c : Thread nD τ).loc main_arg5) : S32000.Idx → EReal) shapeCasts_S32000_S1x32000 := by
  show StableHlo.after (List.flatten [hostOps0]) (fun b => m (c, b)) (Proc.devRef .tc main_v1) = _
  simp only [hostOps0, List.flatten_cons, List.flatten_nil, List.append_nil]
  after_results
  rfl

/-- The teacher bias row likewise. -/
theorem V_v2 (c : Dev nD) : (V m c main_v2 : S1x32000.Idx → EReal)
    = shapeCast S1x32000 (m ((c : Thread nD τ).loc main_arg6) : S32000.Idx → EReal) shapeCasts_S32000_S1x32000 := by
  show StableHlo.after (List.flatten [hostOps0]) (fun b => m (c, b)) (Proc.devRef .tc main_v2) = _
  simp only [hostOps0, List.flatten_cons, List.flatten_nil, List.append_nil]
  after_results
  rfl

/-- The four float matrices the region finds are the arguments: narrowing the format is the identity at the extended reals. -/
theorem V_v3 (c : Dev nD) : (V m c main_v3 : S2048x2048.Idx → EReal) = (m ((c : Thread nD τ).loc main_arg0) : S2048x2048.Idx → EReal) := by
  show StableHlo.after (List.flatten [hostOps0]) (fun b => m (c, b)) (Proc.devRef .tc main_v3) = _
  simp only [hostOps0, List.flatten_cons, List.flatten_nil, List.append_nil]
  after_results
  rfl

theorem V_v4 (c : Dev nD) : (V m c main_v4 : S2048x2048.Idx → EReal) = (m ((c : Thread nD τ).loc main_arg2) : S2048x2048.Idx → EReal) := by
  show StableHlo.after (List.flatten [hostOps0]) (fun b => m (c, b)) (Proc.devRef .tc main_v4) = _
  simp only [hostOps0, List.flatten_cons, List.flatten_nil, List.append_nil]
  after_results
  rfl

theorem V_v5 (c : Dev nD) : (V m c main_v5 : S32000x2048.Idx → EReal) = (m ((c : Thread nD τ).loc main_arg1) : S32000x2048.Idx → EReal) := by
  show StableHlo.after (List.flatten [hostOps0]) (fun b => m (c, b)) (Proc.devRef .tc main_v5) = _
  simp only [hostOps0, List.flatten_cons, List.flatten_nil, List.append_nil]
  after_results
  rfl

theorem V_v6 (c : Dev nD) : (V m c main_v6 : S32000x2048.Idx → EReal) = (m ((c : Thread nD τ).loc main_arg3) : S32000x2048.Idx → EReal) := by
  show StableHlo.after (List.flatten [hostOps0]) (fun b => m (c, b)) (Proc.devRef .tc main_v6) = _
  simp only [hostOps0, List.flatten_cons, List.flatten_nil, List.append_nil]
  after_results
  rfl

/-- The logits of batch row `r` from an input matrix, a weight matrix and a bias vector at their literal types: the inner
    product of the input's row `r` with the weight's row `v`, plus the bias at `v`. -/
def argLogits (a : S2048x2048.Idx → EReal) (w : S32000x2048.Idx → EReal) (b : S32000.Idx → EReal) (r : Fin 2048) :
    Fin 32000 → EReal :=
  fun v => (∑ h : Fin 2048, a (ix2 r h) * w (ix2 v h)) + b (ix1 v)

/-- The student logits are the arguments' inner products plus the bias (narrowing to bf16 is the identity; the bias row is a reshape). -/
theorem X_args (c : Dev nD) (r : Fin 2048) :
    X m c r = argLogits (m ((c : Thread nD τ).loc main_arg0)) (m ((c : Thread nD τ).loc main_arg1))
      (m ((c : Thread nD τ).loc main_arg5)) r := by
  funext v
  unfold X argLogits sIn sW sB
  rw [V_v3, V_v5, V_v1, ValueIdx.shapeCast_a_1a_apply]

/-- The teacher logits likewise. -/
theorem Y_args (c : Dev nD) (r : Fin 2048) :
    Y m c r = argLogits (m ((c : Thread nD τ).loc main_arg2)) (m ((c : Thread nD τ).loc main_arg3))
      (m ((c : Thread nD τ).loc main_arg6)) r := by
  funext v
  unfold Y argLogits tIn tW tB
  rw [V_v4, V_v6, V_v2, ValueIdx.shapeCast_a_1a_apply]

/-! ## The two result arrays -/

/-- The block index of the two output windows at a grid point, decided over the grid: the row tile on the row axis, zero on
    the unit axis. -/
theorem idx7 : ∀ t : Fin cfg0.N, win0_7.index t (0 : Fin 2) = t.val / 125 ∧ win0_7.index t (1 : Fin 2) = 0 :=
  (by decide +kernel : ∀ t : Fin grid0.N, win0_7.index t (0 : Fin 2) = t.val / 125 ∧ win0_7.index t (1 : Fin 2) = 0)
theorem idx8 : ∀ t : Fin cfg0.N, win0_8.index t (0 : Fin 2) = t.val / 125 ∧ win0_8.index t (1 : Fin 2) = 0 :=
  (by decide +kernel : ∀ t : Fin grid0.N, win0_8.index t (0 : Fin 2) = t.val / 125 ∧ win0_8.index t (1 : Fin 2) = 0)

/-- The per-row losses as columns. -/
abbrev G7 (c : Dev nD) : S2048x1.Idx → EReal := fun i => nllK m c ⟨(i 0).val, ValueIdx.idx2_lt0 i⟩
abbrev G8 (c : Dev nD) : S2048x1.Idx → EReal := fun i => softK m c ⟨(i 0).val, ValueIdx.idx2_lt0 i⟩

/-- Row `p` of row tile `t / 125` is the array's row `(block index) · 1024 + p`. -/
theorem rowOf_blk (t : Fin cfg0.N) (k : ℕ) (hk : k = t.val / 125) (p : Fin 1024) (h : k * 1024 + 1 * p.val < 2048) :
    rowOf (t.val / 125) p = ⟨k * 1024 + 1 * p.val, h⟩ := by
  have hN : cfg0.N = 250 := N_0
  have hi : t.val / 125 < 2 := by have := t.isLt; omega
  apply Fin.ext
  rw [rowOf_val hi]
  show 1024 * (t.val / 125) + p.val = k * 1024 + 1 * p.val
  omega

/-- What a row tile's last chunk writes back of window 7 is its block of the negative log-likelihoods. -/
theorem flushed7_eq (c : Dev nD) (t : Fin cfg0.N) (hf : (cfg0.win 7).flush t = true) :
    (dats m 0 c).flushed 7 t = ((cfg0.win 7).blk t).view.read (Elt Ideal) (G7 m c) := by
  have h1 : t.val % 125 = 124 := (flush0_7 t).mp hf
  obtain ⟨e0, e1⟩ := idx7 t
  show (cfg0.win 7).cut (grid0.coords t) ((dats m 0 c).after 7 t) = _
  rw [after0_7]
  funext y
  obtain ⟨p, q, rfl⟩ : ∃ (p : Fin 1024) (q : Fin 1), y = ix2 p q := ⟨y 0, y 1, ValueIdx.eq_ix2 y⟩
  obtain rfl : q = 0 := Subsingleton.elim _ _
  rw [View.read_apply]
  show (outsAt0 m c t.val t.isLt).1 (ix2 p 0) = nllK m c ⟨win0_7.index t (0 : Fin 2) * 1024 + 1 * p.val, _⟩
  rw [(emitted_eq m c t h1 p).1, rowOf_blk t _ e0 p]
  rfl

/-- What a row tile's last chunk writes back of window 8 is its block of the cosine losses. -/
theorem flushed8_eq (c : Dev nD) (t : Fin cfg0.N) (hf : (cfg0.win 8).flush t = true) :
    (dats m 0 c).flushed 8 t = ((cfg0.win 8).blk t).view.read (Elt Ideal) (G8 m c) := by
  have h1 : t.val % 125 = 124 := (flush0_8 t).mp hf
  obtain ⟨e0, e1⟩ := idx8 t
  show (cfg0.win 8).cut (grid0.coords t) ((dats m 0 c).after 8 t) = _
  rw [after0_8]
  funext y
  obtain ⟨p, q, rfl⟩ : ∃ (p : Fin 1024) (q : Fin 1), y = ix2 p q := ⟨y 0, y 1, ValueIdx.eq_ix2 y⟩
  obtain rfl : q = 0 := Subsingleton.elim _ _
  rw [View.read_apply]
  show (outsAt0 m c t.val t.isLt).2.1 (ix2 p 0) = softK m c ⟨win0_8.index t (0 : Fin 2) * 1024 + 1 * p.val, _⟩
  rw [(emitted_eq m c t h1 p).2, rowOf_blk t _ e0 p]
  rfl

/-- An index of a result array is in a point's block iff each coordinate is in the block's range on its axis. -/
theorem mem_blk7 (t : Fin cfg0.N) (i : S2048x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v7_0).slice (win0_7.rect t)).set ↔ _
  rw [View.set_slice_whole, Rect.mem_set_unit]
  exact Iff.rfl
theorem mem_blk8 (t : Fin cfg0.N) (i : S2048x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v7_1).slice (win0_8.rect t)).set ↔ _
  rw [View.set_slice_whole, Rect.mem_set_unit]
  exact Iff.rfl

/-- The last chunk of the row tile that holds row `r`. -/
def lastOf (r : ℕ) (hr : r < 2048) : Fin cfg0.N := ⟨125 * (r / 1024) + 124, by rw [show cfg0.N = 250 from N_0]; omega⟩

theorem lastOf_mod (r : ℕ) (hr : r < 2048) : (lastOf r hr).val % 125 = 124 := by
  show (125 * (r / 1024) + 124) % 125 = 124
  omega

theorem lastOf_div (r : ℕ) (hr : r < 2048) : (lastOf r hr).val / 125 = r / 1024 := by
  show (125 * (r / 1024) + 124) / 125 = r / 1024
  omega

/-- The first result array after the region: the rows' negative log-likelihoods. -/
theorem final7 (c : Dev nD) :
    ((dats m 0 c).arrAt 7 cfg0.N : S2048x1.Idx → EReal) = fun i => nllK m c ⟨(i 0).val, ValueIdx.idx2_lt0 i⟩ :=
  (dats m 0 c).arrAt_eq_of_cover 7 (G7 m c) (flushed7_eq m c) fun i => by
    have h0 : (i 0).val < 2048 := (i 0).isLt
    have h1 : (i 1).val < 1 := (i 1).isLt
    refine ⟨lastOf (i 0).val h0, (flush0_7 _).mpr (lastOf_mod _ h0), ?_⟩
    rw [mem_blk7]
    obtain ⟨e0, e1⟩ := idx7 (lastOf (i 0).val h0)
    rw [lastOf_div] at e0
    intro a
    match a with
    | ⟨0, _⟩ =>
      show win0_7.index (lastOf (i 0).val h0) (0 : Fin 2) * 1024 ≤ (i 0).val ∧ (i 0).val < win0_7.index (lastOf (i 0).val h0) (0 : Fin 2) * 1024 + 1024
      rw [e0]; omega
    | ⟨1, _⟩ =>
      show win0_7.index (lastOf (i 0).val h0) (1 : Fin 2) * 1 ≤ (i 1).val ∧ (i 1).val < win0_7.index (lastOf (i 0).val h0) (1 : Fin 2) * 1 + 1
      rw [e1]; omega

/-- The second result array after the region: the rows' cosine losses. -/
theorem final8 (c : Dev nD) :
    ((dats m 0 c).arrAt 8 cfg0.N : S2048x1.Idx → EReal) = fun i => softK m c ⟨(i 0).val, ValueIdx.idx2_lt0 i⟩ :=
  (dats m 0 c).arrAt_eq_of_cover 8 (G8 m c) (flushed8_eq m c) fun i => by
    have h0 : (i 0).val < 2048 := (i 0).isLt
    have h1 : (i 1).val < 1 := (i 1).isLt
    refine ⟨lastOf (i 0).val h0, (flush0_8 _).mpr (lastOf_mod _ h0), ?_⟩
    rw [mem_blk8]
    obtain ⟨e0, e1⟩ := idx8 (lastOf (i 0).val h0)
    rw [lastOf_div] at e0
    intro a
    match a with
    | ⟨0, _⟩ =>
      show win0_8.index (lastOf (i 0).val h0) (0 : Fin 2) * 1024 ≤ (i 0).val ∧ (i 0).val < win0_8.index (lastOf (i 0).val h0) (0 : Fin 2) * 1024 + 1024
      rw [e0]; omega
    | ⟨1, _⟩ =>
      show win0_8.index (lastOf (i 0).val h0) (1 : Fin 2) * 1 ≤ (i 1).val ∧ (i 1).val < win0_8.index (lastOf (i 0).val h0) (1 : Fin 2) * 1 + 1
      rw [e1]; omega

/-! ## The host lines after the region, stage by stage -/

section Host

open Idealize.ShloMosaic.ValueIdx

/-- A sum over the indices of a vector is the sum over its one coordinate. -/
theorem sum_over_vec {M : Type*} [AddCommMonoid M] {n : ℕ} (f : (⟨1, ![n]⟩ : Shape).Idx → M) :
    ∑ i, f i = ∑ r : Fin n, f (ix1 r) :=
  Fintype.sum_equiv ⟨fun i => i 0, ix1, fun i => (eq_ix1 i).symm, fun r => rfl⟩ f (fun r => f (ix1 r))
    fun i => congrArg f (eq_ix1 i)

/-- The coercion of a finite sum of reals is the sum of the coercions. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The host's sum of a batch vector from the zero scalar: `0 + ∑` over the rows. -/
theorem reduce_rows (x : S2048.Idx → EReal) (j : S_.Idx) :
    Host.reduceAdd (F := Ideal) (φ := .f32) x (constant S_ .f32 0x00000000#32) reducesTo_S2048_S_d0 h_S_ j
      = 0 + ∑ r : Fin 2048, x (ix1 r) := by
  rw [hostReduceAdd_apply, Ideal.hostReduceAdd_total _ (fun b => b.elim0), sum_over_vec]
  show Ideal.ofBits .f32 0x00000000#32 + _ = _
  rw [Ideal.ofBits_zero_f32]

variable (lb : S2048.Idx → BitVec 32) (nl sf : S2048x1.Idx → EReal)

/-- The validity bits the host computes: the label compared with the ignored word. -/
abbrev bits : S2048.Idx → BitVec 1 :=
  cmpi .ne lb (broadcastInDim S2048 ![] bcast_S_S2048 (constantI S_ 32 4294967196#32))

theorem bits_apply (r : Fin 2048) : bits lb (ix1 r) = IntOp.cmpi .ne (lb (ix1 r)) ignoreWord := rfl

/-- A row's bit is set exactly when the row counts. -/
theorem bits_eq_one_iff (r : Fin 2048) : bits lb (ix1 r) = 1#1 ↔ isValid (lb (ix1 r)) = true := by
  rw [bits_apply]
  unfold IntOp.cmpi isValid
  by_cases h : lb (ix1 r) = ignoreWord
  · simp [h]
  · have hb : (lb (ix1 r) != ignoreWord) = true := bne_iff_ne.mpr h
    rw [hb]
    simp [h]

/-- The bit as a number is one on the counted rows and zero on the others. -/
theorem bits_toNat (r : Fin 2048) : ((bits lb (ix1 r)).toNat : ℝ) = if isValid (lb (ix1 r)) = true then 1 else 0 := by
  rw [bits_apply]
  unfold IntOp.cmpi isValid
  by_cases h : lb (ix1 r) = ignoreWord
  · simp [h]
  · simp [h]

/-- The masked sum of the negative log-likelihoods. -/
theorem masked_sum (j : S_.Idx) :
    Host.reduceAdd (F := Ideal) (φ := .f32)
        (select (bits lb) (shapeCast S2048 nl shapeCasts_S2048x1_S2048)
          (broadcastInDim S2048 ![] bcast_S_S2048 (constant S_ .f32 0x00000000#32)))
        (constant S_ .f32 0x00000000#32) reducesTo_S2048_S_d0 h_S_ j
      = 0 + ∑ r : Fin 2048, (if isValid (lb (ix1 r)) = true then nl (ix2 r (0 : Fin 1)) else 0) := by
  rw [reduce_rows]
  congr 1
  refine Finset.sum_congr rfl fun r _ => ?_
  rw [select_apply]
  have e1 : shapeCast S2048 nl shapeCasts_S2048x1_S2048 (ix1 r) = nl (ix2 r (0 : Fin 1)) :=
    shapeCast_apply nl _ (ix1 r) (ix2 r (0 : Fin 1)) (by
      rw [Shape.rowMajor_val_two, Shape.rowMajor_val_one]
      show r.val * 1 + 0 = r.val
      omega)
  have e2 : broadcastInDim S2048 ![] bcast_S_S2048 (constant (F := Ideal) S_ .f32 0x00000000#32) (ix1 r) = 0 := by
    rw [broadcastInDim_scalar_apply]
    exact Ideal.ofBits_zero_f32
  rw [e1, e2]
  unfold Scalar.select
  exact if_congr (bits_eq_one_iff lb r) rfl rfl

/-- The count of the counted rows, at least one. -/
theorem count_rows (j : S_.Idx) :
    maximumf (Host.reduceAdd (F := Ideal) (φ := .f32) (uitofp .f32 (bits lb)) (constant S_ .f32 0x00000000#32) reducesTo_S2048_S_d0 h_S_)
        (constant S_ .f32 0x3F800000#32) j
      = nValid fun r => lb (ix1 r) := by
  rw [maximumf_apply, reduce_rows]
  show max (0 + ∑ r : Fin 2048, (((bits lb (ix1 r)).toNat : ℝ) : EReal)) (Ideal.ofBits .f32 0x3F800000#32) = _
  rw [zero_add, coe_sum_real, Ideal.ofBits_one_f32]
  simp only [bits_toNat]
  rw [Finset.sum_boole]
  unfold nValid
  rw [← EReal.coe_one, ← EReal.coe_strictMono.monotone.map_max, Nat.cast_max, Nat.cast_one]

/-- The sum of half the cosine losses. -/
theorem soft_sum (j : S_.Idx) :
    Host.reduceAdd (F := Ideal) (φ := .f32)
        (mulf (broadcastInDim S2048 ![] bcast_S_S2048 (constant S_ .f32 0x3F000000#32)) (shapeCast S2048 sf shapeCasts_S2048x1_S2048))
        (constant S_ .f32 0x00000000#32) reducesTo_S2048_S_d0 h_S_ j
      = 0 + ∑ r : Fin 2048, half * sf (ix2 r (0 : Fin 1)) := by
  rw [reduce_rows]
  congr 1
  refine Finset.sum_congr rfl fun r _ => ?_
  rw [mulf_apply, broadcastInDim_scalar_apply]
  have e1 : shapeCast S2048 sf shapeCasts_S2048x1_S2048 (ix1 r) = sf (ix2 r (0 : Fin 1)) :=
    shapeCast_apply sf _ (ix1 r) (ix2 r (0 : Fin 1)) (by
      rw [Shape.rowMajor_val_two, Shape.rowMajor_val_one]
      show r.val * 1 + 0 = r.val
      omega)
  rw [e1]
  rfl

end Host

/-! ## The returned scalar -/

section Tail

open Idealize.ShloMosaic.ValueIdx

/-- The scalar the host lines after the region compute from the label array and the two result columns. -/
def hostLoss (lb : S2048.Idx → BitVec 32) (nl sf : S2048x1.Idx → EReal) : S_.Idx → EReal :=
  addf (F := Ideal) (φ := .f32)
    (mulf (constant S_ .f32 0x3F000000#32)
      (Host.divf
        (Host.reduceAdd
          (select (bits lb) (shapeCast S2048 nl shapeCasts_S2048x1_S2048)
            (broadcastInDim S2048 ![] bcast_S_S2048 (constant S_ .f32 0x00000000#32)))
          (constant S_ .f32 0x00000000#32) reducesTo_S2048_S_d0 h_S_)
        (maximumf
          (Host.reduceAdd (uitofp .f32 (bits lb)) (constant S_ .f32 0x00000000#32) reducesTo_S2048_S_d0 h_S_)
          (constant S_ .f32 0x3F800000#32))))
    (mulf (constant S_ .f32 0x3F000000#32)
      (Host.divf
        (Host.reduceAdd
          (mulf (broadcastInDim S2048 ![] bcast_S_S2048 (constant S_ .f32 0x3F000000#32)) (shapeCast S2048 sf shapeCasts_S2048x1_S2048))
          (constant S_ .f32 0x00000000#32) reducesTo_S2048_S_d0 h_S_)
        (constant S_ .f32 0x45000000#32)))

/-- It is the shared closed form of the labels and the two columns read as per-row families. -/
theorem hostLoss_eq (lb : S2048.Idx → BitVec 32) (nl sf : S2048x1.Idx → EReal) :
    hostLoss lb nl sf = fun _ => loss (fun r => lb (ix1 r)) (fun r => nl (ix2 r (0 : Fin 1))) (fun r => sf (ix2 r (0 : Fin 1))) := by
  funext j
  unfold hostLoss
  rw [addf_apply, mulf_apply, mulf_apply, hostDivf_apply, hostDivf_apply, masked_sum, count_rows, soft_sum]
  rfl

set_option maxHeartbeats 1000000 in
/-- The host lines after the region, run from any contents, leave that scalar of the label argument and the two result arrays. -/
theorem tail_fold (W : Valuation τ sig (Elt Ideal)) :
    StableHlo.after (List.flatten [hostOps1, hostOps1_1, hostOps1_2]) W (Proc.devRef .tc main_v24)
      = hostLoss (W (Proc.devRef .tc main_arg4)) (W (Proc.devRef .tc main_v7_0)) (W (Proc.devRef .tc main_v7_1)) := by
  simp only [hostOps1, hostOps1_1, hostOps1_2, List.flatten_cons, List.flatten_nil, List.append_nil, List.cons_append, List.nil_append]
  after_results
  rfl

/-- What the host lines after the region leave in the returned scalar. -/
theorem tail_result (c : Dev nD) :
    (Pipeline.afterTail₀ cfgs (dats m) 0 (V0 m) [hostOps1, hostOps1_1, hostOps1_2] c main_v24 : S_.Idx → EReal)
      = fun _ => loss (lblArg m c) (nllK m c) (softK m c) := by
  unfold Pipeline.afterTail₀
  refine (tail_fold _).trans ?_
  rw [hostLoss_eq]
  have h7 : Pipeline.withArrays (cfgs 0).spec c (V0 m c) (fun w => (dats m 0 c).arrAt w (cfgs 0).N) (Proc.devRef .tc main_v7_0) = G7 m c :=
    (Pipeline.withArrays_arr spec0 launch0.win.arr_inj c _ _ 7).trans (final7 m c)
  have h8 : Pipeline.withArrays (cfgs 0).spec c (V0 m c) (fun w => (dats m 0 c).arrAt w (cfgs 0).N) (Proc.devRef .tc main_v7_1) = G8 m c :=
    (Pipeline.withArrays_arr spec0 launch0.win.arr_inj c _ _ 8).trans (final8 m c)
  have h4 : Pipeline.withArrays (cfgs 0).spec c (V0 m c) (fun w => (dats m 0 c).arrAt w (cfgs 0).N) (Proc.devRef .tc main_arg4) = m ((c : Thread nD τ).loc main_arg4) :=
    (Pipeline.withArrays_of_ne spec0 c (V0 m c) _ main_arg4 (by decide : ∀ w, Pipeline.arrRef spec0 w ≠ main_arg4)).trans (V_main_arg4 m c)
  rw [h7, h8, h4]
  rfl

end Tail

end Cert.KernelIdeal.Val

end
-- ==== Proof.KRun.lean ====
/-
  The idealized kernel's run, read: every weakly fair execution of @main terminates with the returned scalar at the shared closed
  form `loss` of the batch rows' labels and the kernel's per-row losses, and the seven arguments unchanged.
-/
import proofs.«426442_j89240830476401_2_alg».proof.Proof.PatchedKernelIdeal.Run
import proofs.«426442_j89240830476401_2_alg».proof.Proof.KFinal

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Distill

variable (m : (ℓ : Loc nD τ sig) → Buf (Elt Ideal) ℓ) (ρ : Dev nD → PrngReg)

/-- The scalar the idealized kernel returns on core `c`. -/
def kResult (c : Dev nD) : Buf (Elt Ideal) ((c.tc : Thread nD τ).loc main_v24) :=
  fun _ => loss (lblArg m c) (nllK m c) (softK m c)

theorem run : θ_run defs (onTc (τ := τ) (main (F := Ideal))) ⟨m, fun _ => 0, ρ⟩ (fun r => ∀ c : Dev nD,
      r.2.mem ((c.tc : Thread nD τ).loc main_v24) = kResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v24 (Pipeline.mem_restRefs_of main_v24 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Val

end
-- ==== Proof.RefValue.lean ====
/-
  The reference program's returned scalar, read at the extended reals as the closed form `Cert.Distill.loss`.

  The reference forms both logit matrices `x = a · wᵀ + b` (a contraction over the hidden axis plus a bias broadcast
  along the rows), and from the student's matrix the row-wise log-softmax: the row maximum `M`, the shifted row
  `x - M`, the sum of its exponentials, and `(x - M) - log ∑ exp (x - M)`. The label word of a row is compared with the
  ignored word; a counted row's label is a column number `L < 32000`, so the index arithmetic around the gather (add the
  row length to a negative index, test `0 ≤ index ≤ 31999`, clamp) leaves it alone and the gather reads the
  log-softmax at `(r, L)`; an ignored row contributes `0` whatever was gathered. The number of counted rows is an
  integer sum of the widened one-bit comparisons, at most 2048, so it does not wrap, and its signed maximum with `1`
  is converted exactly. The cosine part divides each row by `1` and by its norm clamped below by `ε`, multiplies the
  two normalised rows entrywise, sums, and subtracts from `1`. The last lines take half the counted mean plus half the
  batch mean of half the cosine losses. Every step below reads one operation at one index.
-/
import proofs.«426442_j89240830476401_2_alg».proof.Proof.PatchedReference.Read
import proofs.«426442_j89240830476401_2_alg».proof.Proof.Spec
import Idealize.ShloMosaic.Lib.StableHlo.Predicate
import Idealize.ShloMosaic.Lib.ValueIdx
import Idealize.ShloMosaic.PureOps.Ideal.Laws
import Idealize.ShloMosaic.Lib.Pipeline.Value

noncomputable section

namespace Cert.ReferenceIdeal.RefVal

open Cert.ReferenceIdeal Cert.ReferenceIdeal.Gen Cert.ReferenceIdeal.ReadP Cert.Distill
open Idealize.ShloMosaic Idealize.ShloMosaic.ValueIdx Idealize.ShloMosaic.TcCoe Idealize.SL.Sem Idealize.ShloMosaic.StableHlo

/-! ## Constants -/

/-- The word `0xFF800000` is `-∞`. -/
theorem ofBits_neg_inf : Ideal.ofBits .f32 0xFF800000#32 = ⊥ := by simp [Ideal.ofBits, Ideal.ieee]

/-- The word `0x3F800000` is `1`. -/
theorem ofBits_one : Ideal.ofBits .f32 0x3F800000#32 = 1 := by
  simp [Ideal.ofBits, Ideal.ieee, -EReal.coe_mul]; norm_num

/-! ## Sums over a rank-one index set -/

/-- A rank-one index is its one coordinate. -/
def idxEquiv1 (n : Nat) : Fin n ≃ (⟨1, ![n]⟩ : Shape).Idx where
  toFun := ix1
  invFun := fun j => j 0
  left_inv := fun _ => rfl
  right_inv := fun j => (eq_ix1 j).symm

/-- A sum over the indices of a vector is the sum over its positions. -/
theorem sum_idx1 {M : Type*} [AddCommMonoid M] {n : Nat} (f : (⟨1, ![n]⟩ : Shape).Idx → M) :
    ∑ j, f j = ∑ r : Fin n, f (ix1 r) :=
  (Fintype.sum_equiv (idxEquiv1 n) (fun r => f (ix1 r)) f (fun _ => rfl)).symm

/-! ## The row maximum -/

/-- The maximum-reduction of a [2048 × 32000] matrix along its rows is, at row `r`, the fold of `max` from the initial
    value over the row's entries: `max` commutes and associates, so the order of the fold is immaterial. -/
theorem rowMax_apply (y : FVec Ideal S2048x32000 .f32) (init : FVec Ideal S_ .f32) (r : Fin 2048) :
    Host.reduce FloatOps.maximumf y init reducesTo_S2048x32000_S2048_d1 h_S_ (ix1 r)
      = (Finset.univ : Finset (Fin 32000)).fold max (init ix0) (fun v => y (ix2 r v)) := by
  have hR : S2048x32000.Reduces [1] S2048 := by decide
  rw [Host.reduce_eq_fold_single FloatOps.maximumf y init reducesTo_S2048x32000_S2048_d1 hR h_S_ (ix1 r)]
  have hf : (y ∘ hR.lift (ix1 r)) = fun v : Fin 32000 => y (ix2 r v) :=
    funext fun k => congrArg y (funext fun a => Fin.ext (by match a with | ⟨0, _⟩ => rfl | ⟨1, _⟩ => rfl))
  rw [eq_ix0 (Shape.Idx.first h_S_)]
  exact congrArg (fun g => (Finset.univ : Finset (Fin 32000)).fold max (init ix0) g) hf

/-! ## An and-reduction over an axis of size one -/

/-- A fold over the one-element index set is one application of the operation. -/
theorem fold_fin_one {α : Type} (op : α → α → α) [Std.Commutative op] [Std.Associative op] (b : α) (g : Fin 1 → α) :
    (Finset.univ : Finset (Fin 1)).fold op b g = op (g 0) b := by
  rw [Finset.univ_unique, Finset.fold_singleton]; rfl

/-- The and-reduction of a [2048 × 1 × 1] mask over its last axis, of size one, is at `(r, 0)` the one bit `(r, 0, 0)`
    and-ed with the initial value. -/
theorem andReduce_apply (p : IVec S2048x1x1 1) (init : IVec S_ 1) (r : Fin 2048) :
    Host.reduce IntOp.andi p init reducesTo_S2048x1x1_S2048x1_d2 h_S_ (ix2 r (0 : Fin 1))
      = IntOp.andi (p (ix3 r (0 : Fin 1) (0 : Fin 1))) (init ix0) := by
  have hR : S2048x1x1.Reduces [2] S2048x1 := by decide
  rw [Host.reduce_eq_fold_single IntOp.andi p init reducesTo_S2048x1x1_S2048x1_d2 hR h_S_ (ix2 r (0 : Fin 1))]
  refine (fold_fin_one IntOp.andi _ _).trans ?_
  rw [eq_ix0 (Shape.Idx.first h_S_)]
  refine congrArg (fun i => IntOp.andi (p i) (init ix0)) (funext fun a => Fin.ext ?_)
  match a with
  | ⟨0, _⟩ => rfl
  | ⟨1, _⟩ => rfl
  | ⟨2, _⟩ => rfl

/-! ## The integer sum of a vector of small words -/

/-- The word sum of 2048 words that are each `0` or `1`, from `0`, is the sum of their values: it stays below 2³². -/
theorem sumWords_toNat (x : IVec S2048 32) (init : IVec S_ 32) (h0 : init ix0 = 0#32) (hx : ∀ r, (x (ix1 r)).toNat ≤ 1) :
    (Host.reduce IntOp.addi x init reducesTo_S2048_S_d0 h_S_ ix0).toNat = ∑ r : Fin 2048, (x (ix1 r)).toNat := by
  classical
  rw [Host.reduce_eq_fold, eq_ix0 (Shape.Idx.first h_S_), h0,
    Finset.filter_true_of_mem (fun i _ => funext fun b => b.elim0)]
  have hs : ∑ i : S2048.Idx, (x i).toNat = ∑ r : Fin 2048, (x (ix1 r)).toNat := sum_idx1 _
  have hb : ∑ r : Fin 2048, (x (ix1 r)).toNat ≤ 2048 := by
    calc ∑ r : Fin 2048, (x (ix1 r)).toNat ≤ ∑ _r : Fin 2048, 1 := Finset.sum_le_sum fun r _ => hx r
      _ = 2048 := by simp
  rw [StableHlo.Predicate.toNat_fold_addi _ _ (by rw [hs]; omega), hs]

/-! ## The signed maximum of a small word and one -/

/-- A word below 2³¹ and `1` compare signed as their values, so the signed maximum is the maximum of the values. -/
theorem maxsi_one_toInt (n : BitVec 32) (hn : n.toNat < 2 ^ 31) :
    (IntOp.maxsi n 1#32).toInt = ((max n.toNat 1 : ℕ) : ℤ) := by
  have hti : n.toInt = n.toNat := StableHlo.Predicate.toInt_eq_toNat_of_lt hn
  have h1 : (1#32 : BitVec 32).toInt = 1 := by decide
  unfold IntOp.maxsi
  split <;> rename_i hc <;> simp only [BitVec.slt, hti, h1, decide_eq_true_eq] at hc
  · rw [hti]; omega
  · rw [h1]; omega

/-! ## The gather of one entry per row -/

/-- The gather with the row as its batching axis and the column as its collapsed, start-indexed axis reads, at
    `(r, 0)`, row `r` of the operand at the column its start index `(r, 0, 0)` names, read signed and clamped into
    `[0, 31999]`. -/
theorem gather_row {α : Type} (x : S2048x32000.Idx → α) (idx : IVec S2048x1x1 32) (r : Fin 2048) :
    Host.gather gather_S2048x32000_S2048x1x1_S2048x1_n_1_0_0_1_2_11 x idx (ix2 r (0 : Fin 1))
      = x (ix2 r ⟨min (idx (ix3 r (0 : Fin 1) (0 : Fin 1))).toInt.toNat 31999, by omega⟩) := by
  unfold Host.gather
  congr 1
  funext a
  refine Fin.ext ?_
  match a with
  | ⟨0, _⟩ =>
    show gather_S2048x32000_S2048x1x1_S2048x1_n_1_0_0_1_2_11.start (ix2 r (0 : Fin 1)) idx 0
        + gather_S2048x32000_S2048x1x1_S2048x1_n_1_0_0_1_2_11.batchCoord (ix2 r (0 : Fin 1)) 0
        + gather_S2048x32000_S2048x1x1_S2048x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S2048x32000.rank) ∈ gather_S2048x32000_S2048x1x1_S2048x1_n_1_0_0_1_2_11.operandBatchingDims
      from List.mem_singleton.mpr rfl)]
    rfl
  | ⟨1, _⟩ =>
    show gather_S2048x32000_S2048x1x1_S2048x1_n_1_0_0_1_2_11.start (ix2 r (0 : Fin 1)) idx 1
        + gather_S2048x32000_S2048x1x1_S2048x1_n_1_0_0_1_2_11.batchCoord (ix2 r (0 : Fin 1)) 1
        + gather_S2048x32000_S2048x1x1_S2048x1_n_1_0_0_1_2_11.offCoord (ix2 r (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S2048x32000.rank) ∈ gather_S2048x32000_S2048x1x1_S2048x1_n_1_0_0_1_2_11.startIndexMap
      from List.mem_singleton.mpr rfl)]
    have hsi : gather_S2048x32000_S2048x1x1_S2048x1_n_1_0_0_1_2_11.siIdx (ix2 r (0 : Fin 1))
        ⟨List.idxOf (1 : Fin 2) gather_S2048x32000_S2048x1x1_S2048x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- With a start index that is a column number `L`, the gather reads `(r, L)`. -/
theorem gather_row_of {α : Type} (x : S2048x32000.Idx → α) (idx : IVec S2048x1x1 32) (r : Fin 2048) (L : Fin 32000)
    (h : (idx (ix3 r (0 : Fin 1) (0 : Fin 1))).toInt.toNat = L.val) :
    Host.gather gather_S2048x32000_S2048x1x1_S2048x1_n_1_0_0_1_2_11 x idx (ix2 r (0 : Fin 1)) = x (ix2 r L) := by
  rw [gather_row]
  exact congrArg (fun q => x (ix2 r q)) (Fin.ext (by
    show min (idx (ix3 r (0 : Fin 1) (0 : Fin 1))).toInt.toNat 31999 = L.val
    rw [h]; have := L.isLt; omega))

/-! ## The reference's arguments and its logits -/

/-- The types of the reference's arguments: an activation matrix, a weight matrix, a bias vector, the label vector. -/
abbrev ActT : Type := (⟨S2048x2048, .f32⟩ : BufTy).Contents (Elt Ideal)
abbrev WgtT : Type := (⟨S32000x2048, .f32⟩ : BufTy).Contents (Elt Ideal)
abbrev BiasT : Type := (⟨S32000, .f32⟩ : BufTy).Contents (Elt Ideal)
abbrev LblT : Type := (⟨S2048, .i32⟩ : BufTy).Contents (Elt Ideal)

/-- Row `r` of the logits `a · wᵀ + b`: the contraction over the hidden axis plus the bias. -/
def logits (a : S2048x2048.Idx → EReal) (w : S32000x2048.Idx → EReal) (b : S32000.Idx → EReal) (r : Fin 2048) :
    Fin 32000 → EReal := fun v =>
  (∑ h : Fin 2048, a (ix2 r h) * w (ix2 v h)) + b (ix1 v)

/-- The student's logits at `(r, v)`: the dot product of row `r` of the input with row `v` of the weight (the
    transpose turns the weight's rows into columns), plus the bias at `v` (broadcast along the rows). -/
theorem v4_at (x0 : ActT) (x1 : WgtT) (x5 : BiasT) (r : Fin 2048) (v : Fin 32000) :
    val_main_v4 (F := Ideal) x0 x1 x5 (ix2 r v) = logits x0 x1 x5 r v := by
  unfold logits
  rw [val_main_v4_apply, val_main_v1_apply, val_main_v3_apply, val_main_v2_apply, Ideal.addf_def]
  refine congrArg₂ (· + ·) (Finset.sum_congr rfl fun k _ => ?_) (congrArg x5 (funext fun a => ?_))
  · rw [val_main_v0_apply]
    exact congrArg₂ (· * ·)
      (congrArg x0 (funext fun a => by match a with | ⟨0, _⟩ => rfl | ⟨1, _⟩ => rfl))
      (congrArg x1 (funext fun a => by match a with | ⟨0, _⟩ => rfl | ⟨1, _⟩ => rfl))
  · match a with | ⟨0, _⟩ => rfl

/-- The teacher's logits at `(r, v)`, likewise. -/
theorem v9_at (x2 : ActT) (x3 : WgtT) (x6 : BiasT) (r : Fin 2048) (v : Fin 32000) :
    val_main_v9 (F := Ideal) x2 x3 x6 (ix2 r v) = logits x2 x3 x6 r v := by
  unfold logits
  rw [val_main_v9_apply, val_main_v6_apply, val_main_v8_apply, val_main_v7_apply, Ideal.addf_def]
  refine congrArg₂ (· + ·) (Finset.sum_congr rfl fun k _ => ?_) (congrArg x6 (funext fun a => ?_))
  · rw [val_main_v5_apply]
    exact congrArg₂ (· * ·)
      (congrArg x2 (funext fun a => by match a with | ⟨0, _⟩ => rfl | ⟨1, _⟩ => rfl))
      (congrArg x3 (funext fun a => by match a with | ⟨0, _⟩ => rfl | ⟨1, _⟩ => rfl))
  · match a with | ⟨0, _⟩ => rfl

/-! ## The log-softmax -/

/-- The row maximum: the fold of `max` from `-∞` over the row, then `max` with `-∞` once more. -/
theorem rowmax_at (x0 : ActT) (x1 : WgtT) (x5 : BiasT) (r : Fin 2048) :
    val_main_call0_v2 (F := Ideal) x0 x1 x5 (ix1 r) = refMax (logits x0 x1 x5 r) := by
  rw [val_main_call0_v2_apply, val_main_call0_v1_apply, val_main_call0_cst_0_apply]
  unfold val_main_call0_v0
  rw [rowMax_apply, val_main_call0_cst_apply, Ideal.maximumf_def, Ideal.ofBits_def, ofBits_neg_inf]
  simp only [v4_at]
  rfl

/-- The shifted logit at `(r, u)`: the logit minus its row's maximum (broadcast along the row). -/
theorem shifted_at (x0 : ActT) (x1 : WgtT) (x5 : BiasT) (r : Fin 2048) (u : Fin 32000) :
    val_main_call0_v5 (F := Ideal) x0 x1 x5 (ix2 r u)
      = logits x0 x1 x5 r u - refMax (logits x0 x1 x5 r) := by
  rw [val_main_call0_v5_apply, v4_at, val_main_call0_v4_apply, val_main_call0_v3_apply,
    show idx_main_call0_v3 (idx_main_call0_v4 (ix2 r u)) = ix1 r from
      funext fun a => by match a with | ⟨0, _⟩ => rfl,
    rowmax_at, Ideal.subf_def]

/-- The sum over row `r` of the exponentials of the shifted logits, from `0`. -/
theorem sumexp_at (x0 : ActT) (x1 : WgtT) (x5 : BiasT) (r : Fin 2048) :
    val_main_call0_v7 (F := Ideal) x0 x1 x5 (ix1 r)
      = 0 + ∑ u : Fin 32000, Ideal.exp (logits x0 x1 x5 r u - refMax (logits x0 x1 x5 r)) := by
  rw [val_main_call0_v7_apply, val_main_call0_cst_1_apply, Ideal.ofBits_def, Ideal.ofBits_zero_f32]
  refine congrArg (0 + ·) (Finset.sum_congr rfl fun u _ => ?_)
  rw [show idx_main_call0_v7 (ix1 r) u = ix2 r u from
      funext fun a => by match a with | ⟨0, _⟩ => rfl | ⟨1, _⟩ => rfl,
    val_main_call0_v6_apply, shifted_at, Ideal.hostUnary_exp_def]

/-- The log-softmax at `(r, v)`: the shifted logit minus the logarithm of the row's sum of exponentials. -/
theorem logp_at (x0 : ActT) (x1 : WgtT) (x5 : BiasT) (r : Fin 2048) (v : Fin 32000) :
    val_main_v10 (F := Ideal) x0 x1 x5 (ix2 r v) = refLogp (logits x0 x1 x5 r) v := by
  rw [val_main_v10_apply, shifted_at, val_main_call0_v10_apply, val_main_call0_v9_apply, val_main_call0_v8_apply,
    show idx_main_call0_v8 (idx_main_call0_v10 (ix2 r v)) = ix1 r from
      funext fun a => by match a with | ⟨0, _⟩ => rfl,
    sumexp_at, Ideal.hostUnary_log_def, Ideal.subf_def]
  rfl

/-! ## The label -/

/-- The validity bit of row `r`: set exactly when the label word is not the ignored word. -/
theorem valid_at (x4 : LblT) (r : Fin 2048) :
    val_main_v12 (F := Ideal) x4 (ix1 r) = if isValid (x4 (ix1 r)) = true then 1#1 else 0#1 := by
  have hw : ∀ w : BitVec 32, IntOp.cmpi .ne w 4294967196#32 = if isValid w = true then 1#1 else 0#1 := by
    intro w
    unfold isValid IntOp.cmpi
    by_cases h : w = 4294967196#32
    · subst h; decide
    · have hb : (w != 4294967196#32) = true := bne_iff_ne.mpr h
      simp [h, hb, ignoreWord]
  rw [val_main_v12_apply, val_main_v11_apply, val_main_c_apply]
  exact hw _

/-- A column number below 32000 as a 32-bit word has that value. -/
theorem toNat_ofNat_col (L : Fin 32000) : (BitVec.ofNat 32 L.val).toNat = L.val := by
  rw [BitVec.toNat_ofNat]; exact Nat.mod_eq_of_lt (by have := L.isLt; omega)

/-- On a counted row whose label is the column `L`, the safe label (the label where counted, else `0`), laid out as a
    column, is the word of `L`. -/
theorem safe_at (x4 : LblT) (r : Fin 2048) (L : Fin 32000) (hw : x4 (ix1 r) = BitVec.ofNat 32 L.val)
    (hv : isValid (x4 (ix1 r)) = true) :
    val_main_v14 (F := Ideal) x4 (ix2 r (0 : Fin 1)) = BitVec.ofNat 32 L.val := by
  rw [val_main_v14_apply,
    show idx_main_v14 (ix2 r (0 : Fin 1)) = ix1 r from funext fun a => by match a with | ⟨0, _⟩ => rfl,
    val_main_v13_apply, valid_at, if_pos hv, select_one, hw]

/-- … and it is not negative, so the wrap-around of negative indices leaves it alone: the start index at `(r, 0, 0)`
    is the word of `L`. -/
theorem start_at (x4 : LblT) (r : Fin 2048) (L : Fin 32000) (hw : x4 (ix1 r) = BitVec.ofNat 32 L.val)
    (hv : isValid (x4 (ix1 r)) = true) :
    val_main_call2_v5 (F := Ideal) x4 (ix3 r (0 : Fin 1) (0 : Fin 1)) = BitVec.ofNat 32 L.val := by
  have hneg : ¬ IntOp.cmpi .slt (BitVec.ofNat 32 L.val) 0#32 = 1#1 := by
    rw [StableHlo.Predicate.slt_iff_toNat (by rw [toNat_ofNat_col]; have := L.isLt; omega) (by decide)]
    exact Nat.not_lt_zero _
  rw [val_main_call2_v5_apply,
    show idx_main_call2_v5 (ix3 r (0 : Fin 1) (0 : Fin 1)) = ix2 r (0 : Fin 1) from funext fun a => by
      match a with
      | ⟨0, _⟩ => exact Fin.ext (by show ((r.val * 1 + 0) * 1 + 0) / 1 = r.val; omega)
      | ⟨1, _⟩ => rfl,
    val_main_call2_v4_apply, val_main_call2_v1_apply, safe_at x4 r L hw hv, val_main_call2_v0_apply,
    val_main_call2_c_apply, eq_zero_of_ne_one hneg, select_zero]

/-- … and it lies in `[0, 31999]`, so the in-range bit of the row is set. -/
theorem inrange_at (x4 : LblT) (r : Fin 2048) (L : Fin 32000) (hw : x4 (ix1 r) = BitVec.ofNat 32 L.val)
    (hv : isValid (x4 (ix1 r)) = true) :
    val_main_call2_v12 (F := Ideal) x4 (ix2 r (0 : Fin 1)) = 1#1 := by
  have hL : (BitVec.ofNat 32 L.val).toNat < 2 ^ 31 := by rw [toNat_ofNat_col]; have := L.isLt; omega
  have hge : IntOp.cmpi .sge (BitVec.ofNat 32 L.val) 0#32 = 1#1 :=
    (StableHlo.Predicate.sge_iff_toNat hL (by decide)).mpr (Nat.zero_le _)
  have hle : IntOp.cmpi .sle (BitVec.ofNat 32 L.val) 31999#32 = 1#1 :=
    (StableHlo.Predicate.sle_iff_toNat hL (by decide)).mpr (by
      rw [toNat_ofNat_col]; have := L.isLt; show L.val ≤ 31999; omega)
  unfold val_main_call2_v12
  rw [andReduce_apply, val_main_call2_c_3_apply, val_main_call2_v11_apply, val_main_call2_v7_apply,
    val_main_call2_v10_apply, start_at x4 r L hw hv, val_main_call2_v6_apply, val_main_call2_c_2_apply,
    val_main_call2_v9_apply, val_main_call2_v8_apply, val_main_call2_c_1_apply, hge, hle]
  rfl

/-- … and the gather reads the log-softmax of the row at column `L`. -/
theorem gathered_at (x0 : ActT) (x1 : WgtT) (x4 : LblT) (x5 : BiasT) (r : Fin 2048) (L : Fin 32000)
    (hw : x4 (ix1 r) = BitVec.ofNat 32 L.val) (hv : isValid (x4 (ix1 r)) = true) :
    val_main_call2_v13 (F := Ideal) x0 x1 x4 x5 (ix2 r (0 : Fin 1)) = refLogp (logits x0 x1 x5 r) L := by
  unfold val_main_call2_v13
  rw [gather_row_of _ _ r L (by
      rw [start_at x4 r L hw hv, StableHlo.Predicate.toInt_ofNat_small _ (by have := L.isLt; omega)]
      exact Int.toNat_natCast _), logp_at]

/-- The masked negative log-likelihood of row `r`: minus the log-softmax at the label's column on a counted row, `0`
    on an ignored one (where the select discards whatever was gathered). -/
theorem nll_at (x0 : ActT) (x1 : WgtT) (x4 : LblT) (x5 : BiasT) (r : Fin 2048) (L : Fin 32000)
    (hL : isValid (x4 (ix1 r)) = true → x4 (ix1 r) = BitVec.ofNat 32 L.val) :
    val_main_v22 (F := Ideal) x0 x1 x4 x5 (ix1 r)
      = if isValid (x4 (ix1 r)) = true then -(refLogp (logits x0 x1 x5 r) L) else 0 := by
  rw [val_main_v22_apply, valid_at]
  by_cases hv : isValid (x4 (ix1 r)) = true
  · rw [if_pos hv, if_pos hv, select_one, val_main_v17_apply, val_main_v16_apply,
      show idx_main_v16 (ix1 r) = ix2 r (0 : Fin 1) from funext fun a => by
        match a with
        | ⟨0, _⟩ => exact Fin.ext (Nat.div_one _)
        | ⟨1, _⟩ => rfl,
      val_main_v15_apply, inrange_at x4 r L (hL hv) hv, select_one, gathered_at x0 x1 x4 x5 r L (hL hv) hv,
      Ideal.hostNegf_def, Ideal.negf_def]
  · rw [if_neg hv, if_neg hv, select_zero, val_main_call3_v1_apply, val_main_call3_v0_apply, val_main_cst_apply,
      Ideal.ofBits_def, Ideal.ofBits_zero_f32]

/-! ## The number of counted rows -/

/-- The integer sum of the widened validity bits is the number of counted rows. -/
theorem count_at (x4 : LblT) :
    (val_main_v19 (F := Ideal) x4 ix0).toNat
      = (Finset.univ.filter fun r : Fin 2048 => isValid (x4 (ix1 r)) = true).card := by
  have hx : ∀ r : Fin 2048, (val_main_v18 (F := Ideal) x4 (ix1 r)).toNat
      = if isValid (x4 (ix1 r)) = true then 1 else 0 := fun r => by
    rw [val_main_v18_apply, StableHlo.Predicate.toNat_setWidth_bit, valid_at]
    by_cases hv : isValid (x4 (ix1 r)) = true
    · simp [hv]
    · simp [hv]
  unfold val_main_v19
  rw [sumWords_toNat _ _ rfl (fun r => by rw [hx r]; split <;> omega), Finset.card_filter]
  exact Finset.sum_congr rfl fun r _ => hx r

/-- Its signed maximum with `1`, converted to a float, is the real number `max (count) 1`. -/
theorem nvalid_at (x4 : LblT) :
    val_main_v21 (F := Ideal) x4 ix0 = nValid (fun r => x4 (ix1 r)) := by
  have hc := count_at x4
  have hle : (val_main_v19 (F := Ideal) x4 ix0).toNat ≤ 2048 := by
    rw [hc]; exact (Finset.card_le_univ _).trans (by simp)
  rw [val_main_v21_apply, val_main_v20_apply, val_main_c_2_apply]
  show (((IntOp.maxsi (val_main_v19 (F := Ideal) x4 ix0) 1#32).toInt : ℝ) : EReal) = _
  rw [maxsi_one_toInt _ (by omega), hc, Int.cast_natCast]
  rfl

/-! ## The cosine loss -/

/-- The student's logit at `(r, v)` divided by the temperature `1`. -/
theorem sscaled_at (x0 : ActT) (x1 : WgtT) (x5 : BiasT) (r : Fin 2048) (v : Fin 32000) :
    val_main_v26 (F := Ideal) x0 x1 x5 (ix2 r v) = Ideal.div (logits x0 x1 x5 r v) 1 := by
  rw [val_main_v26_apply, v4_at, val_main_v25_apply, val_main_cst_4_apply, Ideal.ofBits_def, ofBits_one,
    Ideal.hostDivf_def]

/-- The teacher's, likewise. -/
theorem tscaled_at (x2 : ActT) (x3 : WgtT) (x6 : BiasT) (r : Fin 2048) (v : Fin 32000) :
    val_main_v28 (F := Ideal) x2 x3 x6 (ix2 r v) = Ideal.div (logits x2 x3 x6 r v) 1 := by
  rw [val_main_v28_apply, v9_at, val_main_v27_apply, val_main_cst_5_apply, Ideal.ofBits_def, ofBits_one,
    Ideal.hostDivf_def]

/-- The norm of the student's scaled row `r` — the square root of the sum of squares from `0` — clamped below by `ε`. -/
theorem snorm_at (x0 : ActT) (x1 : WgtT) (x5 : BiasT) (r : Fin 2048) :
    val_main_v31 (F := Ideal) x0 x1 x5 (ix2 r (0 : Fin 1)) = refNorm (logits x0 x1 x5 r) := by
  rw [val_main_v31_apply, val_main_v29_apply, val_main_call4_v2_apply,
    show idx_main_call4_v2 (ix2 r (0 : Fin 1)) = ix1 r from funext fun a => by match a with | ⟨0, _⟩ => rfl,
    val_main_call4_v1_apply, val_main_call4_cst_apply, val_main_v30_apply, val_main_cst_6_apply]
  simp only [Ideal.ofBits_def, Ideal.ofBits_zero_f32, Ideal.hostUnary_sqrt_def, Ideal.maximumf_def]
  unfold refNorm
  refine congrArg (fun s => max (Ideal.sqrt (0 + s)) eps) (Finset.sum_congr rfl fun k _ => ?_)
  rw [show idx_main_call4_v1 (ix1 r) k = ix2 r k from
      funext fun a => by match a with | ⟨0, _⟩ => rfl | ⟨1, _⟩ => rfl,
    val_main_call4_v0_apply, sscaled_at, Ideal.mulf_def]

/-- The teacher's, likewise. -/
theorem tnorm_at (x2 : ActT) (x3 : WgtT) (x6 : BiasT) (r : Fin 2048) :
    val_main_v36 (F := Ideal) x2 x3 x6 (ix2 r (0 : Fin 1)) = refNorm (logits x2 x3 x6 r) := by
  rw [val_main_v36_apply, val_main_v34_apply, val_main_call5_v2_apply,
    show idx_main_call5_v2 (ix2 r (0 : Fin 1)) = ix1 r from funext fun a => by match a with | ⟨0, _⟩ => rfl,
    val_main_call5_v1_apply, val_main_call5_cst_apply, val_main_v35_apply, val_main_cst_7_apply]
  simp only [Ideal.ofBits_def, Ideal.ofBits_zero_f32, Ideal.hostUnary_sqrt_def, Ideal.maximumf_def]
  unfold refNorm
  refine congrArg (fun s => max (Ideal.sqrt (0 + s)) eps) (Finset.sum_congr rfl fun k _ => ?_)
  rw [show idx_main_call5_v1 (ix1 r) k = ix2 r k from
      funext fun a => by match a with | ⟨0, _⟩ => rfl | ⟨1, _⟩ => rfl,
    val_main_call5_v0_apply, tscaled_at, Ideal.mulf_def]

/-- The student's normalised entry at `(r, v)`: the scaled logit over the row's clamped norm (broadcast along the row). -/
theorem sn_at (x0 : ActT) (x1 : WgtT) (x5 : BiasT) (r : Fin 2048) (v : Fin 32000) :
    val_main_v33 (F := Ideal) x0 x1 x5 (ix2 r v)
      = Ideal.div (Ideal.div (logits x0 x1 x5 r v) 1) (refNorm (logits x0 x1 x5 r)) := by
  rw [val_main_v33_apply, sscaled_at, val_main_v32_apply,
    show idx_main_v32 (ix2 r v) = ix2 r (0 : Fin 1) from
      funext fun a => by match a with | ⟨0, _⟩ => rfl | ⟨1, _⟩ => rfl,
    snorm_at, Ideal.hostDivf_def]

/-- The teacher's, likewise. -/
theorem tn_at (x2 : ActT) (x3 : WgtT) (x6 : BiasT) (r : Fin 2048) (v : Fin 32000) :
    val_main_v38 (F := Ideal) x2 x3 x6 (ix2 r v)
      = Ideal.div (Ideal.div (logits x2 x3 x6 r v) 1) (refNorm (logits x2 x3 x6 r)) := by
  rw [val_main_v38_apply, tscaled_at, val_main_v37_apply,
    show idx_main_v37 (ix2 r v) = ix2 r (0 : Fin 1) from
      funext fun a => by match a with | ⟨0, _⟩ => rfl | ⟨1, _⟩ => rfl,
    tnorm_at, Ideal.hostDivf_def]

/-- The cosine loss of row `r`: one minus the sum, from `0`, of the products of the normalised entries. -/
theorem soft_at (x0 : ActT) (x1 : WgtT) (x2 : ActT) (x3 : WgtT) (x5 x6 : BiasT) (r : Fin 2048) :
    val_main_v42 (F := Ideal) x0 x1 x2 x3 x5 x6 (ix1 r) = refSoft (logits x0 x1 x5 r) (logits x2 x3 x6 r) := by
  rw [val_main_v42_apply, val_main_v41_apply, val_main_cst_9_apply, val_main_v40_apply, val_main_cst_8_apply]
  simp only [Ideal.ofBits_def, ofBits_one, Ideal.ofBits_zero_f32, Ideal.subf_def]
  unfold refSoft
  refine congrArg (fun s => (1 : EReal) - (0 + s)) (Finset.sum_congr rfl fun k _ => ?_)
  rw [show idx_main_v40 (ix1 r) k = ix2 r k from
      funext fun a => by match a with | ⟨0, _⟩ => rfl | ⟨1, _⟩ => rfl,
    val_main_v39_apply, sn_at, tn_at, Ideal.mulf_def]

/-! ## The returned scalar -/

/-- Half the mean of the counted rows' negative log-likelihoods plus half the batch mean of half the cosine losses:
    the two scalar sums run over the 2048 rows from `0`; the constants `0.5` and `2048` stay the words they are printed
    with. -/
theorem loss_at (x0 : ActT) (x1 : WgtT) (x2 : ActT) (x3 : WgtT) (x4 : LblT) (x5 x6 : BiasT)
    (Lof : Fin 2048 → Fin 32000)
    (hL : ∀ r, isValid (x4 (ix1 r)) = true → x4 (ix1 r) = BitVec.ofNat 32 (Lof r).val) :
    val_main_v49 (F := Ideal) x0 x1 x2 x3 x4 x5 x6 ix0
      = loss (fun r => x4 (ix1 r)) (fun r => -(refLogp (logits x0 x1 x5 r) (Lof r)))
          (fun r => refSoft (logits x0 x1 x5 r) (logits x2 x3 x6 r)) := by
  have hn : ∀ r : Fin 2048, val_main_v22 (F := Ideal) x0 x1 x4 x5 (ix1 r)
      = if isValid (x4 (ix1 r)) = true then -(refLogp (logits x0 x1 x5 r) (Lof r)) else 0 :=
    fun r => nll_at x0 x1 x4 x5 r (Lof r) (hL r)
  rw [val_main_v49_apply, val_main_v47_apply, val_main_v48_apply, val_main_cst_13_apply, val_main_cst_14_apply,
    val_main_v24_apply, val_main_v46_apply, val_main_cst_12_apply, val_main_v23_apply, val_main_v45_apply,
    val_main_cst_3_apply, val_main_cst_11_apply, nvalid_at, sum_idx1, sum_idx1]
  simp only [hn, val_main_v44_apply, val_main_v43_apply, val_main_cst_10_apply, soft_at, Ideal.ofBits_def,
    Ideal.ofBits_zero_f32, Ideal.addf_def, Ideal.mulf_def, Ideal.hostDivf_def]
  rfl

/-! ## The statement over the reference's arguments -/

variable (m' : (ℓ : Loc nD τ sig) → Buf (Elt Ideal) ℓ)

/-- Student logits of batch row `r`, from the reference's arguments: at column `v` the sum over the hidden axis `h` of
    the student input at `(r, h)` times the student weight at `(v, h)`, plus the student bias at `v`. -/
def X (c : Dev nD) (r : Fin 2048) : Fin 32000 → EReal :=
  logits (m' ((c.tc : Thread nD τ).loc main_arg0)) (m' ((c.tc : Thread nD τ).loc main_arg1))
    (m' ((c.tc : Thread nD τ).loc main_arg5)) r

/-- Teacher logits of batch row `r`: the same of the teacher's input, weight and bias. -/
def Y (c : Dev nD) (r : Fin 2048) : Fin 32000 → EReal :=
  logits (m' ((c.tc : Thread nD τ).loc main_arg2)) (m' ((c.tc : Thread nD τ).loc main_arg3))
    (m' ((c.tc : Thread nD τ).loc main_arg6)) r

/-- The label word of batch row `r`. -/
def lbl (c : Dev nD) (r : Fin 2048) : BitVec 32 :=
  (m' ((c.tc : Thread nD τ).loc main_arg4) : S2048.Idx → BitVec 32) (ix1 r)

/-- The reference's last stage, at the arguments a memory holds, is the shared closed form of the per-row negative
    log-likelihoods at the labels' columns and the per-row cosine losses. -/
theorem result_eq (c : Dev nD) (Lof : Fin 2048 → Fin 32000)
    (hL : ∀ r, isValid (lbl m' c r) = true → lbl m' c r = BitVec.ofNat 32 (Lof r).val) :
    (Cert.ReferenceIdeal.ReadP.val_main_v49 (F := Ideal) (m' ((c.tc : Thread nD τ).loc main_arg0))
        (m' ((c.tc : Thread nD τ).loc main_arg1)) (m' ((c.tc : Thread nD τ).loc main_arg2))
        (m' ((c.tc : Thread nD τ).loc main_arg3)) (m' ((c.tc : Thread nD τ).loc main_arg4))
        (m' ((c.tc : Thread nD τ).loc main_arg5)) (m' ((c.tc : Thread nD τ).loc main_arg6)) : S_.Idx → EReal) ix0
      = loss (lbl m' c) (fun r => -(refLogp (X m' c r) (Lof r))) (fun r => refSoft (X m' c r) (Y m' c r)) :=
  loss_at (m' ((c.tc : Thread nD τ).loc main_arg0)) (m' ((c.tc : Thread nD τ).loc main_arg1))
    (m' ((c.tc : Thread nD τ).loc main_arg2)) (m' ((c.tc : Thread nD τ).loc main_arg3))
    (m' ((c.tc : Thread nD τ).loc main_arg4)) (m' ((c.tc : Thread nD τ).loc main_arg5))
    (m' ((c.tc : Thread nD τ).loc main_arg6)) Lof hL

end Cert.ReferenceIdeal.RefVal

end
-- ==== Proof.PreFacts.lean ====
/-
  The precondition read back. The printed precondition is the conjunction of seven one-bit tests: for each of the six
  float arrays, "every element x has |x| < +∞" (an and-reduction of the elementwise comparison down to one bit), and for the label
  vector, "every label is −100, or lies in [0, 32000)". When the conjunction is 1, each test is 1; an and-reduction that is 1
  met only 1s, so every element passes its test. For an extended real, max x (−x) < ⊤ excludes both infinities, so x is a
  real number. For a 32-bit word, "0 ≤ l and l < 32000 read signed" gives that the word is a natural number below 32000.
-/
import proofs.«426442_j89240830476401_2_alg».proof.Pre_finite_inputs
import proofs.«426442_j89240830476401_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Affine

namespace Cert.PreRead

open Idealize.ShloMosaic Cert.Pre_finite_inputs

/-- The scalar shape has exactly one index. -/
instance subsingleton_scalar_idx : Subsingleton S_.Idx := ⟨fun _ _ => funext fun d => d.elim0⟩

/-- The pattern 0x7F800000 (sign 0, exponent all ones, fraction 0) denotes +∞. -/
theorem ofBits_inf : Ideal.ofBits .f32 0x7F800000#32 = (⊤ : EReal) := by
  simp [Ideal.ofBits, Ideal.ieee]

/-- ONE VALUE: if max x (−x) < +∞ then x is neither infinity, hence a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

/-- ONE ARRAY: if the and-reduction, down to one bit, of "|a| < the broadcast +∞" is 1, every element of a is real. -/
theorem real_of_all {s : Shape} {axes : List (Fin s.rank)} (hb : S_.BroadcastsInDim s (![] : Fin 0 → Fin s.rank))
    (hr : s.ReducesTo axes S_) (h0 : 0 < S_.numel) (a : FVec Ideal s .f32)
    (h : Host.reduce IntOp.andi (cmpf .olt (Host.absf a) (broadcastInDim s ![] hb (constant S_ .f32 0x7F800000#32)))
          (constantI S_ 1 1#1) hr h0 ValueIdx.ix0 = 1#1) :
    ∀ i, ∃ r : ℝ, a i = (r : EReal) := by
  intro i
  have hi := Host.reduce_andi_all _ _ hr h0 ValueIdx.ix0 h i
  exact real_of_abs_lt_inf (a i) hi

/-- ONE LABEL: a word that is −100, or is at least 0 and below 32000 read signed, is −100 or a natural number below 32000. -/
theorem label_decode (l : BitVec 32)
    (h : IntOp.ori (IntOp.cmpi .eq l 4294967196#32) (IntOp.andi (IntOp.cmpi .sge l 0#32) (IntOp.cmpi .slt l 32000#32)) = 1#1) :
    l = 4294967196#32 ∨ ∃ L : Fin 32000, l = BitVec.ofNat 32 L.val := by
  rcases IntOp.ori_eq_one.1 h with h | h
  · exact Or.inl (IntOp.cmpi_eq.1 h)
  · obtain ⟨hge, hlt⟩ := IntOp.andi_eq_one.1 h
    have hge' := IntOp.cmpi_sge.1 hge
    have hlt' := IntOp.cmpi_slt.1 hlt
    have e0 : (0#32 : BitVec 32).toInt = 0 := by decide
    have e1 : (32000#32 : BitVec 32).toInt = 32000 := by decide
    rw [e0] at hge'
    rw [e1] at hlt'
    have hc := BitVec.toInt_eq_toNat_cond l
    have hl : l.toNat < 32000 := by
      by_cases hm : 2 * l.toNat < 2 ^ 32
      · rw [if_pos hm] at hc; omega
      · rw [if_neg hm] at hc
        have := l.isLt
        omega
    refine Or.inr ⟨⟨l.toNat, hl⟩, ?_⟩
    apply BitVec.eq_of_toNat_eq
    simp only [BitVec.toNat_ofNat]
    omega

/-- The vector conjunction read at an index: it is 1 exactly when both sides are. -/
theorem vandi_eq_one {s : Shape} (x y : IVec s 1) (i : s.Idx) : andi x y i = 1#1 ↔ x i = 1#1 ∧ y i = 1#1 :=
  IntOp.andi_eq_one

/-- THE PRECONDITION READ BACK: when the printed precondition is all ones, each of the six float arrays holds only real
    numbers and each label is −100 or a class index below 32000. -/
theorem of_pre [Cert.Pre_finite_inputs.Facts]
    (a0 : FVec Ideal S2048x2048 .f32) (a1 : FVec Ideal S32000x2048 .f32) (a2 : FVec Ideal S2048x2048 .f32) (a3 : FVec Ideal S32000x2048 .f32)
    (a4 : IVec S2048 32) (a5 : FVec Ideal S32000 .f32) (a6 : FVec Ideal S32000 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a5 i = (r : EReal)) ∧ (∀ i, ∃ r : ℝ, a6 i = (r : EReal))
    ∧ (∀ r : Fin 2048, a4 (Idealize.ShloMosaic.ValueIdx.ix1 r) = 4294967196#32
          ∨ ∃ L : Fin 32000, a4 (Idealize.ShloMosaic.ValueIdx.ix1 r) = BitVec.ofNat 32 L.val) := by
  have h0 := congrFun h ValueIdx.ix0
  dsimp only [Cert.Pre_finite_inputs.fn, fn_part1, fn_part2] at h0
  obtain ⟨h0, hL⟩ := (vandi_eq_one _ _ _).1 h0
  obtain ⟨h0, h6⟩ := (vandi_eq_one _ _ _).1 h0
  obtain ⟨h0, h5⟩ := (vandi_eq_one _ _ _).1 h0
  obtain ⟨h0, h3⟩ := (vandi_eq_one _ _ _).1 h0
  obtain ⟨h0, h2⟩ := (vandi_eq_one _ _ _).1 h0
  obtain ⟨h0, h1⟩ := (vandi_eq_one _ _ _).1 h0
  refine ⟨real_of_all _ _ _ a0 h0, real_of_all _ _ _ a1 h1, real_of_all _ _ _ a2 h2, real_of_all _ _ _ a3 h3,
    real_of_all _ _ _ a5 h5, real_of_all _ _ _ a6 h6, ?_⟩
  intro r
  have hr := Host.reduce_andi_all _ _ _ _ ValueIdx.ix0 hL (ValueIdx.ix1 r)
  exact label_decode _ hr

end Cert.PreRead
-- ==== Proof.OnlineLse.lean ====
/-
  The online log-sum-exp of one row, walked in 125 chunks of 256 columns, equals the reference's
  negative log-softmax at the label.

  For a row of real logits the running state after chunk \`j\` is described exactly by real numbers:
  the running maximum \`M\` is the largest of the first \`256·(j+1)\` logits, the running sum is
  \`∑ exp (x v - M)\` over those logits, and the label accumulator is the sum of the logits whose column
  number equals the label word. After the last chunk the columns seen are all of \`0 … 31999\`, each once,
  so \`M\` is the row maximum, the sum is the full softmax denominator and the label accumulator is \`x L\`;
  what remains is \`(M + log S) - x L = -((x L - M) - log S)\` over the reals.
-/
import proofs.«426442_j89240830476401_2_alg».proof.Proof.Spec
import Mathlib.Data.EReal.Operations
import Mathlib.Data.Fintype.BigOperators
import Mathlib.Data.Fintype.EquivFin
import Mathlib.Data.Finset.Fold
import Mathlib.Data.Finset.Lattice.Fold
import Mathlib.Analysis.SpecialFunctions.Log.Basic

noncomputable section

namespace Cert.Distill

open Idealize.ShloMosaic

namespace Lse

/-! ### Coercion of finite sums, and the exponential of a real difference -/

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On two reals the extended exponential of the difference is the real exponential of the difference. -/
theorem exp_coe_sub_coe (a b : ℝ) : Ideal.exp ((a : EReal) - (b : EReal)) = (Real.exp (a - b) : EReal) := by
  rw [← EReal.coe_sub, Ideal.exp_coe]

/-- A finite sum of such exponentials is the coercion of the real sum. -/
theorem sum_exp_coe_sub_coe {ι : Type*} (s : Finset ι) (f : ι → ℝ) (b : ℝ) :
    ∑ i ∈ s, Ideal.exp ((f i : EReal) - (b : EReal)) = ((∑ i ∈ s, Real.exp (f i - b) : ℝ) : EReal) := by
  rw [coe_finset_sum]
  exact Finset.sum_congr rfl (fun i _ => exp_coe_sub_coe (f i) b)

/-- The maximum of two coerced reals is the coercion of their maximum. -/
theorem coe_max_coe (a b : ℝ) : max (a : EReal) (b : EReal) = ((max a b : ℝ) : EReal) :=
  (EReal.coe_strictMono.monotone.map_max).symm

/-! ### The maximum of one chunk -/

/-- Folding \`max\` from \`-∞\` over 256 reals gives a real: an upper bound of all of them which is one of them. -/
theorem fold_max_coe (f : Fin 256 → ℝ) :
    ∃ c : ℝ, (Finset.univ : Finset (Fin 256)).fold max ⊥ (fun q => (f q : EReal)) = (c : EReal)
      ∧ (∀ q, f q ≤ c) ∧ ∃ q, c = f q := by
  obtain ⟨q0, -, hq0⟩ := Finset.exists_mem_eq_sup' (Finset.univ_nonempty (α := Fin 256)) f
  refine ⟨Finset.univ.sup' Finset.univ_nonempty f, le_antisymm ?_ ?_,
    fun q => Finset.le_sup' f (Finset.mem_univ q), q0, hq0⟩
  · exact (Finset.fold_max_le _).2
      ⟨bot_le, fun q _ => EReal.coe_le_coe_iff.2 (Finset.le_sup' f (Finset.mem_univ q))⟩
  · exact (Finset.le_fold_max _).2 (Or.inr ⟨q0, Finset.mem_univ _, by rw [hq0]⟩)

/-! ### The columns of the chunks enumerate the vocabulary once -/

/-- Chunk \`i < 125\` and position \`q < 256\` determine the column \`256·i + q\`, and every column below
    \`32000 = 125·256\` arises so exactly once. -/
theorem col_bijective : Function.Bijective (fun p : Fin 125 × Fin 256 => col p.1.val p.2) := by
  rw [Fintype.bijective_iff_injective_and_card]
  constructor
  · rintro ⟨i, q⟩ ⟨i', q'⟩ h
    have h1 := congrArg Fin.val h
    simp only [col_val i.isLt, col_val i'.isLt] at h1
    have := q.isLt
    have := q'.isLt
    have hi : i.val = i'.val := by omega
    have hq : q.val = q'.val := by omega
    exact Prod.ext (Fin.ext hi) (Fin.ext hq)
  · simp [Fintype.card_prod]

/-- Summing chunk by chunk is summing over the vocabulary. -/
theorem sum_col {A : Type*} [AddCommMonoid A] (g : Fin 32000 → A) :
    ∑ i ∈ Finset.range 125, ∑ q : Fin 256, g (col i q) = ∑ v : Fin 32000, g v := by
  rw [← Fin.sum_univ_eq_sum_range (fun i => ∑ q : Fin 256, g (col i q)) 125,
    ← Fintype.sum_prod_type' (fun (i : Fin 125) (q : Fin 256) => g (col i.val q))]
  exact col_bijective.sum_comp g

/-- Every column lies in one of the 125 chunks. -/
theorem exists_col (v : Fin 32000) : ∃ i ≤ 124, ∃ q : Fin 256, v = col i q := by
  have hv := v.isLt
  refine ⟨v.val / 256, by omega, ⟨v.val % 256, Nat.mod_lt _ (by norm_num)⟩, Fin.ext ?_⟩
  rw [col_val (by omega)]
  exact (Nat.div_add_mod v.val 256).symm

/-- Two numbers below the vocabulary size have the same 32-bit word only when equal. -/
theorem ofNat_eq_ofNat_iff {a b : ℕ} (ha : a < 32000) (hb : b < 32000) :
    BitVec.ofNat 32 a = BitVec.ofNat 32 b ↔ a = b := by
  constructor
  · intro h
    have h1 := congrArg BitVec.toNat h
    simp only [BitVec.toNat_ofNat] at h1
    omega
  · rintro rfl
    rfl

/-! ### The invariant of the walk -/

/-- What the state \`s\` after chunks \`0 … j\` is, in terms of the real logits \`xr\`: the maximum is the real \`M\`,
    an upper bound of the logits seen which is one of them; the sum is \`∑ exp (xr - M)\` over the logits seen;
    the label accumulator is the sum of the logits seen whose column carries the label word. -/
structure Inv (xr : Fin 32000 → ℝ) (lbl : BitVec 32) (j : ℕ) (s : RowSt) (M : ℝ) : Prop where
  m_eq : s.m = (M : EReal)
  ub : ∀ i ≤ j, ∀ q : Fin 256, xr (col i q) ≤ M
  att : ∃ i ≤ j, ∃ q : Fin 256, M = xr (col i q)
  l_eq : s.l = ((∑ i ∈ Finset.range (j + 1), ∑ q : Fin 256, Real.exp (xr (col i q) - M) : ℝ) : EReal)
  lab_eq : s.lab = ∑ i ∈ Finset.range (j + 1), ∑ q : Fin 256,
    (if hitAt lbl i q then (xr (col i q) : EReal) else 0)

/-- The first chunk establishes the invariant: from the maximum \`-∞\` the rescaling factor is \`exp (-∞) = 0\`
    and the sums start at zero. -/
theorem inv_zero (xr : Fin 32000 → ℝ) (y : Fin 32000 → EReal) (lbl : BitVec 32) :
    ∃ M : ℝ, Inv xr lbl 0 (rowState (fun v => (xr v : EReal)) y lbl 0) M := by
  obtain ⟨c, hc, hub, q0, hq0⟩ := fold_max_coe (fun q => xr (col 0 q))
  have hm : max (⊥ : EReal) ((Finset.univ : Finset (Fin 256)).fold max ⊥ (fun q => (xr (col 0 q) : EReal)))
      = (c : EReal) := by rw [hc]; exact max_eq_right bot_le
  refine ⟨c, ?_, ?_, ⟨0, le_rfl, q0, hq0⟩, ?_, ?_⟩
  · exact hm
  · intro i hi q
    obtain rfl : i = 0 := by omega
    exact hub q
  · show Ideal.exp ((⊥ : EReal) - max (⊥ : EReal) _) * (0 : EReal) + ∑ q : Fin 256, Ideal.exp (_ - max (⊥ : EReal) _) = _
    rw [hm, mul_zero, zero_add, sum_exp_coe_sub_coe, Finset.sum_range_one]
  · show (0 : EReal) + _ = _
    rw [zero_add, Finset.sum_range_one]

/-- One more chunk keeps the invariant: with the old maximum \`a\` and the new one \`b = max a c\` both real,
    \`exp (a - b) · ∑ exp (x - a) = ∑ exp (x - b)\`. -/
theorem inv_succ (xr : Fin 32000 → ℝ) (y : Fin 32000 → EReal) (lbl : BitVec 32) (j : ℕ) (a : ℝ)
    (h : Inv xr lbl j (rowState (fun v => (xr v : EReal)) y lbl j) a) :
    ∃ M : ℝ, Inv xr lbl (j + 1) (rowState (fun v => (xr v : EReal)) y lbl (j + 1)) M := by
  obtain ⟨c, hc, hub, q0, hq0⟩ := fold_max_coe (fun q => xr (col (j + 1) q))
  have hm : max (rowState (fun v => (xr v : EReal)) y lbl j).m
      ((Finset.univ : Finset (Fin 256)).fold max ⊥ (fun q => (xr (col (j + 1) q) : EReal)))
      = ((max a c : ℝ) : EReal) := by rw [hc, h.m_eq, coe_max_coe]
  refine ⟨max a c, ?_, ?_, ?_, ?_, ?_⟩
  · exact hm
  · intro i hi q
    rcases Nat.lt_or_ge i (j + 1) with hlt | hge
    · exact le_trans (h.ub i (by omega) q) (le_max_left _ _)
    · obtain rfl : i = j + 1 := by omega
      exact le_trans (hub q) (le_max_right _ _)
  · rcases le_total a c with hac | hca
    · exact ⟨j + 1, le_rfl, q0, by rw [max_eq_right hac]; exact hq0⟩
    · obtain ⟨i, hi, q, hq⟩ := h.att
      exact ⟨i, by omega, q, by rw [max_eq_left hca]; exact hq⟩
  · show Ideal.exp ((rowState (fun v => (xr v : EReal)) y lbl j).m - max _ _)
        * (rowState (fun v => (xr v : EReal)) y lbl j).l + ∑ q : Fin 256, Ideal.exp (_ - max _ _) = _
    rw [hm, h.m_eq, h.l_eq, exp_coe_sub_coe, sum_exp_coe_sub_coe, ← EReal.coe_mul, ← EReal.coe_add,
      Finset.sum_range_succ _ (j + 1)]
    congr 2
    rw [Finset.mul_sum]
    refine Finset.sum_congr rfl (fun i _ => ?_)
    rw [Finset.mul_sum]
    refine Finset.sum_congr rfl (fun q _ => ?_)
    rw [← Real.exp_add]
    congr 1
    ring
  · show (rowState (fun v => (xr v : EReal)) y lbl j).lab + _ = _
    rw [h.lab_eq, Finset.sum_range_succ _ (j + 1)]

/-- The invariant holds after every chunk. -/
theorem inv_all (xr : Fin 32000 → ℝ) (y : Fin 32000 → EReal) (lbl : BitVec 32) (j : ℕ) :
    ∃ M : ℝ, Inv xr lbl j (rowState (fun v => (xr v : EReal)) y lbl j) M := by
  induction j with
  | zero => exact inv_zero xr y lbl
  | succ j ih =>
    obtain ⟨a, ha⟩ := ih
    exact inv_succ xr y lbl j a ha

/-! ### After the last chunk -/

/-- Exactly one column carries the label word of \`L\`, the column \`L\`: the label accumulator ends at \`x L\`. -/
theorem lab_final (xr : Fin 32000 → ℝ) (L : Fin 32000) :
    ∑ i ∈ Finset.range 125, ∑ q : Fin 256,
      (if hitAt (BitVec.ofNat 32 L.val) i q then (xr (col i q) : EReal) else 0) = (xr L : EReal) := by
  have h1 : ∑ i ∈ Finset.range 125, ∑ q : Fin 256,
      (if hitAt (BitVec.ofNat 32 L.val) i q then (xr (col i q) : EReal) else 0)
      = ∑ i ∈ Finset.range 125, ∑ q : Fin 256,
        (if col i q = L then (xr (col i q) : EReal) else 0) := by
    refine Finset.sum_congr rfl (fun i hi => Finset.sum_congr rfl (fun q _ => ?_))
    have hi' : i < 125 := Finset.mem_range.1 hi
    have hq := q.isLt
    have hiff : hitAt (BitVec.ofNat 32 L.val) i q = true ↔ col i q = L := by
      unfold hitAt
      rw [decide_eq_true_iff, ofNat_eq_ofNat_iff (by omega) L.isLt, ← col_val hi' q]
      exact Fin.val_inj
    by_cases hc : col i q = L
    · rw [if_pos hc, if_pos (hiff.2 hc)]
    · rw [if_neg hc, if_neg (fun h => hc (hiff.1 h))]
  rw [h1, sum_col (fun v => if v = L then (xr v : EReal) else 0), Finset.sum_ite_eq' Finset.univ L,
    if_pos (Finset.mem_univ L)]

/-- The reference's row maximum is the real the walk ends with. -/
theorem refMax_eq (xr : Fin 32000 → ℝ) (M : ℝ) (hub : ∀ i ≤ 124, ∀ q : Fin 256, xr (col i q) ≤ M)
    (hatt : ∃ i ≤ 124, ∃ q : Fin 256, M = xr (col i q)) :
    refMax (fun v => (xr v : EReal)) = (M : EReal) := by
  unfold refMax
  rw [max_eq_right bot_le]
  apply le_antisymm
  · refine (Finset.fold_max_le _).2 ⟨bot_le, fun v _ => ?_⟩
    obtain ⟨i, hi, q, rfl⟩ := exists_col v
    exact EReal.coe_le_coe_iff.2 (hub i hi q)
  · obtain ⟨i, _, q, hq⟩ := hatt
    exact (Finset.le_fold_max _).2 (Or.inr ⟨col i q, Finset.mem_univ _, by rw [hq]⟩)

end Lse

open Lse in
/-- The kernel's negative log-likelihood of a row of real logits is the reference's. -/
theorem nll_eq (x y : Fin 32000 → EReal) (hx : Finite x) (L : Fin 32000) :
    nllOf (rowState x y (BitVec.ofNat 32 L.val) 124) = -(refLogp x L) := by
  choose xr hxr using hx
  obtain rfl : x = fun v => (xr v : EReal) := funext hxr
  obtain ⟨M, hM⟩ := inv_all xr y (BitVec.ofNat 32 L.val) 124
  have hmax := refMax_eq xr M hM.ub hM.att
  have hS : ∑ i ∈ Finset.range (124 + 1), ∑ q : Fin 256, Real.exp (xr (col i q) - M)
      = ∑ v : Fin 32000, Real.exp (xr v - M) := sum_col (fun v => Real.exp (xr v - M))
  have hpos : 0 < ∑ v : Fin 32000, Real.exp (xr v - M) :=
    Finset.sum_pos (fun v _ => Real.exp_pos _) ⟨L, Finset.mem_univ L⟩
  unfold nllOf refLogp
  rw [hM.m_eq, hM.l_eq, hM.lab_eq, lab_final, hmax, hS, zero_add, sum_exp_coe_sub_coe,
    Ideal.log_coe, if_neg (not_le.2 hpos), ← EReal.coe_add, ← EReal.coe_sub, ← EReal.coe_sub,
    ← EReal.coe_sub, ← EReal.coe_neg]
  refine congrArg Real.toEReal ?_
  ring

end Cert.Distill

end
-- ==== Proof.Cosine.lean ====
/-
  The cosine loss: the kernel's value after the last chunk equals the reference's.

  For a row of real student logits `x` and teacher logits `y`, the three running sums the kernel keeps are, after the
  last of the 125 chunks, the full inner products `∑ x·x`, `∑ x·y`, `∑ y·y` over the vocabulary: each chunk adds the sum
  over its 256 columns, and the columns `256·j + q` (`j < 125`, `q < 256`) run through `0 … 31999` exactly once.
  The clamp `ε` is a positive real, so both clamped norms `a = max (√∑ x·x) ε`, `b = max (√∑ y·y) ε` are positive reals,
  division by one is the identity on reals, and over the reals `∑ (x/a)·(y/b) = (∑ x·y) / (a·b)`.
-/
import proofs.«426442_j89240830476401_2_alg».proof.Proof.Spec
import Mathlib.Data.EReal.Operations
import Mathlib.Data.Fintype.BigOperators
import Mathlib.Data.Fintype.EquivFin
import Mathlib.Algebra.BigOperators.Fin
import Mathlib.Algebra.BigOperators.Field
import Mathlib.Algebra.Order.BigOperators.Group.Finset
import Mathlib.Analysis.Real.Sqrt
import Mathlib.Tactic.FieldSimp

noncomputable section

namespace Cert.Distill.Cos

open Idealize.ShloMosaic

/-! ### Coercions from the reals -/

/-- The coercion of a finite sum of reals is the sum of the coercions. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe {ι : Type} [Fintype ι] (f g : ι → ℝ) :
    ∑ v, (f v : EReal) * (g v : EReal) = ((∑ v, f v * g v : ℝ) : EReal) := by
  rw [coe_finsum]
  simp only [EReal.coe_mul]

/-- The coercion is monotone, so it commutes with `max`. -/
theorem coe_max (a b : ℝ) : ((max a b : ℝ) : EReal) = max (a : EReal) (b : EReal) :=
  EReal.coe_strictMono.monotone.map_max

/-- Dividing a real by one changes nothing. -/
theorem div_one_coe (r : ℝ) : Ideal.div (r : EReal) 1 = (r : EReal) := by
  have h := Ideal.div_coe (y := 1) one_ne_zero (r : EReal)
  rw [EReal.coe_one] at h
  rw [h]
  simp

/-- Dividing a real by a nonzero real is the real quotient. -/
theorem div_coe_coe (r : ℝ) {a : ℝ} (ha : a ≠ 0) :
    Ideal.div (r : EReal) (a : EReal) = ((r / a : ℝ) : EReal) := by
  rw [Ideal.div_coe ha, ← EReal.coe_mul, mul_one_div]

/-- The square root of a non-negative real is the real square root. -/
theorem sqrt_coe_nonneg {r : ℝ} (h : 0 ≤ r) : Ideal.sqrt (r : EReal) = (Real.sqrt r : EReal) := by
  rw [Ideal.sqrt_coe, if_neg (not_lt.mpr h)]

/-- The clamp `ε` is a positive real: its word has sign bit 0, exponent field 87 and a nonzero
    significand, so it denotes `(2^23 + T) · 2^(87 - 127 - 23)` with `T ≥ 0`. -/
theorem eps_pos : ∃ e : ℝ, 0 < e ∧ eps = (e : EReal) := by
  simp [eps, Ideal.ofBits, Ideal.ieee, -EReal.coe_mul]

/-! ### The running inner products after chunk `j` -/

/-- After chunk `j` the running `ss` is the sum of `x·x` over the columns of chunks `0 … j`: it starts at zero and each
    chunk adds its own 256 terms. -/
theorem rowState_ss (x y : Fin 32000 → EReal) (lbl : BitVec 32) (j : ℕ) :
    (rowState x y lbl j).ss = ∑ k ∈ Finset.range (j + 1), ∑ q : Fin 256, x (col k q) * x (col k q) := by
  induction j with
  | zero => simp [rowState, RowSt.step, RowSt.init]
  | succ j ih => rw [Finset.sum_range_succ, ← ih]; rfl

/-- Likewise the running `st` is the sum of `x·y` over the columns of chunks `0 … j`. -/
theorem rowState_st (x y : Fin 32000 → EReal) (lbl : BitVec 32) (j : ℕ) :
    (rowState x y lbl j).st = ∑ k ∈ Finset.range (j + 1), ∑ q : Fin 256, x (col k q) * y (col k q) := by
  induction j with
  | zero => simp [rowState, RowSt.step, RowSt.init]
  | succ j ih => rw [Finset.sum_range_succ, ← ih]; rfl

/-- Likewise the running `tt` is the sum of `y·y` over the columns of chunks `0 … j`. -/
theorem rowState_tt (x y : Fin 32000 → EReal) (lbl : BitVec 32) (j : ℕ) :
    (rowState x y lbl j).tt = ∑ k ∈ Finset.range (j + 1), ∑ q : Fin 256, y (col k q) * y (col k q) := by
  induction j with
  | zero => simp [rowState, RowSt.step, RowSt.init]
  | succ j ih => rw [Finset.sum_range_succ, ← ih]; rfl

/-! ### The 125 chunks of 256 columns enumerate the vocabulary once -/

/-- `(j, q) ↦ 256·j + q` is a bijection from `125 × 256` onto the vocabulary: it is injective (division with remainder
    by 256) between two sets of 32000 elements. -/
theorem col_bijective : Function.Bijective (fun p : Fin 125 × Fin 256 => col p.1.val p.2) := by
  rw [Fintype.bijective_iff_injective_and_card]
  refine ⟨?_, by simp⟩
  rintro ⟨k, q⟩ ⟨k', q'⟩ h
  have h1 := congrArg Fin.val h
  simp only [col_val k.isLt, col_val k'.isLt] at h1
  have hq := q.isLt
  have hq' := q'.isLt
  have hk : k.val = k'.val := by omega
  have hqq : q.val = q'.val := by omega
  exact Prod.ext (Fin.ext hk) (Fin.ext hqq)

/-- Summing chunk by chunk is summing over the whole vocabulary. -/
theorem sum_chunks {M : Type} [AddCommMonoid M] (f : Fin 32000 → M) :
    ∑ k ∈ Finset.range 125, ∑ q : Fin 256, f (col k q) = ∑ v : Fin 32000, f v := by
  rw [← col_bijective.sum_comp f, Fintype.sum_prod_type, Finset.sum_range]

/-! ### The cosine loss -/

/-- The reference's clamped norm of a real row is the real `max (√∑ z²) ε`. -/
theorem refNorm_coe (zr : Fin 32000 → ℝ) {e : ℝ} (heps : eps = (e : EReal)) :
    refNorm (fun v => (zr v : EReal)) = ((max (Real.sqrt (∑ v, zr v * zr v)) e : ℝ) : EReal) := by
  unfold refNorm
  simp only [div_one_coe, zero_add]
  rw [sum_mul_coe, sqrt_coe_nonneg (Finset.sum_nonneg fun v _ => mul_self_nonneg (zr v)), heps, ← coe_max]

/-- A state whose three inner products are the full sums of a real row emits the reference's cosine loss: both sides
    are `1 - (∑ x·y) / (a·b)` with `a`, `b` the positive clamped norms. -/
theorem soft_of_sums (xr yr : Fin 32000 → ℝ) (s : RowSt)
    (hss : s.ss = ∑ v, (xr v : EReal) * (xr v : EReal))
    (hst : s.st = ∑ v, (xr v : EReal) * (yr v : EReal))
    (htt : s.tt = ∑ v, (yr v : EReal) * (yr v : EReal)) :
    softOf s = refSoft (fun v => (xr v : EReal)) (fun v => (yr v : EReal)) := by
  obtain ⟨e, he, heps⟩ := eps_pos
  have ha : 0 < max (Real.sqrt (∑ v, xr v * xr v)) e := lt_max_of_lt_right he
  have hb : 0 < max (Real.sqrt (∑ v, yr v * yr v)) e := lt_max_of_lt_right he
  unfold softOf refSoft
  rw [refNorm_coe xr heps, refNorm_coe yr heps, hss, hst, htt, sum_mul_coe, sum_mul_coe, sum_mul_coe,
    sqrt_coe_nonneg (Finset.sum_nonneg fun v _ => mul_self_nonneg (xr v)),
    sqrt_coe_nonneg (Finset.sum_nonneg fun v _ => mul_self_nonneg (yr v)), heps, ← coe_max, ← coe_max,
    ← EReal.coe_mul, div_coe_coe _ (mul_pos ha hb).ne']
  simp only [div_one_coe, div_coe_coe _ ha.ne', div_coe_coe _ hb.ne', zero_add]
  rw [sum_mul_coe]
  have key : (∑ v, xr v / max (Real.sqrt (∑ v, xr v * xr v)) e * (yr v / max (Real.sqrt (∑ v, yr v * yr v)) e))
      = (∑ v, xr v * yr v) / (max (Real.sqrt (∑ v, xr v * xr v)) e * max (Real.sqrt (∑ v, yr v * yr v)) e) := by
    rw [Finset.sum_div]
    refine Finset.sum_congr rfl fun v _ => ?_
    field_simp
  rw [key]

end Cert.Distill.Cos

namespace Cert.Distill

/-- The kernel's cosine loss after the last chunk is the reference's. -/
theorem soft_eq (x y : Fin 32000 → EReal) (lbl : BitVec 32) (hx : Finite x) (hy : Finite y) :
    softOf (rowState x y lbl 124) = refSoft x y := by
  choose xr hxr using hx
  choose yr hyr using hy
  obtain rfl : x = fun v => (xr v : EReal) := funext hxr
  obtain rfl : y = fun v => (yr v : EReal) := funext hyr
  refine Cos.soft_of_sums xr yr _ ?_ ?_ ?_
  · rw [Cos.rowState_ss, Cos.sum_chunks (fun v => (xr v : EReal) * (xr v : EReal))]
  · rw [Cos.rowState_st, Cos.sum_chunks (fun v => (xr v : EReal) * (yr v : EReal))]
  · rw [Cos.rowState_tt, Cos.sum_chunks (fun v => (yr v : EReal) * (yr v : EReal))]

end Cert.Distill

end
-- ==== Proof.Logits.lean ====
/-
  A logit — a finite sum of products of real numbers plus a real number — is a real number.
-/
import proofs.«426442_j89240830476401_2_alg».proof.Proof.Spec

noncomputable section

namespace Cert.Distill

theorem real_logit {n : ℕ} (a b : Fin n → EReal) (c : EReal) (ha : ∀ h, ∃ r : ℝ, a h = (r : EReal))
    (hb : ∀ h, ∃ r : ℝ, b h = (r : EReal)) (hc : ∃ r : ℝ, c = (r : EReal)) :
    ∃ r : ℝ, (∑ h : Fin n, a h * b h) + c = (r : EReal) := by
  choose ra hra using ha
  choose rb hrb using hb
  obtain ⟨rc, rfl⟩ := hc
  have hs : ∀ s : Finset (Fin n), ∑ h ∈ s, a h * b h = ((∑ h ∈ s, ra h * rb h : ℝ) : EReal) := by
    intro s
    induction s using Finset.induction_on with
    | empty => simp
    | insert x s hx ih => rw [Finset.sum_insert hx, Finset.sum_insert hx, EReal.coe_add, ih, hra, hrb, EReal.coe_mul]
  exact ⟨(∑ h : Fin n, ra h * rb h) + rc, by rw [EReal.coe_add, hs Finset.univ]⟩

end Cert.Distill

end
-- ==== Proof.Bridge.lean ====
/-
  The two programs return one scalar. Both results are the shared closed form `loss` of the rows' labels and per-row losses.
  The labels agree. For a counted row, whose label is a vocabulary index `L`, the kernel's online log-sum-exp value
  `(m + log l) - lab` after the last chunk is the reference's `-(log-softmax at L)`; for every row the kernel's
  `1 - st / (a · b)` is the reference's `1 - ∑ (x / a) · (y / b)`: both for real logits, and the logits are real because the
  inputs are.
-/
import proofs.«426442_j89240830476401_2_alg».proof.Proof.KRun
import proofs.«426442_j89240830476401_2_alg».proof.Proof.RefValue
import proofs.«426442_j89240830476401_2_alg».proof.Proof.PreFacts
import proofs.«426442_j89240830476401_2_alg».proof.Proof.OnlineLse
import proofs.«426442_j89240830476401_2_alg».proof.Proof.Cosine
import proofs.«426442_j89240830476401_2_alg».proof.Proof.Logits

noncomputable section

namespace Cert.Proof.Bridge

open Idealize.ShloMosaic Idealize.ShloMosaic.TcCoe Idealize.SL.Sem Cert.Distill
open Idealize.ShloMosaic.ValueIdx (ix1 ix2 ix0)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem result_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ReadP.val_main_v49 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = Cert.KernelIdeal.Val.kResult m c := by
  obtain ⟨f0, f1, f2, f3, f5, f6, hl⟩ := Cert.PreRead.of_pre _ _ _ _ _ _ _ hpre
  -- the logits and labels the reference reads are the kernel's
  have hX : ∀ r, Cert.ReferenceIdeal.RefVal.X m' c r = Cert.KernelIdeal.Val.X m c r := fun r => by
    rw [Cert.KernelIdeal.Val.X_args]
    unfold Cert.ReferenceIdeal.RefVal.X
    rw [h0, h1, h5]
    rfl
  have hY : ∀ r, Cert.ReferenceIdeal.RefVal.Y m' c r = Cert.KernelIdeal.Val.Y m c r := fun r => by
    rw [Cert.KernelIdeal.Val.Y_args]
    unfold Cert.ReferenceIdeal.RefVal.Y
    rw [h2, h3, h6]
    rfl
  have hlbl : Cert.ReferenceIdeal.RefVal.lbl m' c = Cert.KernelIdeal.Val.lblArg m c := funext fun r => by
    unfold Cert.ReferenceIdeal.RefVal.lbl Cert.KernelIdeal.Val.lblArg
    rw [h4]
  -- the logits are real
  have hfX : ∀ r, Finite (Cert.KernelIdeal.Val.X m c r) := fun r v => by
    rw [Cert.KernelIdeal.Val.X_args]
    unfold Cert.KernelIdeal.Val.argLogits
    exact real_logit _ _ _ (fun h => f0 _) (fun h => f1 _) (f5 _)
  have hfY : ∀ r, Finite (Cert.KernelIdeal.Val.Y m c r) := fun r v => by
    rw [Cert.KernelIdeal.Val.Y_args]
    unfold Cert.KernelIdeal.Val.argLogits
    exact real_logit _ _ _ (fun h => f2 _) (fun h => f3 _) (f6 _)
  -- a counted row's label is a vocabulary index
  have hidx : ∀ r : Fin 2048, ∃ L : Fin 32000, isValid (Cert.KernelIdeal.Val.lblArg m c r) = true →
      Cert.KernelIdeal.Val.lblArg m c r = BitVec.ofNat 32 L.val := fun r => by
    rcases hl r with hig | ⟨L, hL⟩
    · refine ⟨⟨0, by norm_num⟩, fun hv => ?_⟩
      exfalso
      have : Cert.KernelIdeal.Val.lblArg m c r = ignoreWord := hig
      rw [this] at hv
      simp [isValid] at hv
    · exact ⟨L, fun _ => hL⟩
  choose Lof hLof using hidx
  funext i
  obtain rfl : i = ix0 := Idealize.ShloMosaic.ValueIdx.eq_ix0 i
  have hR := Cert.ReferenceIdeal.RefVal.result_eq m' c Lof (by rw [hlbl]; exact hLof)
  refine hR.trans ?_
  show _ = loss (Cert.KernelIdeal.Val.lblArg m c) (Cert.KernelIdeal.Val.nllK m c) (Cert.KernelIdeal.Val.softK m c)
  rw [hlbl]
  refine loss_congr _ _ _ _ _ (fun r hv => ?_) (fun r => ?_)
  · -- a counted row
    rw [hX r]
    have hw : Cert.KernelIdeal.Val.lbl m c r = BitVec.ofNat 32 (Lof r).val :=
      (Cert.KernelIdeal.Val.lbl_eq_arg m c r).trans (hLof r hv)
    show -(refLogp (Cert.KernelIdeal.Val.X m c r) (Lof r))
      = nllOf (rowState (Cert.KernelIdeal.Val.X m c r) (Cert.KernelIdeal.Val.Y m c r) (Cert.KernelIdeal.Val.lbl m c r) 124)
    rw [hw]
    exact (nll_eq _ _ (hfX r) (Lof r)).symm
  · rw [hX r, hY r]
    exact (soft_eq _ _ _ (hfX r) (hfY r)).symm

end Cert.Proof.Bridge

end
-- ==== Proof.lean ====
/-
  The certificate: the word-level kernel and its idealization run to completion with their arguments unchanged; the reference
  does too; the idealization rewrote nothing; and at the extended reals the kernel's online log-sum-exp / cosine loss over
  vocabulary chunks and the reference's log-softmax / normalised inner product are the same scalar, for finite inputs and
  labels that are the ignored label or a vocabulary index.
-/
import proofs.«426442_j89240830476401_2_alg».proof.Defs
import proofs.«426442_j89240830476401_2_alg».proof.Proof.Gen.Kernel
import proofs.«426442_j89240830476401_2_alg».proof.Proof.Gen.KernelIdeal
import proofs.«426442_j89240830476401_2_alg».proof.Proof.Gen.ReferenceIdeal
import proofs.«426442_j89240830476401_2_alg».proof.Proof.Gen.Pre_finite_inputs
import proofs.«426442_j89240830476401_2_alg».proof.Proof.RefRun
import proofs.«426442_j89240830476401_2_alg».proof.Proof.PatchedKernel.Run
import proofs.«426442_j89240830476401_2_alg».proof.Proof.PatchedKernelIdeal.Run
import proofs.«426442_j89240830476401_2_alg».proof.Proof.Bridge
import Idealize.ShloMosaic.Adequacy
import Idealize.ShloMosaic.Init

noncomputable section

namespace Cert.Proof

open Idealize.ShloMosaic Idealize.SL.Sem

/-- The word-level kernel runs, its arguments unchanged. -/
theorem frame_k : Cert.frame_Kernel := fun m ρ _ => Cert.Kernel.GenP.frame m ρ

/-- The idealized kernel runs, its arguments unchanged. -/
theorem frame_ki : Cert.frame_KernelIdeal := fun m ρ _ => Cert.KernelIdeal.GenP.frame m ρ

/-- The reference runs, its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the extended reals the two programs, from memories agreeing on the arguments, return one scalar. -/
theorem algebraic : Cert.algebraic_KernelIdeal_ReferenceIdeal := by
  intro m ρ m' ρ' hpre hagree
  refine ⟨fun c => Cert.KernelIdeal.Val.kResult m c, Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  exact Bridge.result_eq m m' c (hpre c) (hagree c).1 (hagree c).2.1 (hagree c).2.2.1 (hagree c).2.2.2.1 (hagree c).2.2.2.2.1
    (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
